-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S400000x128 : Shape := ⟨2, ![400000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_v44 : IVec S_ 1) (main_v49 : IVec S800000 1) : IVec S_ 1 :=
  let main_c_20 : IVec S_ 1 := constantI S_ 1 1#1
  let main_v50 : IVec S_ 1 := (fun x v => Host.reduce IntOp.andi x v reducesTo_S800000_S_d0 h_S_) main_v49 main_c_20
  let main_v51 : IVec S_ 1 := andi main_v44 main_v50
  main_v51

def fn_part2 {F : FTy → Type} [FloatOps F] (main_arg2 : IVec S800000 32) (main_arg3 : IVec S800000 32) (main_v32 : IVec S_ 1) (main_c_12 : IVec S_ 32) : IVec S_ 1 :=
  let main_v33 : IVec S800000 32 := broadcastInDim S800000 ![] bcast_S_S800000 main_c_12
  let main_v34 : IVec S800000 1 := cmpi .slt main_arg2 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v32 main_v35
  let main_c_14 : IVec S_ 32 := constantI S_ 32 0#32
  let main_v37 : IVec S800000 32 := broadcastInDim S800000 ![] bcast_S_S800000 main_c_14
  let main_v38 : IVec S800000 1 := cmpi .sge main_arg3 main_v37
  let main_c_15 : IVec S_ 1 := constantI S_ 1 1#1
  let main_v39 : IVec S_ 1 := (fun x v => Host.reduce IntOp.andi x v reducesTo_S800000_S_d0 h_S_) main_v38 main_c_15
  let main_v40 : IVec S_ 1 := andi main_v36 main_v39
  let main_c_16 : IVec S_ 32 := constantI S_ 32 100000#32
  let main_v41 : IVec S800000 32 := broadcastInDim S800000 ![] bcast_S_S800000 main_c_16
  let main_v42 : IVec S800000 1 := cmpi .slt main_arg3 main_v41
  let main_c_17 : IVec S_ 1 := constantI S_ 1 1#1
  let main_v43 : IVec S_ 1 := (fun x v => Host.reduce IntOp.andi x v reducesTo_S800000_S_d0 h_S_) main_v42 main_c_17
  let main_v44 : IVec S_ 1 := andi main_v40 main_v43
  let main_c_18 : IVec S_ 32 := constantI S_ 32 1000#32
  let main_v45 : IVec S800000 32 := broadcastInDim S800000 ![] bcast_S_S800000 main_c_18
  let main_v46 : IVec S800000 32 := Host.divsi main_arg2 main_v45
  let main_c_19 : IVec S_ 32 := constantI S_ 32 1000#32
  let main_v47 : IVec S800000 32 := broadcastInDim S800000 ![] bcast_S_S800000 main_c_19
  let main_v48 : IVec S800000 32 := Host.divsi main_arg3 main_v47
  let main_v49 : IVec S800000 1 := cmpi .eq main_v46 main_v48
  fn_part3 (F := F) main_v44 main_v49

def fn_part1 {F : FTy → Type} [FloatOps F] (main_arg2 : IVec S800000 32) (main_arg3 : IVec S800000 32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S800000 32 := broadcastInDim S800000 ![] bcast_S_S800000 main_c_10
  let main_v30 : IVec S800000 1 := cmpi .sge main_arg2 main_v29
  let main_c_11 : IVec S_ 1 := constantI S_ 1 1#1
  let main_v31 : IVec S_ 1 := (fun x v => Host.reduce IntOp.andi x v reducesTo_S800000_S_d0 h_S_) main_v30 main_c_11
  let main_v32 : IVec S_ 1 := andi main_v28 main_v31
  let main_c_12 : IVec S_ 32 := constantI S_ 32 100000#32
  fn_part2 (F := F) main_arg2 main_arg3 main_v32 main_c_12

def fn {F : FTy → Type} [FloatOps F] (main_arg0 : FVec F S1 .f32) (main_arg1 : FVec F S400000x128 .f32) (main_arg2 : IVec S800000 32) (main_arg3 : IVec S800000 32) (main_arg4 : FVec F S128x128 .f32) (main_arg5 : FVec F S128 .f32) (main_arg6 : FVec F S128 .f32) (main_arg7 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_v13 main_v16
-- ==== Kernel.lean ====
abbrev S1 : Shape := ⟨1, ![1]⟩
abbrev S400000x128 : Shape := ⟨2, ![400000, 128]⟩
abbrev S800000 : Shape := ⟨1, ![800000]⟩
abbrev S128x128 : Shape := ⟨2, ![128, 128]⟩
abbrev S128 : Shape := ⟨1, ![128]⟩
abbrev S_ : Shape := ⟨0, ![]⟩
abbrev S100000x1000 : Shape := ⟨2, ![100000, 1000]⟩
abbrev S800000x1 : Shape := ⟨2, ![800000, 1]⟩
abbrev S800000x2 : Shape := ⟨2, ![800000, 2]⟩
abbrev S100000x128 : Shape := ⟨2, ![100000, 128]⟩
abbrev S1000x128 : Shape := ⟨2, ![1000, 128]⟩
abbrev S1000x1000 : Shape := ⟨2, ![1000, 1000]⟩
abbrev S1x128 : Shape := ⟨2, ![1, 128]⟩
abbrev S1000x1 : Shape := ⟨2, ![1000, 1]⟩
abbrev S1000 : Shape := ⟨1, ![1000]⟩

abbrev nBuf : Space → Nat
  | .hbm => 95
  | .vmem => 20
  | .smem => 0
  | _ => 0

abbrev bufTy : (tb : Table) → Fin (tcTables nBuf tb) → BufTy
  | .hbm, ⟨0, _⟩ => ⟨S1, .f32⟩
  | .hbm, ⟨1, _⟩ => ⟨S400000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S_, .i32⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S800000, .i32⟩
  | .hbm, ⟨35, _⟩ => ⟨S800000, .i32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S_, .i1⟩
  | .hbm, ⟨60, _⟩ => ⟨S800000, .i1⟩
  | .hbm, ⟨61, _⟩ => ⟨S800000, .i1⟩
  | .hbm, ⟨62, _⟩ => ⟨S800000, .i1⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000, .i1⟩
  | .hbm, ⟨67, _⟩ => ⟨S800000, .f32⟩
  | .hbm, ⟨68, _⟩ => ⟨S_, .f32⟩
  | .hbm, ⟨69, _⟩ => ⟨S100000x1000, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x1, .i32⟩
  | .hbm, ⟨86, _⟩ => ⟨S800000x2, .i32⟩
  | .hbm, ⟨87, _⟩ => ⟨S100000x1000, .f32⟩
  | .hbm, ⟨88, _⟩ => ⟨S100000x1000, .bf16⟩
  | .hbm, ⟨89, _⟩ => ⟨S128x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S400000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x1000, .bf16⟩
  | .local _ .vmem, ⟨7, _⟩ => ⟨S1000x1000, .bf16⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v1 : Ref sig .tc := ⟨.hbm, 43, rfl⟩
abbrev main_c_1 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v2 : Ref sig .tc := ⟨.hbm, 65, rfl⟩
abbrev main_v3 : Ref sig .tc := ⟨.hbm, 66, rfl⟩
abbrev main_v4 : Ref sig .tc := ⟨.hbm, 67, rfl⟩
abbrev main_cst : Ref sig .tc := ⟨.hbm, 68, rfl⟩
abbrev main_v5 : Ref sig .tc := ⟨.hbm, 69, rfl⟩
abbrev main_c_2 : Ref sig .tc := ⟨.hbm, 70, rfl⟩
abbrev main_v6 : Ref sig .tc := ⟨.hbm, 71, rfl⟩
abbrev main_v7 : Ref sig .tc := ⟨.hbm, 72, rfl⟩
abbrev main_c_3 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_c_4 : Ref sig .tc := ⟨.hbm, 77, rfl⟩
abbrev main_v11 : Ref sig .tc := ⟨.hbm, 78, rfl⟩
abbrev main_v12 : Ref sig .tc := ⟨.hbm, 79, rfl⟩
abbrev main_c_5 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22_0 : Ref sig .tc := ⟨.hbm, 90, rfl⟩
abbrev main_v22_1 : Ref sig .tc := ⟨.hbm, 91, rfl⟩
abbrev main_v22_2 : Ref sig .tc := ⟨.hbm, 92, rfl⟩
abbrev main_v22_3 : Ref sig .tc := ⟨.hbm, 93, rfl⟩
abbrev main_v23 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c100_i32 : BitVec 32 := 100#32
  let v0 : BitVec 32 := Scalar.addi arg0 c100_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c300_i32 : BitVec 32 := 300#32
  let v0 : BitVec 32 := Scalar.addi arg0 c300_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000 : S_.BroadcastsInDim S800000 (![] : Fin 0 → Fin S800000.rank)
  bcast_S_S100000x1000 : S_.BroadcastsInDim S100000x1000 (![] : Fin 0 → Fin S100000x1000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bitsLt_bf16_f32 : FTy.bits .bf16 < FTy.bits .f32
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  slices_S1000x128_o0_0_S1000x1 : S1000x128.Slices ![0, 0] S1000x1
  slices_S1000x128_o0_1_S1000x1 : S1000x128.Slices ![0, 1] S1000x1
  broadcasts_S1000x1_S1000x128 : S1000x1.Broadcasts S1000x128
  reduces_S1000x128_S1000 : S1000x128.Reduces [1] S1000
  shapeCasts_S1000_S1000x1 : S1000.ShapeCasts S1000x1
  concatenates_S100000x128_S100000x128_S100000x128_S100000x128_S400000x128_d0 : Shape.Concatenates [S100000x128, S100000x128, S100000x128, S100000x128] S400000x128 0
  scatter_S100000x1000_S800000x2_S800000_n_01_01_1_wf : ScatterDims.WF S100000x1000 S800000x2 S800000 [] [0, 1] [0, 1] 1
  dot_S1000x128_S128x128_S1000x128_1_0_0_1_n_n_wf : DotDims.WF S1000x128 S128x128 S1000x128 [1] [0] [0] [1] [] []
  dot_S1000x1000_S1000x128_S1000x128_1_0_0_1_n_n_wf : DotDims.WF S1000x1000 S1000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S400000x128.size a
  hwx0_0 : ∀ i : grid0.Coords, EltTy.bits .f32 = 32 ∨ (Rect.block (s := S400000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S400000x128.size a
  hwx0_1 : ∀ i : grid0.Coords, EltTy.bits .f32 = 32 ∨ (Rect.block (s := S400000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S400000x128.size a
  hwx0_2 : ∀ i : grid0.Coords, EltTy.bits .f32 = 32 ∨ (Rect.block (s := S400000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1000.size a ≤ S100000x1000.size a
  hwx0_3 : ∀ i : grid0.Coords, EltTy.bits .bf16 = 32 ∨ (Rect.block (s := S100000x1000) S1000x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S100000x128.size a
  hwx0_8 : ∀ i : grid0.Coords, EltTy.bits .f32 = 32 ∨ (Rect.block (s := S100000x128) S1000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S100000x128.size a
  hwx0_9 : ∀ i : grid0.Coords, EltTy.bits .f32 = 32 ∨ (Rect.block (s := S100000x128) S1000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x128.size a ≤ S100000x128.size a
  hwx0_10 : ∀ i : grid0.Coords, EltTy.bits .f32 = 32 ∨ (Rect.block (s := S100000x128) S1000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S100000x128.size a
  hwx0_11 : ∀ i : grid0.Coords, EltTy.bits .f32 = 32 ∨ (Rect.block (s := S100000x128) S1000x128.size (cc0_transform_11 i) (hinb0_11 i)).WholeWords (EltTy.packing .f32)

variable [Facts₀]

def scatter_S100000x1000_S800000x2_S800000_n_01_01_1 : ScatterDims S100000x1000 S800000x2 S800000 where
  updateWindowDims := []
  insertedWindowDims := [0, 1]
  scatterDimsToOperandDims := [0, 1]
  indexVectorDim := 1
  wf := scatter_S100000x1000_S800000x2_S800000_n_01_01_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x1000_S1000x128_S1000x128_1_0_0_1_n_n : DotDims S1000x1000 S1000x128 S1000x128 where
  lhsContracting := [1]
  rhsContracting := [0]
  lhsNonContracting := [0]
  rhsNonContracting := [1]
  lhsBatch := []
  rhsBatch := []
  wf := dot_S1000x1000_S1000x128_S1000x128_1_0_0_1_n_n_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1000x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22_0) S1000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_1) S1000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_2) S1000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_3) S1000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1 : Shape := ⟨1, ![1]⟩
abbrev S400000x128 : Shape := ⟨2, ![400000, 128]⟩
abbrev S800000 : Shape := ⟨1, ![800000]⟩
abbrev S128x128 : Shape := ⟨2, ![128, 128]⟩
abbrev S128 : Shape := ⟨1, ![128]⟩
abbrev S300000x128 : Shape := ⟨2, ![300000, 128]⟩
abbrev S100000x1 : Shape := ⟨2, ![100000, 1]⟩
abbrev S100000 : Shape := ⟨1, ![100000]⟩
abbrev S1x128 : Shape := ⟨2, ![1, 128]⟩
abbrev S_ : Shape := ⟨0, ![]⟩
abbrev S100000x128 : Shape := ⟨2, ![100000, 128]⟩
abbrev S800000x1 : Shape := ⟨2, ![800000, 1]⟩
abbrev S800000x128 : Shape := ⟨2, ![800000, 128]⟩

abbrev nBuf : Space → Nat
  | .hbm => 139
  | .vmem => 0
  | .smem => 0
  | _ => 0

abbrev hbmTy0_0 (i : Nat) : BufTy := match i % 128 with
  | 0 => ⟨S1, .f32⟩
  | 1 => ⟨S400000x128, .f32⟩
  | 2 => ⟨S800000, .i32⟩
  | 3 => ⟨S800000, .i32⟩
  | 4 => ⟨S128x128, .f32⟩
  | 5 => ⟨S128, .f32⟩
  | 6 => ⟨S128, .f32⟩
  | 7 => ⟨S128, .f32⟩
  | 8 => ⟨S300000x128, .f32⟩
  | 9 => ⟨S100000x1, .f32⟩
  | 10 => ⟨S100000, .f32⟩
  | 11 => ⟨S100000x1, .f32⟩
  | 12 => ⟨S100000, .f32⟩
  | 13 => ⟨S128x128, .f32⟩
  | 14 => ⟨S300000x128, .f32⟩
  | 15 => ⟨S1x128, .f32⟩
  | 16 => ⟨S300000x128, .f32⟩
  | 17 => ⟨S300000x128, .f32⟩
  | 18 => ⟨S_, .f32⟩
  | 19 => ⟨S300000x128, .f32⟩
  | 20 => ⟨S300000x128, .f32⟩
  | 21 => ⟨S100000x128, .f32⟩
  | 22 => ⟨S100000x128, .f32⟩
  | 23 => ⟨S100000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S100000x128, .f32⟩
  | 35 => ⟨S800000x1, .i32⟩
  | 36 => ⟨S100000x128, .f32⟩
  | 37 => ⟨S100000x1, .f32⟩
  | 38 => ⟨S100000x1, .f32⟩
  | 39 => ⟨S100000x128, .f32⟩
  | 40 => ⟨S100000x128, .f32⟩
  | 41 => ⟨S100000x128, .f32⟩
  | 42 => ⟨S100000x128, .f32⟩
  | 43 => ⟨S100000x1, .f32⟩
  | 44 => ⟨S100000x128, .f32⟩
  | 45 => ⟨S100000x128, .f32⟩
  | 46 => ⟨S100000x128, .f32⟩
  | 47 => ⟨S100000x1, .f32⟩
  | 48 => ⟨S100000x128, .f32⟩
  | 49 => ⟨S100000x128, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S_, .f32⟩
  | 68 => ⟨S100000x1, .f32⟩
  | 69 => ⟨S100000x1, .f32⟩
  | 70 => ⟨S100000x1, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S100000x128, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S_, .f32⟩
  | 97 => ⟨S100000x1, .f32⟩
  | 98 => ⟨S100000x1, .f32⟩
  | 99 => ⟨S100000x1, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S100000x128, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S_, .f32⟩
  | 126 => ⟨S100000x1, .f32⟩
  | 127 => ⟨S100000x1, .f32⟩
  | _ => ⟨S1, .f32⟩

abbrev hbmTy0_1 (i : Nat) : BufTy := match i % 128 with
  | 0 => ⟨S100000x1, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S100000x128, .f32⟩
  | 10 => ⟨S400000x128, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_13 : Ref sig .tc := ⟨.hbm, 117, rfl⟩
abbrev main_v92 : Ref sig .tc := ⟨.hbm, 118, rfl⟩
abbrev main_v93 : Ref sig .tc := ⟨.hbm, 119, rfl⟩
abbrev main_cst_14 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]

class Facts₀ : Prop where
  slices_S400000x128_S300000x128_0_0 : S400000x128.Slices ![0, 0] S300000x128
  slices_S400000x128_S100000x1_300000_0 : S400000x128.Slices ![300000, 0] S100000x1
  shapeCasts_S100000x1_S100000 : S100000x1.ShapeCasts S100000
  slices_S400000x128_S100000x1_300000_1 : S400000x128.Slices ![300000, 1] S100000x1
  transposes_S128x128_S128x128_1_0 : S128x128.Transposes [1, 0] S128x128
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  slices_S300000x128_S100000x128_0_0 : S300000x128.Slices ![0, 0] S100000x128
  slices_S300000x128_S100000x128_100000_0 : S300000x128.Slices ![100000, 0] S100000x128
  slices_S300000x128_S100000x128_200000_0 : S300000x128.Slices ![200000, 0] S100000x128
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S1x128_S100000x128_0_1 : S1x128.BroadcastsInDim S100000x128 (![0, 1] : Fin 2 → Fin S100000x128.rank)
  slices_S400000x128_S100000x128_300000_0 : S400000x128.Slices ![300000, 0] S100000x128
  concatenates_S100000x128_S100000x128_S100000x128_S100000x128_S400000x128_d0 : Shape.Concatenates [S100000x128, S100000x128, S100000x128, S100000x128] S400000x128 0
  dot_S300000x128_S128x128_S300000x128_1_0_0_1_n_n_wf : DotDims.WF S300000x128 S128x128 S300000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.K.Outs.lean ====
/-
  What the kernel body leaves in its three computed output buffers, as functions of the eight input blocks it loads whole:
  x0 the S rows' block, x1 the I rows' block, x2 the rate rows' block, x3 the adjacency block, x4 the transposed weight,
  x5 the bias, x6 and x7 the normalisation's scale and shift. The fourth output buffer receives x2 unchanged.
-/
import proofs.«416151_j72335839199610_2_alg».proof.Proof.Gen.Kernel.Skeleton

noncomputable section

namespace Cert.Kernel.Hand

open Cert.Kernel Cert.Kernel.Gen Idealize.ShloMosaic

variable {F : FTy → Type} [FloatOps F]

/-- The normalised dS rows of the block. -/
def outS (x0 x1 x2 : Vec F S1000x128 .f32) (x3 : Vec F S1000x1000 .bf16) (x4 : Vec F S128x128 .f32) (x5 x6 x7 : Vec F S128 .f32) :
    Vec F S1000x128 .f32 :=
  k0_pay9 (k0_pay6 x0 x1 x4 x5 x3 x2) x6 x7

/-- The normalised dI rows of the block. -/
def outI (x0 x1 x2 : Vec F S1000x128 .f32) (x3 : Vec F S1000x1000 .bf16) (x4 : Vec F S128x128 .f32) (x5 x6 x7 : Vec F S128 .f32) :
    Vec F S1000x128 .f32 :=
  k0_pay1 x7 (k0_pay10 (k0_pay7 x0 x1 x4 x5 x3 x2)) (k0_pay11 x6)

/-- The normalised dR rows of the block. -/
def outR (x0 x1 x2 : Vec F S1000x128 .f32) (x3 : Vec F S1000x1000 .bf16) (x4 : Vec F S128x128 .f32) (x5 x6 x7 : Vec F S128 .f32) :
    Vec F S1000x128 .f32 :=
  k0_pay2 (k0_pay8 x1 x4 x5 x2) x6 x7

end Cert.Kernel.Hand

end
-- ==== Proof.K.Data.lean ====
/-
  The proof data of the one pipeline: the arrays as the region finds them (after the host operations before it), each
  window's block at a grid point, what the body leaves in each staging buffer, and the shares at which the three windows
  that stage the same array x hold it.
-/
import proofs.«416151_j72335839199610_2_alg».proof.Proof.K.Outs
import proofs.«416151_j72335839199610_2_alg».proof.Proof.Gen.Kernel.Launch
import proofs.«416151_j72335839199610_2_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host operations before the region, stretch by stretch. -/
abbrev preOps : List (List (HloOp τ sig (Elt F))) := [hostOps0, hostOps0_1, hostOps0_2, hostOps0_3, hostOps0_4, hostOps0_5, hostOps0_6]

/-- Core c's buffer contents when the region is entered. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The shares of the windows' arrays: the array x is staged by windows 0, 1 and 2, which hold it at three disjoint parts
    of the full share; every other window's array is held whole. -/
def qshare : Fin 12 → PosShare TreeShare
  | ⟨0, _⟩ => fullShare.left
  | ⟨1, _⟩ => fullShare.right.left
  | ⟨2, _⟩ => fullShare.right.right
  | _ => fullShare

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outS (iblk m c 0 t) (iblk m c 1 t) (iblk m c 2 t) (iblk m c 3 t) (iblk m c 4 t) (iblk m c 5 t) (iblk m c 6 t) (iblk m c 7 t)
    | ⟨9, _⟩ => outI (iblk m c 0 t) (iblk m c 1 t) (iblk m c 2 t) (iblk m c 3 t) (iblk m c 4 t) (iblk m c 5 t) (iblk m c 6 t) (iblk m c 7 t)
    | ⟨10, _⟩ => outR (iblk m c 0 t) (iblk m c 1 t) (iblk m c 2 t) (iblk m c 3 t) (iblk m c 4 t) (iblk m c 5 t) (iblk m c 6 t) (iblk m c 7 t)
    | ⟨11, _⟩ => iblk m c 2 t
  Φ _ := Pipeline.ΦA spec0 c
  q := qshare
  owed _ := 0

theorem A_eq (c : Dev nD) (w : Fin cfg0.W) : (dats m 0 c).A w = V m c (Pipeline.arrRef spec0 w) := by
  dsimp only [dats]

/-- The result buffer after the host operation that follows the region: the four output arrays joined along the rows. -/
def finalOut (c : Dev nD) : (⟨S400000x128, .f32⟩ : BufTy).Contents (Elt F) :=
  concatenate S400000x128 0 [⟨S100000x128, (dats m 0 c).arrAt 8 cfg0.N⟩, ⟨S100000x128, (dats m 0 c).arrAt 9 cfg0.N⟩,
    ⟨S100000x128, (dats m 0 c).arrAt 10 cfg0.N⟩, ⟨S100000x128, (dats m 0 c).arrAt 11 cfg0.N⟩]
    concatenates_S100000x128_S100000x128_S100000x128_S100000x128_S400000x128_d0

end Cert.Kernel.Hand

end
-- ==== Proof.K.Shares.lean ====
/-
  The shares of the pipeline's arrays. Three windows stage the same array x; each holds one of three disjoint parts of
  its full share, so the ten distinct buffers behind the twelve windows' arrays, each whole at the full share, split into
  the twelve windows' holdings and join back.
-/
import proofs.«416151_j72335839199610_2_alg».proof.Proof.K.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the twelve windows' arrays: x, the adjacency, the transposed weights, the three
    vectors and the four outputs. -/
theorem arrImage : Finset.univ.image (Pipeline.arrRef spec0)
    = ([main_arg1, main_v20, main_v21, main_arg5, main_arg6, main_arg7, main_v22_0, main_v22_1, main_v22_2, main_v22_3] : List (Ref sig .tc)).toFinset := by
  decide

/-- The buffers behind the arrays, one points-to each. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg1) ↦{fullShare} V main_arg1)
          ∗ (((c.tc : Thread nD τ).loc main_v20) ↦{fullShare} V main_v20)
          ∗ (((c.tc : Thread nD τ).loc main_v21) ↦{fullShare} V main_v21)
          ∗ (((c.tc : Thread nD τ).loc main_arg5) ↦{fullShare} V main_arg5)
          ∗ (((c.tc : Thread nD τ).loc main_arg6) ↦{fullShare} V main_arg6)
          ∗ (((c.tc : Thread nD τ).loc main_arg7) ↦{fullShare} V main_arg7)
          ∗ (((c.tc : Thread nD τ).loc main_v22_0) ↦{fullShare} V main_v22_0)
          ∗ (((c.tc : Thread nD τ).loc main_v22_1) ↦{fullShare} V main_v22_1)
          ∗ (((c.tc : Thread nD τ).loc main_v22_2) ↦{fullShare} V main_v22_2)
          ∗ (((c.tc : Thread nD τ).loc main_v22_3) ↦{fullShare} V main_v22_3)) := by
  unfold Pipeline.arrBufs
  exact bigSep_eq_bigSepL_of_eq [main_arg1, main_v20, main_v21, main_arg5, main_arg6, main_arg7, main_v22_0, main_v22_1, main_v22_2, main_v22_3]
    arrImage (by decide) _

/-- The share each window holds its array at: the three windows on x hold the three parts of the full share, every
    other window the full share (an output always, an input by the proof data's choice). -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl

/-- Window by window: the window's array is a whole buffer, so its points-to over the array's elements is the buffer's
    whole points-to, at the window's share. -/
theorem arr_pt0 (c : Dev nD) (G : Buf (Elt F) ((cfg0.win 0).arr.view.loc (c.tc : Thread nD τ))) :
    (((cfg0.win 0).arr.view.loc (c.tc : Thread nD τ)) ↦[(cfg0.win 0).arr.view.set]{(dats m 0 c).share 0} G : sProp 𝕄)
      = (((c.tc : Thread nD τ).loc main_arg1) ↦{fullShare.left} G) := by
  rw [(arr_whole0 0).set_eq_univ, share_0]
theorem arr_pt1 (c : Dev nD) (G : Buf (Elt F) ((cfg0.win 1).arr.view.loc (c.tc : Thread nD τ))) :
    (((cfg0.win 1).arr.view.loc (c.tc : Thread nD τ)) ↦[(cfg0.win 1).arr.view.set]{(dats m 0 c).share 1} G : sProp 𝕄)
      = (((c.tc : Thread nD τ).loc main_arg1) ↦{fullShare.right.left} G) := by
  rw [(arr_whole0 1).set_eq_univ, share_1]
theorem arr_pt2 (c : Dev nD) (G : Buf (Elt F) ((cfg0.win 2).arr.view.loc (c.tc : Thread nD τ))) :
    (((cfg0.win 2).arr.view.loc (c.tc : Thread nD τ)) ↦[(cfg0.win 2).arr.view.set]{(dats m 0 c).share 2} G : sProp 𝕄)
      = (((c.tc : Thread nD τ).loc main_arg1) ↦{fullShare.right.right} G) := by
  rw [(arr_whole0 2).set_eq_univ, share_2]
theorem arr_pt3 (c : Dev nD) (G : Buf (Elt F) ((cfg0.win 3).arr.view.loc (c.tc : Thread nD τ))) :
    (((cfg0.win 3).arr.view.loc (c.tc : Thread nD τ)) ↦[(cfg0.win 3).arr.view.set]{(dats m 0 c).share 3} G : sProp 𝕄)
      = (((c.tc : Thread nD τ).loc main_v20) ↦{fullShare} G) := by
  rw [(arr_whole0 3).set_eq_univ, share_3]
theorem arr_pt4 (c : Dev nD) (G : Buf (Elt F) ((cfg0.win 4).arr.view.loc (c.tc : Thread nD τ))) :
    (((cfg0.win 4).arr.view.loc (c.tc : Thread nD τ)) ↦[(cfg0.win 4).arr.view.set]{(dats m 0 c).share 4} G : sProp 𝕄)
      = (((c.tc : Thread nD τ).loc main_v21) ↦{fullShare} G) := by
  rw [(arr_whole0 4).set_eq_univ, share_4]
theorem arr_pt5 (c : Dev nD) (G : Buf (Elt F) ((cfg0.win 5).arr.view.loc (c.tc : Thread nD τ))) :
    (((cfg0.win 5).arr.view.loc (c.tc : Thread nD τ)) ↦[(cfg0.win 5).arr.view.set]{(dats m 0 c).share 5} G : sProp 𝕄)
      = (((c.tc : Thread nD τ).loc main_arg5) ↦{fullShare} G) := by
  rw [(arr_whole0 5).set_eq_univ, share_5]
theorem arr_pt6 (c : Dev nD) (G : Buf (Elt F) ((cfg0.win 6).arr.view.loc (c.tc : Thread nD τ))) :
    (((cfg0.win 6).arr.view.loc (c.tc : Thread nD τ)) ↦[(cfg0.win 6).arr.view.set]{(dats m 0 c).share 6} G : sProp 𝕄)
      = (((c.tc : Thread nD τ).loc main_arg6) ↦{fullShare} G) := by
  rw [(arr_whole0 6).set_eq_univ, share_6]
theorem arr_pt7 (c : Dev nD) (G : Buf (Elt F) ((cfg0.win 7).arr.view.loc (c.tc : Thread nD τ))) :
    (((cfg0.win 7).arr.view.loc (c.tc : Thread nD τ)) ↦[(cfg0.win 7).arr.view.set]{(dats m 0 c).share 7} G : sProp 𝕄)
      = (((c.tc : Thread nD τ).loc main_arg7) ↦{fullShare} G) := by
  rw [(arr_whole0 7).set_eq_univ, share_7]
theorem arr_pt8 (c : Dev nD) (G : Buf (Elt F) ((cfg0.win 8).arr.view.loc (c.tc : Thread nD τ))) :
    (((cfg0.win 8).arr.view.loc (c.tc : Thread nD τ)) ↦[(cfg0.win 8).arr.view.set]{(dats m 0 c).share 8} G : sProp 𝕄)
      = (((c.tc : Thread nD τ).loc main_v22_0) ↦{fullShare} G) := by
  rw [(arr_whole0 8).set_eq_univ, share_8]
theorem arr_pt9 (c : Dev nD) (G : Buf (Elt F) ((cfg0.win 9).arr.view.loc (c.tc : Thread nD τ))) :
    (((cfg0.win 9).arr.view.loc (c.tc : Thread nD τ)) ↦[(cfg0.win 9).arr.view.set]{(dats m 0 c).share 9} G : sProp 𝕄)
      = (((c.tc : Thread nD τ).loc main_v22_1) ↦{fullShare} G) := by
  rw [(arr_whole0 9).set_eq_univ, share_9]
theorem arr_pt10 (c : Dev nD) (G : Buf (Elt F) ((cfg0.win 10).arr.view.loc (c.tc : Thread nD τ))) :
    (((cfg0.win 10).arr.view.loc (c.tc : Thread nD τ)) ↦[(cfg0.win 10).arr.view.set]{(dats m 0 c).share 10} G : sProp 𝕄)
      = (((c.tc : Thread nD τ).loc main_v22_2) ↦{fullShare} G) := by
  rw [(arr_whole0 10).set_eq_univ, share_10]
theorem arr_pt11 (c : Dev nD) (G : Buf (Elt F) ((cfg0.win 11).arr.view.loc (c.tc : Thread nD τ))) :
    (((cfg0.win 11).arr.view.loc (c.tc : Thread nD τ)) ↦[(cfg0.win 11).arr.view.set]{(dats m 0 c).share 11} G : sProp 𝕄)
      = (((c.tc : Thread nD τ).loc main_v22_3) ↦{fullShare} G) := by
  rw [(arr_whole0 11).set_eq_univ, share_11]

/-- The pipeline's arrays window by window. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg1) ↦{fullShare.left} G 0)
          ∗ (((c.tc : Thread nD τ).loc main_arg1) ↦{fullShare.right.left} G 1)
          ∗ (((c.tc : Thread nD τ).loc main_arg1) ↦{fullShare.right.right} G 2)
          ∗ (((c.tc : Thread nD τ).loc main_v20) ↦{fullShare} G 3)
          ∗ (((c.tc : Thread nD τ).loc main_v21) ↦{fullShare} G 4)
          ∗ (((c.tc : Thread nD τ).loc main_arg5) ↦{fullShare} G 5)
          ∗ (((c.tc : Thread nD τ).loc main_arg6) ↦{fullShare} G 6)
          ∗ (((c.tc : Thread nD τ).loc main_arg7) ↦{fullShare} G 7)
          ∗ (((c.tc : Thread nD τ).loc main_v22_0) ↦{fullShare} G 8)
          ∗ (((c.tc : Thread nD τ).loc main_v22_1) ↦{fullShare} G 9)
          ∗ (((c.tc : Thread nD τ).loc main_v22_2) ↦{fullShare} G 10)
          ∗ (((c.tc : Thread nD τ).loc main_v22_3) ↦{fullShare} G 11)) := by
  unfold Dat.arrays
  rw [bigSep_W0]
  exact congrArg₂ _ (arr_pt0 m c _) (congrArg₂ _ (arr_pt1 m c _) (congrArg₂ _ (arr_pt2 m c _) (congrArg₂ _ (arr_pt3 m c _) (congrArg₂ _ (arr_pt4 m c _) (congrArg₂ _ (arr_pt5 m c _) (congrArg₂ _ (arr_pt6 m c _) (congrArg₂ _ (arr_pt7 m c _) (congrArg₂ _ (arr_pt8 m c _) (congrArg₂ _ (arr_pt9 m c _) (congrArg₂ _ (arr_pt10 m c _) (arr_pt11 m c _)))))))))))

/-- Every window's array at entry is the buffer's contents there. -/
theorem arrAt_zero (c : Dev nD) (w : Fin cfg0.W) : (dats m 0 c).arrAt w 0 = V m c (Pipeline.arrRef spec0 w) := A_eq m c w

/-- An input window's array is never written: it ends as it began. -/
theorem arrAt_input (c : Dev nD) (w : Fin cfg0.W) (hw : (cfg0.win w).isOut = false) (t : Nat) :
    (dats m 0 c).arrAt w t = V m c (Pipeline.arrRef spec0 w) :=
  ((dats m 0 c).arrAt_in w hw t).trans (A_eq m c w)

/-- A full share of a buffer is the three parts the windows on x hold. -/
theorem pointsTo_three {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Ha, Hr⟩
    ihave Hr' := (pointsTo_share (PosShare.mem_left_op_right fullShare.right)).1 $$ Hr
    icases Hr' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- The launch's split: the ten buffers behind the arrays, whole at the entry contents, are the twelve windows' arrays
    at entry — x's full share cut in three for the three windows that stage it. -/
theorem hsplit (c : Dev nD) :
    (Pipeline.arrBufs spec0 c (V m c) : sProp 𝕄) ⊢ (dats m 0 c).arrays ((dats m 0 c).arrAt · 0) := by
  rw [arrBufs_eq, arrays_chain]
  simp only [arrAt_zero]
  iintro ⟨H1, H20, H21, H5, H6, H7, H8, H9, H10, H11⟩
  ihave H1' := (pointsTo_three (ℓ := (c.tc : Thread nD τ).loc main_arg1) (V m c main_arg1)).1 $$ H1
  icases H1' with ⟨Ha, Hb, Hc⟩
  isplitl [Ha]; · iexact Ha
  isplitl [Hb]; · iexact Hb
  isplitl [Hc]; · iexact Hc
  isplitl [H20]; · iexact H20
  isplitl [H21]; · iexact H21
  isplitl [H5]; · iexact H5
  isplitl [H6]; · iexact H6
  isplitl [H7]; · iexact H7
  isplitl [H8]; · iexact H8
  isplitl [H9]; · iexact H9
  isplitl [H10]; · iexact H10
  iexact H11

end Cert.Kernel.Hand

end
-- ==== Proof.K.Tail.lean ====
/-
  @main around its region, and the one host operation after it. Seven stretches of host operations run before the region
  and leave the buffers at the contents the region finds; after the region one operation joins the four output arrays
  into the result buffer. It touches the output arrays and the result buffer only, so it runs from the region's exit
  within those five buffers and the three windows that stage x keep their parts of x's share.
-/
import proofs.«416151_j72335839199610_2_alg».proof.Proof.K.Shares

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the region -/

/-- No host operation of @main allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches of host operations, the region, and the one host operation after it: holding the
    launch contents it reduces to the region continued by that operation, at the contents the stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-! ## The host operation after the region -/

/-- The buffers the operation after the region touches: the four output arrays and the result buffer. -/
def tailT : Finset (Ref sig .tc) := ([main_v22_0, main_v22_1, main_v22_2, main_v22_3, main_v23] : List (Ref sig .tc)).toFinset
def tailS : Finset (DevRef τ sig) := tailT.map ⟨Proc.devRef (sig := sig) .tc, Proc.devRef_injective _⟩

/-- Held at a valuation, they are five whole points-tos. -/
theorem held_tailS (c : Dev nD) (W : Valuation τ sig (Elt F)) :
    (StableHlo.held (c.tc : Thread nD τ) tailS W : sProp 𝕄)
      = iprop((((c.tc : Thread nD τ).loc main_v22_0) ↦{fullShare} W (Proc.devRef .tc main_v22_0))
          ∗ (((c.tc : Thread nD τ).loc main_v22_1) ↦{fullShare} W (Proc.devRef .tc main_v22_1))
          ∗ (((c.tc : Thread nD τ).loc main_v22_2) ↦{fullShare} W (Proc.devRef .tc main_v22_2))
          ∗ (((c.tc : Thread nD τ).loc main_v22_3) ↦{fullShare} W (Proc.devRef .tc main_v22_3))
          ∗ (((c.tc : Thread nD τ).loc main_v23) ↦{fullShare} W (Proc.devRef .tc main_v23))) := by
  unfold StableHlo.held tailS tailT
  rw [bigSep_map]
  exact bigSep_eq_bigSepL [main_v22_0, main_v22_1, main_v22_2, main_v22_3, main_v23] (by decide) _

/-- The operation touches those buffers only, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  subst hop
  refine Finset.insert_subset_iff.mpr ⟨Finset.mem_map_of_mem _ (by decide), Finset.image_subset_iff.mpr fun k _ => ?_⟩
  fin_cases k <;> exact Finset.mem_map_of_mem _ (by decide)

/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffer contents at the region's exit: the four output arrays as the write-backs leave them, every other buffer
    as the region found it. -/
def Wx (c : Dev nD) : Valuation τ sig (Elt F) :=
  Function.update (Function.update (Function.update (Function.update (V0 m c)
    (Proc.devRef .tc main_v22_0) ((dats m 0 c).arrAt 8 cfg0.N)) (Proc.devRef .tc main_v22_1) ((dats m 0 c).arrAt 9 cfg0.N))
    (Proc.devRef .tc main_v22_2) ((dats m 0 c).arrAt 10 cfg0.N)) (Proc.devRef .tc main_v22_3) ((dats m 0 c).arrAt 11 cfg0.N)

theorem Wx_8 (c : Dev nD) : Wx m c (Proc.devRef .tc main_v22_0) = (dats m 0 c).arrAt 8 cfg0.N := by
  unfold Wx
  rw [Function.update_of_ne (StableHlo.devRef_ne_of_ne (by decide)), Function.update_of_ne (StableHlo.devRef_ne_of_ne (by decide)),
    Function.update_of_ne (StableHlo.devRef_ne_of_ne (by decide)), Function.update_self]
theorem Wx_9 (c : Dev nD) : Wx m c (Proc.devRef .tc main_v22_1) = (dats m 0 c).arrAt 9 cfg0.N := by
  unfold Wx
  rw [Function.update_of_ne (StableHlo.devRef_ne_of_ne (by decide)), Function.update_of_ne (StableHlo.devRef_ne_of_ne (by decide)),
    Function.update_self]
theorem Wx_10 (c : Dev nD) : Wx m c (Proc.devRef .tc main_v22_2) = (dats m 0 c).arrAt 10 cfg0.N := by
  unfold Wx
  rw [Function.update_of_ne (StableHlo.devRef_ne_of_ne (by decide)), Function.update_self]
theorem Wx_11 (c : Dev nD) : Wx m c (Proc.devRef .tc main_v22_3) = (dats m 0 c).arrAt 11 cfg0.N := by
  unfold Wx
  rw [Function.update_self]
theorem Wx_23 (c : Dev nD) : Wx m c (Proc.devRef .tc main_v23) = V m c main_v23 := by
  unfold Wx
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]

/-- After the operation the output arrays are as they were, -/
theorem after_out (c : Dev nD) (r : Ref sig .tc) (hr : r ≠ main_v23) :
    StableHlo.after (List.flatten [hostOps1]) (Wx m c) (Proc.devRef .tc r) = Wx m c (Proc.devRef .tc r) :=
  StableHlo.after_of_forall_not_mem _ _ fun op hop => by
    simp only [hostOps1, List.flatten_cons, List.flatten_nil, List.append_nil, List.mem_cons, List.mem_nil_iff, or_false] at hop
    subst hop
    rw [StableHlo.nary_writes, Finset.mem_singleton]
    exact StableHlo.devRef_ne_of_ne hr

/-- and the result buffer holds the four output arrays joined along the rows. -/
theorem after_23 (c : Dev nD) :
    StableHlo.after (List.flatten [hostOps1]) (Wx m c) (Proc.devRef .tc main_v23) = finalOut m c := by
  simp only [hostOps1, List.flatten_cons, List.flatten_nil, List.append_nil, StableHlo.after_cons, StableHlo.after_nil]
  rw [StableHlo.nary4_result, Wx_8, Wx_9, Wx_10, Wx_11]
  rfl

/-- The five buffers at the region's exit, -/
theorem held_exit (c : Dev nD) :
    (StableHlo.held (c.tc : Thread nD τ) tailS (Wx m c) : sProp 𝕄)
      = iprop((((c.tc : Thread nD τ).loc main_v22_0) ↦{fullShare} (dats m 0 c).arrAt 8 cfg0.N)
          ∗ (((c.tc : Thread nD τ).loc main_v22_1) ↦{fullShare} (dats m 0 c).arrAt 9 cfg0.N)
          ∗ (((c.tc : Thread nD τ).loc main_v22_2) ↦{fullShare} (dats m 0 c).arrAt 10 cfg0.N)
          ∗ (((c.tc : Thread nD τ).loc main_v22_3) ↦{fullShare} (dats m 0 c).arrAt 11 cfg0.N)
          ∗ (((c.tc : Thread nD τ).loc main_v23) ↦{fullShare} V m c main_v23)) := by
  rw [held_tailS]
  exact congrArg₂ _ (congrArg _ (Wx_8 m c)) (congrArg₂ _ (congrArg _ (Wx_9 m c)) (congrArg₂ _ (congrArg _ (Wx_10 m c))
    (congrArg₂ _ (congrArg _ (Wx_11 m c)) (congrArg _ (Wx_23 m c)))))

/-- and after the operation. -/
theorem held_after (c : Dev nD) :
    (StableHlo.held (c.tc : Thread nD τ) tailS (StableHlo.after (List.flatten [hostOps1]) (Wx m c)) : sProp 𝕄)
      = iprop((((c.tc : Thread nD τ).loc main_v22_0) ↦{fullShare} (dats m 0 c).arrAt 8 cfg0.N)
          ∗ (((c.tc : Thread nD τ).loc main_v22_1) ↦{fullShare} (dats m 0 c).arrAt 9 cfg0.N)
          ∗ (((c.tc : Thread nD τ).loc main_v22_2) ↦{fullShare} (dats m 0 c).arrAt 10 cfg0.N)
          ∗ (((c.tc : Thread nD τ).loc main_v22_3) ↦{fullShare} (dats m 0 c).arrAt 11 cfg0.N)
          ∗ (((c.tc : Thread nD τ).loc main_v23) ↦{fullShare} finalOut m c)) := by
  rw [held_tailS]
  exact congrArg₂ _ (congrArg _ ((after_out m c main_v22_0 (by decide)).trans (Wx_8 m c)))
    (congrArg₂ _ (congrArg _ ((after_out m c main_v22_1 (by decide)).trans (Wx_9 m c)))
    (congrArg₂ _ (congrArg _ ((after_out m c main_v22_2 (by decide)).trans (Wx_10 m c)))
    (congrArg₂ _ (congrArg _ ((after_out m c main_v22_3 (by decide)).trans (Wx_11 m c))) (congrArg _ (after_23 m c)))))

/-! ## The buffers that bypass the region -/

/-- The unscoped buffers that are no array of the pipeline, the result buffer apart. -/
def restBut : Finset (Ref sig .tc) := (Pipeline.restRefs sig spec0).erase main_v23

theorem mem_rest_v23 : main_v23 ∈ Pipeline.restRefs sig spec0 := Pipeline.mem_restRefs_of main_v23 (by decide) (by decide)

/-- What bypasses the region, as the region finds it: the result buffer and the others, at the entry contents. -/
def Z (c : Dev nD) : sProp 𝕄 :=
  iprop((((c.tc : Thread nD τ).loc main_v23) ↦{fullShare} V m c main_v23)
    ∗ bigSep restBut fun b => (((c.tc : Thread nD τ).loc b) ↦{fullShare} V m c b : sProp 𝕄))

/-- The same after the operation that follows the region: the result buffer holds the joined outputs. -/
def Z' (c : Dev nD) : sProp 𝕄 :=
  iprop((((c.tc : Thread nD τ).loc main_v23) ↦{fullShare} finalOut m c)
    ∗ bigSep restBut fun b => (((c.tc : Thread nD τ).loc b) ↦{fullShare} V m c b : sProp 𝕄))

theorem rest_split (c : Dev nD) :
    (Pipeline.unscopedRestP Pipeline.Prefetch.none spec0 c (V m c) : sProp 𝕄) = Z m c := by
  rw [Pipeline.unscopedRestP_none]
  unfold Pipeline.unscopedRest Z restBut
  exact bigSep_erase mem_rest_v23

/-- From the region's exit — the boundary, the windows' arrays as the write-backs leave them, the bypassing buffers at the
    entry contents — the one operation runs within the four output arrays and the result buffer, and hands back the arrays
    unchanged and the result buffer at the joined outputs. The three windows on x keep their shares throughout. -/
theorem htail (𝒱₀ : Variants) (c : Dev nD) (Q' : PUnit → sProp 𝕄) :
    iprop((iprop((dats m 0 c).arrays ((dats m 0 c).arrAt · cfg0.N) ∗ Z' m c) -∗ Q' ⟨⟩)
        ∗ boundary (c.tc : Thread nD τ) ∗ (dats m 0 c).arrays ((dats m 0 c).arrAt · cfg0.N) ∗ Z m c)
      ⊢ wp frame (wpE (Pipeline.defs (pcfgs (F := F)) defs₀) (Variants.lift 𝒱₀) (c.tc : Thread nD τ) none) Set.univ
          (Pipeline.chain (([hostOps1] : List (List (HloOp τ sig (Elt F)))).map StableHlo.seq ++ [])) Q' := by
  rw [arrays_chain]
  unfold Z Z'
  iintro ⟨Hk, Hb, ⟨H0, H1, H2, H3, H4, H5, H6, H7, H8, H9, H10, H11⟩, H23, HR⟩
  iapply (Pipeline.wp_seqs_then (pcfgs (F := F)) defs₀ 𝒱₀ c tailS [] [hostOps1] tail_sub tail_fresh (Wx m c)) $$ [Hb H8 H9 H10 H11 H23]
  · rw [held_exit]
    isplitl [Hb]; · iexact Hb
    isplitl [H8]; · iexact H8
    isplitl [H9]; · iexact H9
    isplitl [H10]; · iexact H10
    isplitl [H11]; · iexact H11
    iexact H23
  rw [held_after]
  iintro ⟨Hb, H8, H9, H10, H11, H23⟩
  rw [Pipeline.chain_nil, wp_pure]
  imodintro
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H23]; · iexact H23
  iexact HR

/-! ## Reading the final memory -/

/-- What the final memory holds of the bypassing buffers. -/
def QY (c : Dev nD) (s : MemSt nD τ sig (Elt F)) : Prop :=
  s.mem ((c.tc : Thread nD τ).loc main_v23) = finalOut m c ∧ ∀ b ∈ restBut, s.mem ((c.tc : Thread nD τ).loc b) = V m c b

/-- The bypassing buffers' points-tos read against the state: the memory holds their contents. -/
theorem hY (c : Dev nD) (s' : Phys nD τ sig (Elt F)) :
    iprop((∃ r, prngReg c r) ∗ Z' m c ∗ SI s') ⊢ (|={Set.univ}=> iprop(⌜QY m c s'.mem⌝ ∗ SI s') : sProp 𝕄) := by
  unfold Z'
  iintro ⟨-, ⟨H23, HR⟩, HSI⟩
  icombine HSI H23 gives %h23
  ihave H := (pointsTo_read_all restBut (fun b => (c.tc : Thread nD τ).loc b) (V m c) s') $$ [HR HSI]
  · isplitl [HR] <;> iassumption
  icases H with ⟨%hR, HSI⟩
  imodintro
  isplitr
  · ipureintro; exact ⟨Buf.eq_of_forall_mem_univ h23, hR⟩
  · iexact HSI

end Cert.Kernel.Hand

end
-- ==== Proof.K.Args.lean ====
/-
  The arguments of @main reach the region as launched: no host operation before it writes an argument's buffer.
-/
import proofs.«416151_j72335839199610_2_alg».proof.Proof.K.Data

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents at the region's entry are the launch contents at any buffer no host operation before the
    region writes. Every such operation writes its own result buffer, which is no argument of @main. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

end Cert.Kernel.Hand

end
-- ==== Proof.K.Body.lean ====
/-
  The kernel body's triple. The body reads its eight input staging buffers whole (the S block, the I block, the
  rate rows, the adjacency block, the transposed weights, the bias and the two layer-norm vectors), and writes each
  of its four output buffers once, whole: the three computed blocks are fixed terms over the eight inputs, and the
  fourth is the rate rows copied. Stated for any float instance.
-/
import proofs.«416151_j72335839199610_2_alg».proof.Proof.Gen.Kernel.Launch
import proofs.«416151_j72335839199610_2_alg».proof.Proof.Gen.Kernel.Skeleton
import proofs.«416151_j72335839199610_2_alg».proof.Proof.Gen.Kernel.Points
import proofs.«416151_j72335839199610_2_alg».proof.Proof.K.Outs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer rectangle at zero offsets, in two axes: the offsets are the zero function. -/
theorem zero_offsets2 : (![0, 0] : Fin 2 → Nat) = fun _ => 0 := by funext a; fin_cases a <;> rfl
/-- The same in one axis. -/
theorem zero_offsets1 : (![0] : Fin 1 → Nat) = fun _ => 0 := by funext a; fin_cases a; rfl

/-- One store through the whole-shape rectangle at zero offsets leaves its payload, whatever the view and the
    earlier contents: the one piece covers every index, and under it the contents are the payload. -/
theorem store_whole_eq {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through the whole-shape rectangle at zero offsets reads the view's contents. -/
theorem load_whole_eq {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

set_option maxHeartbeats 4000000 in
/-- The body on whole staging memrefs, the inputs' at contents x0 … x7 and the outputs' at anything, runs to the
    continuation holding the inputs as they were, the three computed outputs at outS, outI, outR of the inputs,
    and the fourth output at the rate rows: every load reads a whole buffer, so it reads the buffer's contents, and
    every store covers its buffer, so it leaves its payload. -/
theorem sound_kernel (c : Dev nD) (E : Set ℕ) (i : grid0.Coords)
    (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x1000 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole) (arg12 : Memref sig .tc .vmem S1000x128 .f32) (harg12 : arg12.IsWhole)
    (x0 x1 x2 : Vec F S1000x128 .f32) (x3 : Vec F S1000x1000 .bf16) (x4 : Vec F S128x128 .f32) (x5 x6 x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
              ∗ owns (c : Thread nD τ) arg5 fullShare x4 ∗ owns (c : Thread nD τ) arg6 fullShare x5 ∗ owns (c : Thread nD τ) arg7 fullShare x6 ∗ owns (c : Thread nD τ) arg8 fullShare x7
              ∗ owns (c : Thread nD τ) arg9 fullShare (outS x0 x1 x2 x3 x4 x5 x6 x7) ∗ owns (c : Thread nD τ) arg10 fullShare (outI x0 x1 x2 x3 x4 x5 x6 x7)
              ∗ owns (c : Thread nD τ) arg11 fullShare (outR x0 x1 x2 x3 x4 x5 x6 x7) ∗ owns (c : Thread nD τ) arg12 fullShare x2) -∗ K ⟨⟩))
      ⊢ wp frame (wpE (defs₀ (F := F)) Variants.none c none) E (cc0__sir_kernel i arg1 harg1 arg2 harg2 arg3 harg3 arg4 harg4 arg5 harg5 arg6 harg6 arg7 harg7 arg8 harg8 arg9 harg9 arg10 harg10 arg11 harg11 arg12 harg12) K := by
  simp only [cc0__sir_kernel_eq_skeleton]; unfold cc0__sir_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  isplitl [H9]
  · iexists _; isplitr
    swap; · iexact H9
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  isplitl [H10]
  · iexists _; isplitr
    swap; · iexact H10
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  · iexists _; isplitr
    swap; · iexact H11
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]

end Cert.Kernel.Hand

end
-- ==== Proof.K.Oblig.lean ====
/-
  The body obligation of the pipeline's proof data: at every grid point, from every window's current staging buffer at
  what it then holds, the kernel body runs to every buffer at what the proof data say it leaves. Each input window's
  buffer holds its block of the array at every point, whether the block was fetched at that point or earlier (the
  windows fetched once keep their block, which is the whole array, from the first point on); the body's triple then
  applies to the eight input blocks, and its four output buffers are left at the three computed blocks and at the
  rate rows' block.
-/
import proofs.«416151_j72335839199610_2_alg».proof.Proof.K.Data
import proofs.«416151_j72335839199610_2_alg».proof.Proof.K.Body
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body leaves, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outS (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outI (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = outR (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = iblk m c 2 t := by dsimp only [dats]

/-! ## What each input window's buffer holds when the body runs -/

/-- What a fetch of window w at point t reads is the window's block of the array as the region finds it. -/
theorem blockOf_eq (c : Dev nD) (w : Fin cfg0.W) (t : Fin cfg0.N) : (dats m 0 c).blockOf w t = iblk m c w t := by
  unfold Dat.blockOf iblk; rw [A_eq]

/-- Input window 0's current buffer holds its block at every point: the body leaves the block in place, the
    window's blocks tile its array (nothing is cut), and where the block is not fetched its index has not moved. -/
theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0, blockOf_eq]
  rw [(dats m 0 c).before_in_eq_fetched 0 rfl (fun _ => rfl) (fun _ _ _ => rfl) hkeep t d]
  unfold Dat.fetched; rw [blockOf_eq]; rfl

/-- Input window 1's current buffer holds its block at every point: the body leaves the block in place, the
    window's blocks tile its array (nothing is cut), and where the block is not fetched its index has not moved. -/
theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1, blockOf_eq]
  rw [(dats m 0 c).before_in_eq_fetched 1 rfl (fun _ => rfl) (fun _ _ _ => rfl) hkeep t d]
  unfold Dat.fetched; rw [blockOf_eq]; rfl

/-- Input window 2's current buffer holds its block at every point: the body leaves the block in place, the
    window's blocks tile its array (nothing is cut), and where the block is not fetched its index has not moved. -/
theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2, blockOf_eq]
  rw [(dats m 0 c).before_in_eq_fetched 2 rfl (fun _ => rfl) (fun _ _ _ => rfl) hkeep t d]
  unfold Dat.fetched; rw [blockOf_eq]; rfl

/-- Input window 3's current buffer holds its block at every point: the body leaves the block in place, the
    window's blocks tile its array (nothing is cut), and where the block is not fetched its index has not moved. -/
theorem before0_3 (c : Dev nD) (t : Fin cfg0.N) (d) : (dats m 0 c).before 3 t d = iblk m c 3 t := by
  have hkeep : ∀ t, (cfg0.win 3).cut (cfg0.grid.coords t) ((dats m 0 c).after 3 t) = (dats m 0 c).blockOf 3 t := fun t => by
    rw [after0_3, blockOf_eq]
  rw [(dats m 0 c).before_in_eq_fetched 3 rfl (fun _ => rfl) (fun _ _ _ => rfl) hkeep t d]
  unfold Dat.fetched; rw [blockOf_eq]; rfl

/-- Input window 4's current buffer holds its block at every point (the whole array, fetched at the first point only): the body leaves the block in place, the
    window's blocks tile its array (nothing is cut), and where the block is not fetched its index has not moved. -/
theorem before0_4 (c : Dev nD) (t : Fin cfg0.N) (d) : (dats m 0 c).before 4 t d = iblk m c 4 t := by
  have hkeep : ∀ t, (cfg0.win 4).cut (cfg0.grid.coords t) ((dats m 0 c).after 4 t) = (dats m 0 c).blockOf 4 t := fun t => by
    rw [after0_4, blockOf_eq]
  rw [(dats m 0 c).before_in_eq_fetched 4 rfl (fun _ => rfl) (fun _ _ _ => rfl) hkeep t d]
  unfold Dat.fetched; rw [blockOf_eq]; rfl

/-- Input window 5's current buffer holds its block at every point (the whole array, fetched at the first point only): the body leaves the block in place, the
    window's blocks tile its array (nothing is cut), and where the block is not fetched its index has not moved. -/
theorem before0_5 (c : Dev nD) (t : Fin cfg0.N) (d) : (dats m 0 c).before 5 t d = iblk m c 5 t := by
  have hkeep : ∀ t, (cfg0.win 5).cut (cfg0.grid.coords t) ((dats m 0 c).after 5 t) = (dats m 0 c).blockOf 5 t := fun t => by
    rw [after0_5, blockOf_eq]
  rw [(dats m 0 c).before_in_eq_fetched 5 rfl (fun _ => rfl) (fun _ _ _ => rfl) hkeep t d]
  unfold Dat.fetched; rw [blockOf_eq]; rfl

/-- Input window 6's current buffer holds its block at every point (the whole array, fetched at the first point only): the body leaves the block in place, the
    window's blocks tile its array (nothing is cut), and where the block is not fetched its index has not moved. -/
theorem before0_6 (c : Dev nD) (t : Fin cfg0.N) (d) : (dats m 0 c).before 6 t d = iblk m c 6 t := by
  have hkeep : ∀ t, (cfg0.win 6).cut (cfg0.grid.coords t) ((dats m 0 c).after 6 t) = (dats m 0 c).blockOf 6 t := fun t => by
    rw [after0_6, blockOf_eq]
  rw [(dats m 0 c).before_in_eq_fetched 6 rfl (fun _ => rfl) (fun _ _ _ => rfl) hkeep t d]
  unfold Dat.fetched; rw [blockOf_eq]; rfl

/-- Input window 7's current buffer holds its block at every point (the whole array, fetched at the first point only): the body leaves the block in place, the
    window's blocks tile its array (nothing is cut), and where the block is not fetched its index has not moved. -/
theorem before0_7 (c : Dev nD) (t : Fin cfg0.N) (d) : (dats m 0 c).before 7 t d = iblk m c 7 t := by
  have hkeep : ∀ t, (cfg0.win 7).cut (cfg0.grid.coords t) ((dats m 0 c).after 7 t) = (dats m 0 c).blockOf 7 t := fun t => by
    rw [after0_7, blockOf_eq]
  rw [(dats m 0 c).before_in_eq_fetched 7 rfl (fun _ => rfl) (fun _ _ _ => rfl) hkeep t d]
  unfold Dat.fetched; rw [blockOf_eq]; rfl

/-! ## The body obligation, at a generic point -/

/-- What the body is called with at point t: the invariant, what the core owes, and every window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns: the invariant and what the core owes at the next point, and every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the eight input buffers hold their blocks, so the body's triple applies at those blocks; the
    invariant and what the core owes pass through unread; the four output buffers, held at anything, are left at the
    three computed blocks and the rate rows' block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  THE LAUNCH: the run of @main. Seven stretches of host operations build the adjacency and the transposed weights; the
  region runs the pipeline over the hundred blocks; one host operation joins the four output arrays into the result.
  Three windows of the pipeline stage the same array x, so the launch hands each a part of x's full share; the
  operation after the region reads the output arrays only, so the parts are never rejoined. The post names the result
  buffer's contents and says every argument is as launched.
-/
import proofs.«416151_j72335839199610_2_alg».proof.Proof.K.Tail
import proofs.«416151_j72335839199610_2_alg».proof.Proof.K.Args
import proofs.«416151_j72335839199610_2_alg».proof.Proof.K.Oblig

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The run -/

set_option maxHeartbeats 2000000 in
set_option backward.isDefEq.respectTransparency.types false in
/-- THE LAUNCH. At the compiled mesh, for any values, from any memory with zero counters, every weakly fair execution of
    @main on the TensorCores terminates, and in every final state the result buffer holds the four output arrays joined
    along the rows and every argument is as launched. The three windows that stage x hold three disjoint parts of its
    full share, split at the region's entry and never rejoined: the operation after the region touches the outputs only. -/
theorem run_main : θ_run defs (onTc (τ := τ) (main (F := F))) ⟨m, fun _ => 0, ρ⟩ (fun r => ∀ c : Dev nD,
      r.2.mem ((c.tc : Thread nD τ).loc main_v23) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  classical
  have hrest : ∀ b : Ref sig .tc, b ≠ main_v23 → b.isScoped = false → (∀ w, (spec0 w).arr.view.ref ≠ b) → b ∈ restBut :=
    fun b h1 h2 h3 => Finset.mem_erase.mpr ⟨h1, Pipeline.mem_restRefs_of b h2 h3⟩
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) ?hbody
    block_pos0 arr_whole0 stage_whole0 ?howed
    (G := fun _ => iprop(emp)) (u₀ := initOf (Pipeline.cells cfgs cellOf_inj) (Pipeline.launchToks cfgs cellOf_inj))
    (hu₀ := ?hu0)
    (V := V m) (hmain := ?hmain) (hsplit := ?hsplit) (hpf := fun _ k => k.elim0)
    (X := fun c => iprop(∃ r, prngReg c r)) (Y := fun c => iprop(∃ r, prngReg c r)) (Z := Z m) (Z' := Z' m)
    (hX := ?hX) (hin := ?hin) (hout := ?hout) (htail := ?htail) (QY := QY m) (hY := ?hY) (hQ := ?hQ)
  case hbody => exact fun c => (body_obligation m c).loose
  case howed => exact fun _ _ => rfl
  case hu0 =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hmain => exact hmain m Variants.none
  case hsplit => exact hsplit m
  case hX =>
    intro c
    rw [rest_split]
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr]; · iexact Hr
    iexact Hp
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case htail => exact htail m Variants.none
  case hY => exact hY m
  case hQ =>
    intro s h c
    refine ⟨(h c).2.2.1, ?_, ?_, ?_, ?_, ?_, ?_, ?_, ?_⟩
    · exact ((h c).2.2.2 main_arg0 (hrest _ (by decide) (by decide) (by decide))).trans (V_main_arg0 m c)
    · exact ((h c).1 0).trans ((arrAt_input m c 0 rfl _).trans (V_main_arg1 m c))
    · exact ((h c).2.2.2 main_arg2 (hrest _ (by decide) (by decide) (by decide))).trans (V_main_arg2 m c)
    · exact ((h c).2.2.2 main_arg3 (hrest _ (by decide) (by decide) (by decide))).trans (V_main_arg3 m c)
    · exact ((h c).2.2.2 main_arg4 (hrest _ (by decide) (by decide) (by decide))).trans (V_main_arg4 m c)
    · exact ((h c).1 5).trans ((arrAt_input m c 5 rfl _).trans (V_main_arg5 m c))
    · exact ((h c).1 6).trans ((arrAt_input m c 6 rfl _).trans (V_main_arg6 m c))
    · exact ((h c).1 7).trans ((arrAt_input m c 7 rfl _).trans (V_main_arg7 m c))

/-- info: 'Cert.Kernel.Hand.run_main' depends on axioms: [propext, Classical.choice, Quot.sound] -/
#guard_msgs in #print axioms run_main

end Cert.Kernel.Hand

end
-- ==== Proof.KI.Outs.lean ====
/-
  What the kernel body leaves in its three computed output buffers, as functions of the eight input blocks it loads whole:
  x0 the S rows' block, x1 the I rows' block, x2 the rate rows' block, x3 the adjacency block, x4 the transposed weight,
  x5 the bias, x6 and x7 the normalisation's scale and shift. The fourth output buffer receives x2 unchanged.
-/
import proofs.«416151_j72335839199610_2_alg».proof.Proof.Gen.KernelIdeal.Skeleton

noncomputable section

namespace Cert.KernelIdeal.Hand

open Cert.KernelIdeal Cert.KernelIdeal.Gen Idealize.ShloMosaic

variable {F : FTy → Type} [FloatOps F]

/-- The normalised dS rows of the block. -/
def outS (x0 x1 x2 : Vec F S1000x128 .f32) (x3 : Vec F S1000x1000 .bf16) (x4 : Vec F S128x128 .f32) (x5 x6 x7 : Vec F S128 .f32) :
    Vec F S1000x128 .f32 :=
  k0_pay9 (k0_pay6 x0 x1 x4 x5 x3 x2) x6 x7

/-- The normalised dI rows of the block. -/
def outI (x0 x1 x2 : Vec F S1000x128 .f32) (x3 : Vec F S1000x1000 .bf16) (x4 : Vec F S128x128 .f32) (x5 x6 x7 : Vec F S128 .f32) :
    Vec F S1000x128 .f32 :=
  k0_pay1 x7 (k0_pay10 (k0_pay7 x0 x1 x4 x5 x3 x2)) (k0_pay11 x6)

/-- The normalised dR rows of the block. -/
def outR (x0 x1 x2 : Vec F S1000x128 .f32) (x3 : Vec F S1000x1000 .bf16) (x4 : Vec F S128x128 .f32) (x5 x6 x7 : Vec F S128 .f32) :
    Vec F S1000x128 .f32 :=
  k0_pay2 (k0_pay8 x1 x4 x5 x2) x6 x7

end Cert.KernelIdeal.Hand

end
-- ==== Proof.KI.Data.lean ====
/-
  The proof data of the one pipeline: the arrays as the region finds them (after the host operations before it), each
  window's block at a grid point, what the body leaves in each staging buffer, and the shares at which the three windows
  that stage the same array x hold it.
-/
import proofs.«416151_j72335839199610_2_alg».proof.Proof.KI.Outs
import proofs.«416151_j72335839199610_2_alg».proof.Proof.Gen.KernelIdeal.Launch
import proofs.«416151_j72335839199610_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host operations before the region, stretch by stretch. -/
abbrev preOps : List (List (HloOp τ sig (Elt F))) := [hostOps0, hostOps0_1, hostOps0_2, hostOps0_3, hostOps0_4, hostOps0_5, hostOps0_6]

/-- Core c's buffer contents when the region is entered. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The shares of the windows' arrays: the array x is staged by windows 0, 1 and 2, which hold it at three disjoint parts
    of the full share; every other window's array is held whole. -/
def qshare : Fin 12 → PosShare TreeShare
  | ⟨0, _⟩ => fullShare.left
  | ⟨1, _⟩ => fullShare.right.left
  | ⟨2, _⟩ => fullShare.right.right
  | _ => fullShare

/-- The proof data on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outS (iblk m c 0 t) (iblk m c 1 t) (iblk m c 2 t) (iblk m c 3 t) (iblk m c 4 t) (iblk m c 5 t) (iblk m c 6 t) (iblk m c 7 t)
    | ⟨9, _⟩ => outI (iblk m c 0 t) (iblk m c 1 t) (iblk m c 2 t) (iblk m c 3 t) (iblk m c 4 t) (iblk m c 5 t) (iblk m c 6 t) (iblk m c 7 t)
    | ⟨10, _⟩ => outR (iblk m c 0 t) (iblk m c 1 t) (iblk m c 2 t) (iblk m c 3 t) (iblk m c 4 t) (iblk m c 5 t) (iblk m c 6 t) (iblk m c 7 t)
    | ⟨11, _⟩ => iblk m c 2 t
  Φ _ := Pipeline.ΦA spec0 c
  q := qshare
  owed _ := 0

theorem A_eq (c : Dev nD) (w : Fin cfg0.W) : (dats m 0 c).A w = V m c (Pipeline.arrRef spec0 w) := by
  dsimp only [dats]

/-- The result buffer after the host operation that follows the region: the four output arrays joined along the rows. -/
def finalOut (c : Dev nD) : (⟨S400000x128, .f32⟩ : BufTy).Contents (Elt F) :=
  concatenate S400000x128 0 [⟨S100000x128, (dats m 0 c).arrAt 8 cfg0.N⟩, ⟨S100000x128, (dats m 0 c).arrAt 9 cfg0.N⟩,
    ⟨S100000x128, (dats m 0 c).arrAt 10 cfg0.N⟩, ⟨S100000x128, (dats m 0 c).arrAt 11 cfg0.N⟩]
    concatenates_S100000x128_S100000x128_S100000x128_S100000x128_S400000x128_d0

end Cert.KernelIdeal.Hand

end
-- ==== Proof.KI.Shares.lean ====
/-
  The shares of the pipeline's arrays. Three windows stage the same array x; each holds one of three disjoint parts of
  its full share, so the ten distinct buffers behind the twelve windows' arrays, each whole at the full share, split into
  the twelve windows' holdings and join back.
-/
import proofs.«416151_j72335839199610_2_alg».proof.Proof.KI.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the twelve windows' arrays: x, the adjacency, the transposed weights, the three
    vectors and the four outputs. -/
theorem arrImage : Finset.univ.image (Pipeline.arrRef spec0)
    = ([main_arg1, main_v20, main_v21, main_arg5, main_arg6, main_arg7, main_v22_0, main_v22_1, main_v22_2, main_v22_3] : List (Ref sig .tc)).toFinset := by
  decide

/-- The buffers behind the arrays, one points-to each. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg1) ↦{fullShare} V main_arg1)
          ∗ (((c.tc : Thread nD τ).loc main_v20) ↦{fullShare} V main_v20)
          ∗ (((c.tc : Thread nD τ).loc main_v21) ↦{fullShare} V main_v21)
          ∗ (((c.tc : Thread nD τ).loc main_arg5) ↦{fullShare} V main_arg5)
          ∗ (((c.tc : Thread nD τ).loc main_arg6) ↦{fullShare} V main_arg6)
          ∗ (((c.tc : Thread nD τ).loc main_arg7) ↦{fullShare} V main_arg7)
          ∗ (((c.tc : Thread nD τ).loc main_v22_0) ↦{fullShare} V main_v22_0)
          ∗ (((c.tc : Thread nD τ).loc main_v22_1) ↦{fullShare} V main_v22_1)
          ∗ (((c.tc : Thread nD τ).loc main_v22_2) ↦{fullShare} V main_v22_2)
          ∗ (((c.tc : Thread nD τ).loc main_v22_3) ↦{fullShare} V main_v22_3)) := by
  unfold Pipeline.arrBufs
  exact bigSep_eq_bigSepL_of_eq [main_arg1, main_v20, main_v21, main_arg5, main_arg6, main_arg7, main_v22_0, main_v22_1, main_v22_2, main_v22_3]
    arrImage (by decide) _

/-- The share each window holds its array at: the three windows on x hold the three parts of the full share, every
    other window the full share (an output always, an input by the proof data's choice). -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem share_10 (c : Dev nD) : (dats m 0 c).share 10 = fullShare := rfl
theorem share_11 (c : Dev nD) : (dats m 0 c).share 11 = fullShare := rfl

/-- Window by window: the window's array is a whole buffer, so its points-to over the array's elements is the buffer's
    whole points-to, at the window's share. -/
theorem arr_pt0 (c : Dev nD) (G : Buf (Elt F) ((cfg0.win 0).arr.view.loc (c.tc : Thread nD τ))) :
    (((cfg0.win 0).arr.view.loc (c.tc : Thread nD τ)) ↦[(cfg0.win 0).arr.view.set]{(dats m 0 c).share 0} G : sProp 𝕄)
      = (((c.tc : Thread nD τ).loc main_arg1) ↦{fullShare.left} G) := by
  rw [(arr_whole0 0).set_eq_univ, share_0]
theorem arr_pt1 (c : Dev nD) (G : Buf (Elt F) ((cfg0.win 1).arr.view.loc (c.tc : Thread nD τ))) :
    (((cfg0.win 1).arr.view.loc (c.tc : Thread nD τ)) ↦[(cfg0.win 1).arr.view.set]{(dats m 0 c).share 1} G : sProp 𝕄)
      = (((c.tc : Thread nD τ).loc main_arg1) ↦{fullShare.right.left} G) := by
  rw [(arr_whole0 1).set_eq_univ, share_1]
theorem arr_pt2 (c : Dev nD) (G : Buf (Elt F) ((cfg0.win 2).arr.view.loc (c.tc : Thread nD τ))) :
    (((cfg0.win 2).arr.view.loc (c.tc : Thread nD τ)) ↦[(cfg0.win 2).arr.view.set]{(dats m 0 c).share 2} G : sProp 𝕄)
      = (((c.tc : Thread nD τ).loc main_arg1) ↦{fullShare.right.right} G) := by
  rw [(arr_whole0 2).set_eq_univ, share_2]
theorem arr_pt3 (c : Dev nD) (G : Buf (Elt F) ((cfg0.win 3).arr.view.loc (c.tc : Thread nD τ))) :
    (((cfg0.win 3).arr.view.loc (c.tc : Thread nD τ)) ↦[(cfg0.win 3).arr.view.set]{(dats m 0 c).share 3} G : sProp 𝕄)
      = (((c.tc : Thread nD τ).loc main_v20) ↦{fullShare} G) := by
  rw [(arr_whole0 3).set_eq_univ, share_3]
theorem arr_pt4 (c : Dev nD) (G : Buf (Elt F) ((cfg0.win 4).arr.view.loc (c.tc : Thread nD τ))) :
    (((cfg0.win 4).arr.view.loc (c.tc : Thread nD τ)) ↦[(cfg0.win 4).arr.view.set]{(dats m 0 c).share 4} G : sProp 𝕄)
      = (((c.tc : Thread nD τ).loc main_v21) ↦{fullShare} G) := by
  rw [(arr_whole0 4).set_eq_univ, share_4]
theorem arr_pt5 (c : Dev nD) (G : Buf (Elt F) ((cfg0.win 5).arr.view.loc (c.tc : Thread nD τ))) :
    (((cfg0.win 5).arr.view.loc (c.tc : Thread nD τ)) ↦[(cfg0.win 5).arr.view.set]{(dats m 0 c).share 5} G : sProp 𝕄)
      = (((c.tc : Thread nD τ).loc main_arg5) ↦{fullShare} G) := by
  rw [(arr_whole0 5).set_eq_univ, share_5]
theorem arr_pt6 (c : Dev nD) (G : Buf (Elt F) ((cfg0.win 6).arr.view.loc (c.tc : Thread nD τ))) :
    (((cfg0.win 6).arr.view.loc (c.tc : Thread nD τ)) ↦[(cfg0.win 6).arr.view.set]{(dats m 0 c).share 6} G : sProp 𝕄)
      = (((c.tc : Thread nD τ).loc main_arg6) ↦{fullShare} G) := by
  rw [(arr_whole0 6).set_eq_univ, share_6]
theorem arr_pt7 (c : Dev nD) (G : Buf (Elt F) ((cfg0.win 7).arr.view.loc (c.tc : Thread nD τ))) :
    (((cfg0.win 7).arr.view.loc (c.tc : Thread nD τ)) ↦[(cfg0.win 7).arr.view.set]{(dats m 0 c).share 7} G : sProp 𝕄)
      = (((c.tc : Thread nD τ).loc main_arg7) ↦{fullShare} G) := by
  rw [(arr_whole0 7).set_eq_univ, share_7]
theorem arr_pt8 (c : Dev nD) (G : Buf (Elt F) ((cfg0.win 8).arr.view.loc (c.tc : Thread nD τ))) :
    (((cfg0.win 8).arr.view.loc (c.tc : Thread nD τ)) ↦[(cfg0.win 8).arr.view.set]{(dats m 0 c).share 8} G : sProp 𝕄)
      = (((c.tc : Thread nD τ).loc main_v22_0) ↦{fullShare} G) := by
  rw [(arr_whole0 8).set_eq_univ, share_8]
theorem arr_pt9 (c : Dev nD) (G : Buf (Elt F) ((cfg0.win 9).arr.view.loc (c.tc : Thread nD τ))) :
    (((cfg0.win 9).arr.view.loc (c.tc : Thread nD τ)) ↦[(cfg0.win 9).arr.view.set]{(dats m 0 c).share 9} G : sProp 𝕄)
      = (((c.tc : Thread nD τ).loc main_v22_1) ↦{fullShare} G) := by
  rw [(arr_whole0 9).set_eq_univ, share_9]
theorem arr_pt10 (c : Dev nD) (G : Buf (Elt F) ((cfg0.win 10).arr.view.loc (c.tc : Thread nD τ))) :
    (((cfg0.win 10).arr.view.loc (c.tc : Thread nD τ)) ↦[(cfg0.win 10).arr.view.set]{(dats m 0 c).share 10} G : sProp 𝕄)
      = (((c.tc : Thread nD τ).loc main_v22_2) ↦{fullShare} G) := by
  rw [(arr_whole0 10).set_eq_univ, share_10]
theorem arr_pt11 (c : Dev nD) (G : Buf (Elt F) ((cfg0.win 11).arr.view.loc (c.tc : Thread nD τ))) :
    (((cfg0.win 11).arr.view.loc (c.tc : Thread nD τ)) ↦[(cfg0.win 11).arr.view.set]{(dats m 0 c).share 11} G : sProp 𝕄)
      = (((c.tc : Thread nD τ).loc main_v22_3) ↦{fullShare} G) := by
  rw [(arr_whole0 11).set_eq_univ, share_11]

/-- The pipeline's arrays window by window. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg1) ↦{fullShare.left} G 0)
          ∗ (((c.tc : Thread nD τ).loc main_arg1) ↦{fullShare.right.left} G 1)
          ∗ (((c.tc : Thread nD τ).loc main_arg1) ↦{fullShare.right.right} G 2)
          ∗ (((c.tc : Thread nD τ).loc main_v20) ↦{fullShare} G 3)
          ∗ (((c.tc : Thread nD τ).loc main_v21) ↦{fullShare} G 4)
          ∗ (((c.tc : Thread nD τ).loc main_arg5) ↦{fullShare} G 5)
          ∗ (((c.tc : Thread nD τ).loc main_arg6) ↦{fullShare} G 6)
          ∗ (((c.tc : Thread nD τ).loc main_arg7) ↦{fullShare} G 7)
          ∗ (((c.tc : Thread nD τ).loc main_v22_0) ↦{fullShare} G 8)
          ∗ (((c.tc : Thread nD τ).loc main_v22_1) ↦{fullShare} G 9)
          ∗ (((c.tc : Thread nD τ).loc main_v22_2) ↦{fullShare} G 10)
          ∗ (((c.tc : Thread nD τ).loc main_v22_3) ↦{fullShare} G 11)) := by
  unfold Dat.arrays
  rw [bigSep_W0]
  exact congrArg₂ _ (arr_pt0 m c _) (congrArg₂ _ (arr_pt1 m c _) (congrArg₂ _ (arr_pt2 m c _) (congrArg₂ _ (arr_pt3 m c _) (congrArg₂ _ (arr_pt4 m c _) (congrArg₂ _ (arr_pt5 m c _) (congrArg₂ _ (arr_pt6 m c _) (congrArg₂ _ (arr_pt7 m c _) (congrArg₂ _ (arr_pt8 m c _) (congrArg₂ _ (arr_pt9 m c _) (congrArg₂ _ (arr_pt10 m c _) (arr_pt11 m c _)))))))))))

/-- Every window's array at entry is the buffer's contents there. -/
theorem arrAt_zero (c : Dev nD) (w : Fin cfg0.W) : (dats m 0 c).arrAt w 0 = V m c (Pipeline.arrRef spec0 w) := A_eq m c w

/-- An input window's array is never written: it ends as it began. -/
theorem arrAt_input (c : Dev nD) (w : Fin cfg0.W) (hw : (cfg0.win w).isOut = false) (t : Nat) :
    (dats m 0 c).arrAt w t = V m c (Pipeline.arrRef spec0 w) :=
  ((dats m 0 c).arrAt_in w hw t).trans (A_eq m c w)

/-- A full share of a buffer is the three parts the windows on x hold. -/
theorem pointsTo_three {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  constructor
  · iintro H
    ihave H' := (pointsTo_share (PosShare.mem_left_op_right fullShare)).1 $$ H
    icases H' with ⟨Ha, Hr⟩
    ihave Hr' := (pointsTo_share (PosShare.mem_left_op_right fullShare.right)).1 $$ Hr
    icases Hr' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- The launch's split: the ten buffers behind the arrays, whole at the entry contents, are the twelve windows' arrays
    at entry — x's full share cut in three for the three windows that stage it. -/
theorem hsplit (c : Dev nD) :
    (Pipeline.arrBufs spec0 c (V m c) : sProp 𝕄) ⊢ (dats m 0 c).arrays ((dats m 0 c).arrAt · 0) := by
  rw [arrBufs_eq, arrays_chain]
  simp only [arrAt_zero]
  iintro ⟨H1, H20, H21, H5, H6, H7, H8, H9, H10, H11⟩
  ihave H1' := (pointsTo_three (ℓ := (c.tc : Thread nD τ).loc main_arg1) (V m c main_arg1)).1 $$ H1
  icases H1' with ⟨Ha, Hb, Hc⟩
  isplitl [Ha]; · iexact Ha
  isplitl [Hb]; · iexact Hb
  isplitl [Hc]; · iexact Hc
  isplitl [H20]; · iexact H20
  isplitl [H21]; · iexact H21
  isplitl [H5]; · iexact H5
  isplitl [H6]; · iexact H6
  isplitl [H7]; · iexact H7
  isplitl [H8]; · iexact H8
  isplitl [H9]; · iexact H9
  isplitl [H10]; · iexact H10
  iexact H11

end Cert.KernelIdeal.Hand

end
-- ==== Proof.KI.Tail.lean ====
/-
  @main around its region, and the one host operation after it. Seven stretches of host operations run before the region
  and leave the buffers at the contents the region finds; after the region one operation joins the four output arrays
  into the result buffer. It touches the output arrays and the result buffer only, so it runs from the region's exit
  within those five buffers and the three windows that stage x keep their parts of x's share.
-/
import proofs.«416151_j72335839199610_2_alg».proof.Proof.KI.Shares

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main around the region -/

/-- No host operation of @main allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the seven stretches of host operations, the region, and the one host operation after it: holding the
    launch contents it reduces to the region continued by that operation, at the contents the stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-! ## The host operation after the region -/

/-- The buffers the operation after the region touches: the four output arrays and the result buffer. -/
def tailT : Finset (Ref sig .tc) := ([main_v22_0, main_v22_1, main_v22_2, main_v22_3, main_v23] : List (Ref sig .tc)).toFinset
def tailS : Finset (DevRef τ sig) := tailT.map ⟨Proc.devRef (sig := sig) .tc, Proc.devRef_injective _⟩

/-- Held at a valuation, they are five whole points-tos. -/
theorem held_tailS (c : Dev nD) (W : Valuation τ sig (Elt F)) :
    (StableHlo.held (c.tc : Thread nD τ) tailS W : sProp 𝕄)
      = iprop((((c.tc : Thread nD τ).loc main_v22_0) ↦{fullShare} W (Proc.devRef .tc main_v22_0))
          ∗ (((c.tc : Thread nD τ).loc main_v22_1) ↦{fullShare} W (Proc.devRef .tc main_v22_1))
          ∗ (((c.tc : Thread nD τ).loc main_v22_2) ↦{fullShare} W (Proc.devRef .tc main_v22_2))
          ∗ (((c.tc : Thread nD τ).loc main_v22_3) ↦{fullShare} W (Proc.devRef .tc main_v22_3))
          ∗ (((c.tc : Thread nD τ).loc main_v23) ↦{fullShare} W (Proc.devRef .tc main_v23))) := by
  unfold StableHlo.held tailS tailT
  rw [bigSep_map]
  exact bigSep_eq_bigSepL [main_v22_0, main_v22_1, main_v22_2, main_v22_3, main_v23] (by decide) _

/-- The operation touches those buffers only, -/
theorem tail_sub : ∀ ops ∈ ([hostOps1] : List (List (HloOp τ sig (Elt F)))), ∀ op ∈ ops, op.bufs ⊆ tailS := by
  intro ops hops op hop
  simp only [List.mem_cons, List.mem_nil_iff, or_false] at hops
  subst hops
  simp only [hostOps1, List.mem_cons, List.mem_nil_iff, or_false] at hop
  subst hop
  refine Finset.insert_subset_iff.mpr ⟨Finset.mem_map_of_mem _ (by decide), Finset.image_subset_iff.mpr fun k _ => ?_⟩
  fin_cases k <;> exact Finset.mem_map_of_mem _ (by decide)

/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The buffer contents at the region's exit: the four output arrays as the write-backs leave them, every other buffer
    as the region found it. -/
def Wx (c : Dev nD) : Valuation τ sig (Elt F) :=
  Function.update (Function.update (Function.update (Function.update (V0 m c)
    (Proc.devRef .tc main_v22_0) ((dats m 0 c).arrAt 8 cfg0.N)) (Proc.devRef .tc main_v22_1) ((dats m 0 c).arrAt 9 cfg0.N))
    (Proc.devRef .tc main_v22_2) ((dats m 0 c).arrAt 10 cfg0.N)) (Proc.devRef .tc main_v22_3) ((dats m 0 c).arrAt 11 cfg0.N)

theorem Wx_8 (c : Dev nD) : Wx m c (Proc.devRef .tc main_v22_0) = (dats m 0 c).arrAt 8 cfg0.N := by
  unfold Wx
  rw [Function.update_of_ne (StableHlo.devRef_ne_of_ne (by decide)), Function.update_of_ne (StableHlo.devRef_ne_of_ne (by decide)),
    Function.update_of_ne (StableHlo.devRef_ne_of_ne (by decide)), Function.update_self]
theorem Wx_9 (c : Dev nD) : Wx m c (Proc.devRef .tc main_v22_1) = (dats m 0 c).arrAt 9 cfg0.N := by
  unfold Wx
  rw [Function.update_of_ne (StableHlo.devRef_ne_of_ne (by decide)), Function.update_of_ne (StableHlo.devRef_ne_of_ne (by decide)),
    Function.update_self]
theorem Wx_10 (c : Dev nD) : Wx m c (Proc.devRef .tc main_v22_2) = (dats m 0 c).arrAt 10 cfg0.N := by
  unfold Wx
  rw [Function.update_of_ne (StableHlo.devRef_ne_of_ne (by decide)), Function.update_self]
theorem Wx_11 (c : Dev nD) : Wx m c (Proc.devRef .tc main_v22_3) = (dats m 0 c).arrAt 11 cfg0.N := by
  unfold Wx
  rw [Function.update_self]
theorem Wx_23 (c : Dev nD) : Wx m c (Proc.devRef .tc main_v23) = V m c main_v23 := by
  unfold Wx
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]

/-- After the operation the output arrays are as they were, -/
theorem after_out (c : Dev nD) (r : Ref sig .tc) (hr : r ≠ main_v23) :
    StableHlo.after (List.flatten [hostOps1]) (Wx m c) (Proc.devRef .tc r) = Wx m c (Proc.devRef .tc r) :=
  StableHlo.after_of_forall_not_mem _ _ fun op hop => by
    simp only [hostOps1, List.flatten_cons, List.flatten_nil, List.append_nil, List.mem_cons, List.mem_nil_iff, or_false] at hop
    subst hop
    rw [StableHlo.nary_writes, Finset.mem_singleton]
    exact StableHlo.devRef_ne_of_ne hr

/-- and the result buffer holds the four output arrays joined along the rows. -/
theorem after_23 (c : Dev nD) :
    StableHlo.after (List.flatten [hostOps1]) (Wx m c) (Proc.devRef .tc main_v23) = finalOut m c := by
  simp only [hostOps1, List.flatten_cons, List.flatten_nil, List.append_nil, StableHlo.after_cons, StableHlo.after_nil]
  rw [StableHlo.nary4_result, Wx_8, Wx_9, Wx_10, Wx_11]
  rfl

/-- The five buffers at the region's exit, -/
theorem held_exit (c : Dev nD) :
    (StableHlo.held (c.tc : Thread nD τ) tailS (Wx m c) : sProp 𝕄)
      = iprop((((c.tc : Thread nD τ).loc main_v22_0) ↦{fullShare} (dats m 0 c).arrAt 8 cfg0.N)
          ∗ (((c.tc : Thread nD τ).loc main_v22_1) ↦{fullShare} (dats m 0 c).arrAt 9 cfg0.N)
          ∗ (((c.tc : Thread nD τ).loc main_v22_2) ↦{fullShare} (dats m 0 c).arrAt 10 cfg0.N)
          ∗ (((c.tc : Thread nD τ).loc main_v22_3) ↦{fullShare} (dats m 0 c).arrAt 11 cfg0.N)
          ∗ (((c.tc : Thread nD τ).loc main_v23) ↦{fullShare} V m c main_v23)) := by
  rw [held_tailS]
  exact congrArg₂ _ (congrArg _ (Wx_8 m c)) (congrArg₂ _ (congrArg _ (Wx_9 m c)) (congrArg₂ _ (congrArg _ (Wx_10 m c))
    (congrArg₂ _ (congrArg _ (Wx_11 m c)) (congrArg _ (Wx_23 m c)))))

/-- and after the operation. -/
theorem held_after (c : Dev nD) :
    (StableHlo.held (c.tc : Thread nD τ) tailS (StableHlo.after (List.flatten [hostOps1]) (Wx m c)) : sProp 𝕄)
      = iprop((((c.tc : Thread nD τ).loc main_v22_0) ↦{fullShare} (dats m 0 c).arrAt 8 cfg0.N)
          ∗ (((c.tc : Thread nD τ).loc main_v22_1) ↦{fullShare} (dats m 0 c).arrAt 9 cfg0.N)
          ∗ (((c.tc : Thread nD τ).loc main_v22_2) ↦{fullShare} (dats m 0 c).arrAt 10 cfg0.N)
          ∗ (((c.tc : Thread nD τ).loc main_v22_3) ↦{fullShare} (dats m 0 c).arrAt 11 cfg0.N)
          ∗ (((c.tc : Thread nD τ).loc main_v23) ↦{fullShare} finalOut m c)) := by
  rw [held_tailS]
  exact congrArg₂ _ (congrArg _ ((after_out m c main_v22_0 (by decide)).trans (Wx_8 m c)))
    (congrArg₂ _ (congrArg _ ((after_out m c main_v22_1 (by decide)).trans (Wx_9 m c)))
    (congrArg₂ _ (congrArg _ ((after_out m c main_v22_2 (by decide)).trans (Wx_10 m c)))
    (congrArg₂ _ (congrArg _ ((after_out m c main_v22_3 (by decide)).trans (Wx_11 m c))) (congrArg _ (after_23 m c)))))

/-! ## The buffers that bypass the region -/

/-- The unscoped buffers that are no array of the pipeline, the result buffer apart. -/
def restBut : Finset (Ref sig .tc) := (Pipeline.restRefs sig spec0).erase main_v23

theorem mem_rest_v23 : main_v23 ∈ Pipeline.restRefs sig spec0 := Pipeline.mem_restRefs_of main_v23 (by decide) (by decide)

/-- What bypasses the region, as the region finds it: the result buffer and the others, at the entry contents. -/
def Z (c : Dev nD) : sProp 𝕄 :=
  iprop((((c.tc : Thread nD τ).loc main_v23) ↦{fullShare} V m c main_v23)
    ∗ bigSep restBut fun b => (((c.tc : Thread nD τ).loc b) ↦{fullShare} V m c b : sProp 𝕄))

/-- The same after the operation that follows the region: the result buffer holds the joined outputs. -/
def Z' (c : Dev nD) : sProp 𝕄 :=
  iprop((((c.tc : Thread nD τ).loc main_v23) ↦{fullShare} finalOut m c)
    ∗ bigSep restBut fun b => (((c.tc : Thread nD τ).loc b) ↦{fullShare} V m c b : sProp 𝕄))

theorem rest_split (c : Dev nD) :
    (Pipeline.unscopedRestP Pipeline.Prefetch.none spec0 c (V m c) : sProp 𝕄) = Z m c := by
  rw [Pipeline.unscopedRestP_none]
  unfold Pipeline.unscopedRest Z restBut
  exact bigSep_erase mem_rest_v23

/-- From the region's exit — the boundary, the windows' arrays as the write-backs leave them, the bypassing buffers at the
    entry contents — the one operation runs within the four output arrays and the result buffer, and hands back the arrays
    unchanged and the result buffer at the joined outputs. The three windows on x keep their shares throughout. -/
theorem htail (𝒱₀ : Variants) (c : Dev nD) (Q' : PUnit → sProp 𝕄) :
    iprop((iprop((dats m 0 c).arrays ((dats m 0 c).arrAt · cfg0.N) ∗ Z' m c) -∗ Q' ⟨⟩)
        ∗ boundary (c.tc : Thread nD τ) ∗ (dats m 0 c).arrays ((dats m 0 c).arrAt · cfg0.N) ∗ Z m c)
      ⊢ wp frame (wpE (Pipeline.defs (pcfgs (F := F)) defs₀) (Variants.lift 𝒱₀) (c.tc : Thread nD τ) none) Set.univ
          (Pipeline.chain (([hostOps1] : List (List (HloOp τ sig (Elt F)))).map StableHlo.seq ++ [])) Q' := by
  rw [arrays_chain]
  unfold Z Z'
  iintro ⟨Hk, Hb, ⟨H0, H1, H2, H3, H4, H5, H6, H7, H8, H9, H10, H11⟩, H23, HR⟩
  iapply (Pipeline.wp_seqs_then (pcfgs (F := F)) defs₀ 𝒱₀ c tailS [] [hostOps1] tail_sub tail_fresh (Wx m c)) $$ [Hb H8 H9 H10 H11 H23]
  · rw [held_exit]
    isplitl [Hb]; · iexact Hb
    isplitl [H8]; · iexact H8
    isplitl [H9]; · iexact H9
    isplitl [H10]; · iexact H10
    isplitl [H11]; · iexact H11
    iexact H23
  rw [held_after]
  iintro ⟨Hb, H8, H9, H10, H11, H23⟩
  rw [Pipeline.chain_nil, wp_pure]
  imodintro
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H23]; · iexact H23
  iexact HR

/-! ## Reading the final memory -/

/-- What the final memory holds of the bypassing buffers. -/
def QY (c : Dev nD) (s : MemSt nD τ sig (Elt F)) : Prop :=
  s.mem ((c.tc : Thread nD τ).loc main_v23) = finalOut m c ∧ ∀ b ∈ restBut, s.mem ((c.tc : Thread nD τ).loc b) = V m c b

/-- The bypassing buffers' points-tos read against the state: the memory holds their contents. -/
theorem hY (c : Dev nD) (s' : Phys nD τ sig (Elt F)) :
    iprop((∃ r, prngReg c r) ∗ Z' m c ∗ SI s') ⊢ (|={Set.univ}=> iprop(⌜QY m c s'.mem⌝ ∗ SI s') : sProp 𝕄) := by
  unfold Z'
  iintro ⟨-, ⟨H23, HR⟩, HSI⟩
  icombine HSI H23 gives %h23
  ihave H := (pointsTo_read_all restBut (fun b => (c.tc : Thread nD τ).loc b) (V m c) s') $$ [HR HSI]
  · isplitl [HR] <;> iassumption
  icases H with ⟨%hR, HSI⟩
  imodintro
  isplitr
  · ipureintro; exact ⟨Buf.eq_of_forall_mem_univ h23, hR⟩
  · iexact HSI

end Cert.KernelIdeal.Hand

end
-- ==== Proof.KI.Args.lean ====
/-
  The arguments of @main reach the region as launched: no host operation before it writes an argument's buffer.
-/
import proofs.«416151_j72335839199610_2_alg».proof.Proof.KI.Data

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffer contents at the region's entry are the launch contents at any buffer no host operation before the
    region writes. Every such operation writes its own result buffer, which is no argument of @main. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

end Cert.KernelIdeal.Hand

end
-- ==== Proof.KI.Body.lean ====
/-
  The kernel body's triple. The body reads its eight input staging buffers whole (the S block, the I block, the
  rate rows, the adjacency block, the transposed weights, the bias and the two layer-norm vectors), and writes each
  of its four output buffers once, whole: the three computed blocks are fixed terms over the eight inputs, and the
  fourth is the rate rows copied. Stated for any float instance.
-/
import proofs.«416151_j72335839199610_2_alg».proof.Proof.Gen.KernelIdeal.Launch
import proofs.«416151_j72335839199610_2_alg».proof.Proof.Gen.KernelIdeal.Skeleton
import proofs.«416151_j72335839199610_2_alg».proof.Proof.Gen.KernelIdeal.Points
import proofs.«416151_j72335839199610_2_alg».proof.Proof.KI.Outs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole-buffer rectangle at zero offsets, in two axes: the offsets are the zero function. -/
theorem zero_offsets2 : (![0, 0] : Fin 2 → Nat) = fun _ => 0 := by funext a; fin_cases a <;> rfl
/-- The same in one axis. -/
theorem zero_offsets1 : (![0] : Fin 1 → Nat) = fun _ => 0 := by funext a; fin_cases a; rfl

/-- One store through the whole-shape rectangle at zero offsets leaves its payload, whatever the view and the
    earlier contents: the one piece covers every index, and under it the contents are the payload. -/
theorem store_whole_eq {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A load through the whole-shape rectangle at zero offsets reads the view's contents. -/
theorem load_whole_eq {Val : EltTy → Type} {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

set_option maxHeartbeats 4000000 in
/-- The body on whole staging memrefs, the inputs' at contents x0 … x7 and the outputs' at anything, runs to the
    continuation holding the inputs as they were, the three computed outputs at outS, outI, outR of the inputs,
    and the fourth output at the rate rows: every load reads a whole buffer, so it reads the buffer's contents, and
    every store covers its buffer, so it leaves its payload. -/
theorem sound_kernel (c : Dev nD) (E : Set ℕ) (i : grid0.Coords)
    (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x1000 .bf16) (harg4 : arg4.IsWhole) (arg5 : Memref sig .tc .vmem S128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x128 .f32) (harg11 : arg11.IsWhole) (arg12 : Memref sig .tc .vmem S1000x128 .f32) (harg12 : arg12.IsWhole)
    (x0 x1 x2 : Vec F S1000x128 .f32) (x3 : Vec F S1000x1000 .bf16) (x4 : Vec F S128x128 .f32) (x5 x6 x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
              ∗ owns (c : Thread nD τ) arg5 fullShare x4 ∗ owns (c : Thread nD τ) arg6 fullShare x5 ∗ owns (c : Thread nD τ) arg7 fullShare x6 ∗ owns (c : Thread nD τ) arg8 fullShare x7
              ∗ owns (c : Thread nD τ) arg9 fullShare (outS x0 x1 x2 x3 x4 x5 x6 x7) ∗ owns (c : Thread nD τ) arg10 fullShare (outI x0 x1 x2 x3 x4 x5 x6 x7)
              ∗ owns (c : Thread nD τ) arg11 fullShare (outR x0 x1 x2 x3 x4 x5 x6 x7) ∗ owns (c : Thread nD τ) arg12 fullShare x2) -∗ K ⟨⟩))
      ⊢ wp frame (wpE (defs₀ (F := F)) Variants.none c none) E (cc0__sir_kernel i arg1 harg1 arg2 harg2 arg3 harg3 arg4 harg4 arg5 harg5 arg6 harg6 arg7 harg7 arg8 harg8 arg9 harg9 arg10 harg10 arg11 harg11 arg12 harg12) K := by
  simp only [cc0__sir_kernel_eq_skeleton]; unfold cc0__sir_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  isplitl [H9]
  · iexists _; isplitr
    swap; · iexact H9
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  isplitl [H10]
  · iexists _; isplitr
    swap; · iexact H10
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]
    rfl
  · iexists _; isplitr
    swap; · iexact H11
    ipureintro
    refine (store_whole_eq _ _ zero_offsets2 _ _).trans ?_
    sl_unfold_run_names
    simp only [load_whole_eq (S := S1000x128) _ _ zero_offsets2, load_whole_eq (S := S1000x1000) _ _ zero_offsets2, load_whole_eq (S := S128x128) _ _ zero_offsets2,
      load_whole_eq (S := S128) _ _ zero_offsets1]

end Cert.KernelIdeal.Hand

end
-- ==== Proof.KI.Oblig.lean ====
/-
  The body obligation of the pipeline's proof data: at every grid point, from every window's current staging buffer at
  what it then holds, the kernel body runs to every buffer at what the proof data say it leaves. Each input window's
  buffer holds its block of the array at every point, whether the block was fetched at that point or earlier (the
  windows fetched once keep their block, which is the whole array, from the first point on); the body's triple then
  applies to the eight input blocks, and its four output buffers are left at the three computed blocks and at the
  rate rows' block.
-/
import proofs.«416151_j72335839199610_2_alg».proof.Proof.KI.Data
import proofs.«416151_j72335839199610_2_alg».proof.Proof.KI.Body
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body leaves, window by window -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outS (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = outI (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = outR (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = iblk m c 2 t := by dsimp only [dats]

/-! ## What each input window's buffer holds when the body runs -/

/-- What a fetch of window w at point t reads is the window's block of the array as the region finds it. -/
theorem blockOf_eq (c : Dev nD) (w : Fin cfg0.W) (t : Fin cfg0.N) : (dats m 0 c).blockOf w t = iblk m c w t := by
  unfold Dat.blockOf iblk; rw [A_eq]

/-- Input window 0's current buffer holds its block at every point: the body leaves the block in place, the
    window's blocks tile its array (nothing is cut), and where the block is not fetched its index has not moved. -/
theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0, blockOf_eq]
  rw [(dats m 0 c).before_in_eq_fetched 0 rfl (fun _ => rfl) (fun _ _ _ => rfl) hkeep t d]
  unfold Dat.fetched; rw [blockOf_eq]; rfl

/-- Input window 1's current buffer holds its block at every point: the body leaves the block in place, the
    window's blocks tile its array (nothing is cut), and where the block is not fetched its index has not moved. -/
theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1, blockOf_eq]
  rw [(dats m 0 c).before_in_eq_fetched 1 rfl (fun _ => rfl) (fun _ _ _ => rfl) hkeep t d]
  unfold Dat.fetched; rw [blockOf_eq]; rfl

/-- Input window 2's current buffer holds its block at every point: the body leaves the block in place, the
    window's blocks tile its array (nothing is cut), and where the block is not fetched its index has not moved. -/
theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2, blockOf_eq]
  rw [(dats m 0 c).before_in_eq_fetched 2 rfl (fun _ => rfl) (fun _ _ _ => rfl) hkeep t d]
  unfold Dat.fetched; rw [blockOf_eq]; rfl

/-- Input window 3's current buffer holds its block at every point: the body leaves the block in place, the
    window's blocks tile its array (nothing is cut), and where the block is not fetched its index has not moved. -/
theorem before0_3 (c : Dev nD) (t : Fin cfg0.N) (d) : (dats m 0 c).before 3 t d = iblk m c 3 t := by
  have hkeep : ∀ t, (cfg0.win 3).cut (cfg0.grid.coords t) ((dats m 0 c).after 3 t) = (dats m 0 c).blockOf 3 t := fun t => by
    rw [after0_3, blockOf_eq]
  rw [(dats m 0 c).before_in_eq_fetched 3 rfl (fun _ => rfl) (fun _ _ _ => rfl) hkeep t d]
  unfold Dat.fetched; rw [blockOf_eq]; rfl

/-- Input window 4's current buffer holds its block at every point (the whole array, fetched at the first point only): the body leaves the block in place, the
    window's blocks tile its array (nothing is cut), and where the block is not fetched its index has not moved. -/
theorem before0_4 (c : Dev nD) (t : Fin cfg0.N) (d) : (dats m 0 c).before 4 t d = iblk m c 4 t := by
  have hkeep : ∀ t, (cfg0.win 4).cut (cfg0.grid.coords t) ((dats m 0 c).after 4 t) = (dats m 0 c).blockOf 4 t := fun t => by
    rw [after0_4, blockOf_eq]
  rw [(dats m 0 c).before_in_eq_fetched 4 rfl (fun _ => rfl) (fun _ _ _ => rfl) hkeep t d]
  unfold Dat.fetched; rw [blockOf_eq]; rfl

/-- Input window 5's current buffer holds its block at every point (the whole array, fetched at the first point only): the body leaves the block in place, the
    window's blocks tile its array (nothing is cut), and where the block is not fetched its index has not moved. -/
theorem before0_5 (c : Dev nD) (t : Fin cfg0.N) (d) : (dats m 0 c).before 5 t d = iblk m c 5 t := by
  have hkeep : ∀ t, (cfg0.win 5).cut (cfg0.grid.coords t) ((dats m 0 c).after 5 t) = (dats m 0 c).blockOf 5 t := fun t => by
    rw [after0_5, blockOf_eq]
  rw [(dats m 0 c).before_in_eq_fetched 5 rfl (fun _ => rfl) (fun _ _ _ => rfl) hkeep t d]
  unfold Dat.fetched; rw [blockOf_eq]; rfl

/-- Input window 6's current buffer holds its block at every point (the whole array, fetched at the first point only): the body leaves the block in place, the
    window's blocks tile its array (nothing is cut), and where the block is not fetched its index has not moved. -/
theorem before0_6 (c : Dev nD) (t : Fin cfg0.N) (d) : (dats m 0 c).before 6 t d = iblk m c 6 t := by
  have hkeep : ∀ t, (cfg0.win 6).cut (cfg0.grid.coords t) ((dats m 0 c).after 6 t) = (dats m 0 c).blockOf 6 t := fun t => by
    rw [after0_6, blockOf_eq]
  rw [(dats m 0 c).before_in_eq_fetched 6 rfl (fun _ => rfl) (fun _ _ _ => rfl) hkeep t d]
  unfold Dat.fetched; rw [blockOf_eq]; rfl

/-- Input window 7's current buffer holds its block at every point (the whole array, fetched at the first point only): the body leaves the block in place, the
    window's blocks tile its array (nothing is cut), and where the block is not fetched its index has not moved. -/
theorem before0_7 (c : Dev nD) (t : Fin cfg0.N) (d) : (dats m 0 c).before 7 t d = iblk m c 7 t := by
  have hkeep : ∀ t, (cfg0.win 7).cut (cfg0.grid.coords t) ((dats m 0 c).after 7 t) = (dats m 0 c).blockOf 7 t := fun t => by
    rw [after0_7, blockOf_eq]
  rw [(dats m 0 c).before_in_eq_fetched 7 rfl (fun _ => rfl) (fun _ _ _ => rfl) hkeep t d]
  unfold Dat.fetched; rw [blockOf_eq]; rfl

/-! ## The body obligation, at a generic point -/

/-- What the body is called with at point t: the invariant, what the core owes, and every window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns: the invariant and what the core owes at the next point, and every buffer at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the eight input buffers hold their blocks, so the body's triple applies at those blocks; the
    invariant and what the core owes pass through unread; the four output buffers, held at anything, are left at the
    three computed blocks and the rate rows' block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  THE LAUNCH: the run of @main. Seven stretches of host operations build the adjacency and the transposed weights; the
  region runs the pipeline over the hundred blocks; one host operation joins the four output arrays into the result.
  Three windows of the pipeline stage the same array x, so the launch hands each a part of x's full share; the
  operation after the region reads the output arrays only, so the parts are never rejoined. The post names the result
  buffer's contents and says every argument is as launched.
-/
import proofs.«416151_j72335839199610_2_alg».proof.Proof.KI.Tail
import proofs.«416151_j72335839199610_2_alg».proof.Proof.KI.Args
import proofs.«416151_j72335839199610_2_alg».proof.Proof.KI.Oblig

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The run -/

set_option maxHeartbeats 2000000 in
set_option backward.isDefEq.respectTransparency.types false in
/-- THE LAUNCH. At the compiled mesh, for any values, from any memory with zero counters, every weakly fair execution of
    @main on the TensorCores terminates, and in every final state the result buffer holds the four output arrays joined
    along the rows and every argument is as launched. The three windows that stage x hold three disjoint parts of its
    full share, split at the region's entry and never rejoined: the operation after the region touches the outputs only. -/
theorem run_main : θ_run defs (onTc (τ := τ) (main (F := F))) ⟨m, fun _ => 0, ρ⟩ (fun r => ∀ c : Dev nD,
      r.2.mem ((c.tc : Thread nD τ).loc main_v23) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  classical
  have hrest : ∀ b : Ref sig .tc, b ≠ main_v23 → b.isScoped = false → (∀ w, (spec0 w).arr.view.ref ≠ b) → b ∈ restBut :=
    fun b h1 h2 h3 => Finset.mem_erase.mpr ⟨h1, Pipeline.mem_restRefs_of b h2 h3⟩
  refine Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) ?hbody
    block_pos0 arr_whole0 stage_whole0 ?howed
    (G := fun _ => iprop(emp)) (u₀ := initOf (Pipeline.cells cfgs cellOf_inj) (Pipeline.launchToks cfgs cellOf_inj))
    (hu₀ := ?hu0)
    (V := V m) (hmain := ?hmain) (hsplit := ?hsplit) (hpf := fun _ k => k.elim0)
    (X := fun c => iprop(∃ r, prngReg c r)) (Y := fun c => iprop(∃ r, prngReg c r)) (Z := Z m) (Z' := Z' m)
    (hX := ?hX) (hin := ?hin) (hout := ?hout) (htail := ?htail) (QY := QY m) (hY := ?hY) (hQ := ?hQ)
  case hbody => exact fun c => (body_obligation m c).loose
  case howed => exact fun _ _ => rfl
  case hu0 =>
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hmain => exact hmain m Variants.none
  case hsplit => exact hsplit m
  case hX =>
    intro c
    rw [rest_split]
    iintro ⟨HU, -, -, -, Hp, -⟩; imodintro
    isplitl [Hp]; · iexists _; iexact Hp
    iexact HU
  case hin =>
    intro c
    show _ ⊢ Pipeline.ΦA spec0 c
    unfold Pipeline.ΦA
    iintro ⟨Hp, -, Hr⟩
    isplitl [Hr]; · iexact Hr
    iexact Hp
  case hout =>
    intro c
    show Pipeline.ΦA spec0 c ⊢ _
    rw [Pipeline.ownSems0_none]; unfold Pipeline.ΦA
    iintro ⟨Hr, Hp⟩
    isplitl [Hp]; · iexact Hp
    isplitr; · iempintro
    iexact Hr
  case htail => exact htail m Variants.none
  case hY => exact hY m
  case hQ =>
    intro s h c
    refine ⟨(h c).2.2.1, ?_, ?_, ?_, ?_, ?_, ?_, ?_, ?_⟩
    · exact ((h c).2.2.2 main_arg0 (hrest _ (by decide) (by decide) (by decide))).trans (V_main_arg0 m c)
    · exact ((h c).1 0).trans ((arrAt_input m c 0 rfl _).trans (V_main_arg1 m c))
    · exact ((h c).2.2.2 main_arg2 (hrest _ (by decide) (by decide) (by decide))).trans (V_main_arg2 m c)
    · exact ((h c).2.2.2 main_arg3 (hrest _ (by decide) (by decide) (by decide))).trans (V_main_arg3 m c)
    · exact ((h c).2.2.2 main_arg4 (hrest _ (by decide) (by decide) (by decide))).trans (V_main_arg4 m c)
    · exact ((h c).1 5).trans ((arrAt_input m c 5 rfl _).trans (V_main_arg5 m c))
    · exact ((h c).1 6).trans ((arrAt_input m c 6 rfl _).trans (V_main_arg6 m c))
    · exact ((h c).1 7).trans ((arrAt_input m c 7 rfl _).trans (V_main_arg7 m c))

/-- info: 'Cert.KernelIdeal.Hand.run_main' depends on axioms: [propext, Classical.choice, Quot.sound] -/
#guard_msgs in #print axioms run_main

end Cert.KernelIdeal.Hand

end
-- ==== Proof.KI.Blocks.lean ====
/-
  From blocks to arrays, the inputs: each input window's block at grid point t as a piece of its array as the region finds it.
  The feature array x is cut in blocks of 1000 rows; windows 0, 1 and 2 read its block rows t, t + 100 and t + 300 (the S
  features, the I features and the rate rows of the nodes 1000 t … 1000 t + 999); window 3 reads block row t of the
  adjacency; windows 4 to 7 read the weight matrix, the bias and the normalisation's scale and shift whole.
-/
import proofs.«416151_j72335839199610_2_alg».proof.Proof.KI.Data
import proofs.«416151_j72335839199610_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

variable (m : (ℓ : Loc nD τ sig) → Buf (Elt F) ℓ)

/-- A grid point's number is below 100. -/
theorem tlt (t : Fin cfg0.N) : t.val < 100 := lt_of_lt_of_eq t.isLt N_0

/-! ## Where each window's block sits at a grid point -/

/-- At every grid point t, window 0's block is at block row t, block column 0. -/
theorem idx_facts0 : ∀ t : Fin cfg0.N, win0_0.index t (0 : Fin 2) = t.val ∧ win0_0.index t (1 : Fin 2) = 0 ∧ True :=
  (by decide +kernel : ∀ t : Fin grid0.N, _)
/-- At every grid point t, window 1's block is at block row t + 100, block column 0. -/
theorem idx_facts1 : ∀ t : Fin cfg0.N, win0_1.index t (0 : Fin 2) = t.val + 100 ∧ win0_1.index t (1 : Fin 2) = 0 ∧ True :=
  (by decide +kernel : ∀ t : Fin grid0.N, _)
/-- At every grid point t, window 2's block is at block row t + 300, block column 0. -/
theorem idx_facts2 : ∀ t : Fin cfg0.N, win0_2.index t (0 : Fin 2) = t.val + 300 ∧ win0_2.index t (1 : Fin 2) = 0 ∧ True :=
  (by decide +kernel : ∀ t : Fin grid0.N, _)
/-- At every grid point t, window 3's block is at block row t, block column 0. -/
theorem idx_facts3 : ∀ t : Fin cfg0.N, win0_3.index t (0 : Fin 2) = t.val ∧ win0_3.index t (1 : Fin 2) = 0 ∧ True :=
  (by decide +kernel : ∀ t : Fin grid0.N, _)
/-- At every grid point the windows 4 to 7, whose block is their whole array, are at block 0 on every axis. -/
theorem idx_facts_whole : ∀ t : Fin cfg0.N, win0_4.index t (0 : Fin 2) = 0 ∧ win0_4.index t (1 : Fin 2) = 0
    ∧ win0_5.index t (0 : Fin 1) = 0 ∧ win0_6.index t (0 : Fin 1) = 0 ∧ win0_7.index t (0 : Fin 1) = 0 :=
  (by decide +kernel : ∀ t : Fin grid0.N, _)

/-! ## The input blocks as rows of their arrays

Row p of a block at block row b of an array is row b · 1000 + p of the array: a block's coordinate is the block index times
the block's extent plus the coordinate inside the block. -/

/-- Window 0's block at point t is rows 1000 t … 1000 t + 999 of x (the S features). -/
theorem iblk0_apply (c : Dev nD) (t : Fin cfg0.N) (p : Fin 1000) (j : Fin 128) :
    (iblk m c 0 t : Vec F S1000x128 .f32) (ix2 p j)
      = (V m c main_arg1 : Vec F S400000x128 .f32) (ix2 ⟨t.val * 1000 + p.val, by have := tlt t; omega⟩ j) := by
  obtain ⟨e0, e1, -⟩ := idx_facts0 t
  unfold iblk
  rw [View.read_apply]
  show V m c main_arg1 _ = V m c main_arg1 _
  congr 1
  funext a
  apply Fin.ext
  match a with
  | ⟨0, _⟩ => show win0_0.index t (0 : Fin 2) * 1000 + 1 * p.val = t.val * 1000 + p.val; omega
  | ⟨1, _⟩ => show win0_0.index t (1 : Fin 2) * 128 + 1 * j.val = j.val; omega

/-- Window 1's block at point t is rows 100000 + 1000 t … of x (the I features). -/
theorem iblk1_apply (c : Dev nD) (t : Fin cfg0.N) (p : Fin 1000) (j : Fin 128) :
    (iblk m c 1 t : Vec F S1000x128 .f32) (ix2 p j)
      = (V m c main_arg1 : Vec F S400000x128 .f32) (ix2 ⟨100000 + t.val * 1000 + p.val, by have := tlt t; omega⟩ j) := by
  obtain ⟨e0, e1, -⟩ := idx_facts1 t
  unfold iblk
  rw [View.read_apply]
  show V m c main_arg1 _ = V m c main_arg1 _
  congr 1
  funext a
  apply Fin.ext
  match a with
  | ⟨0, _⟩ => show win0_1.index t (0 : Fin 2) * 1000 + 1 * p.val = 100000 + t.val * 1000 + p.val; omega
  | ⟨1, _⟩ => show win0_1.index t (1 : Fin 2) * 128 + 1 * j.val = j.val; omega

/-- Window 2's block at point t is rows 300000 + 1000 t … of x (the rate rows). -/
theorem iblk2_apply (c : Dev nD) (t : Fin cfg0.N) (p : Fin 1000) (j : Fin 128) :
    (iblk m c 2 t : Vec F S1000x128 .f32) (ix2 p j)
      = (V m c main_arg1 : Vec F S400000x128 .f32) (ix2 ⟨300000 + t.val * 1000 + p.val, by have := tlt t; omega⟩ j) := by
  obtain ⟨e0, e1, -⟩ := idx_facts2 t
  unfold iblk
  rw [View.read_apply]
  show V m c main_arg1 _ = V m c main_arg1 _
  congr 1
  funext a
  apply Fin.ext
  match a with
  | ⟨0, _⟩ => show win0_2.index t (0 : Fin 2) * 1000 + 1 * p.val = 300000 + t.val * 1000 + p.val; omega
  | ⟨1, _⟩ => show win0_2.index t (1 : Fin 2) * 128 + 1 * j.val = j.val; omega

/-- Window 3's block at point t is rows 1000 t … 1000 t + 999 of the adjacency, all 1000 columns. -/
theorem iblk3_apply (c : Dev nD) (t : Fin cfg0.N) (p : Fin 1000) (lc : Fin 1000) :
    (iblk m c 3 t : Vec F S1000x1000 .bf16) (ix2 p lc)
      = (V m c main_v20 : Vec F S100000x1000 .bf16) (ix2 ⟨t.val * 1000 + p.val, by have := tlt t; omega⟩ lc) := by
  obtain ⟨e0, e1, -⟩ := idx_facts3 t
  unfold iblk
  rw [View.read_apply]
  show V m c main_v20 _ = V m c main_v20 _
  congr 1
  funext a
  apply Fin.ext
  match a with
  | ⟨0, _⟩ => show win0_3.index t (0 : Fin 2) * 1000 + 1 * p.val = t.val * 1000 + p.val; omega
  | ⟨1, _⟩ => show win0_3.index t (1 : Fin 2) * 1000 + 1 * lc.val = lc.val; omega

/-- Window 4's block is the whole 128 × 128 weight array, at every point. -/
theorem iblk4_eq (c : Dev nD) (t : Fin cfg0.N) :
    (iblk m c 4 t : Vec F S128x128 .f32) = (V m c main_v21 : Vec F S128x128 .f32) := by
  obtain ⟨e0, e1, -⟩ := idx_facts_whole t
  funext y
  unfold iblk
  rw [View.read_apply]
  show V m c main_v21 _ = V m c main_v21 _
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is the whole 128-vector of the bias, at every point. -/
theorem iblk5_eq (c : Dev nD) (t : Fin cfg0.N) :
    (iblk m c 5 t : Vec F S128 .f32) = (V m c main_arg5 : Vec F S128 .f32) := by
  obtain ⟨-, -, e2, e3, e4⟩ := idx_facts_whole t
  funext y
  unfold iblk
  rw [View.read_apply]
  show V m c main_arg5 _ = V m c main_arg5 _
  congr 1
  funext a
  apply Fin.ext
  match a with
  | ⟨0, _⟩ => show win0_5.index t (0 : Fin 1) * 128 + 1 * (y 0).val = (y 0).val; omega

/-- Window 6's block is the whole 128-vector of the normalisation's scale, at every point. -/
theorem iblk6_eq (c : Dev nD) (t : Fin cfg0.N) :
    (iblk m c 6 t : Vec F S128 .f32) = (V m c main_arg6 : Vec F S128 .f32) := by
  obtain ⟨-, -, e2, e3, e4⟩ := idx_facts_whole t
  funext y
  unfold iblk
  rw [View.read_apply]
  show V m c main_arg6 _ = V m c main_arg6 _
  congr 1
  funext a
  apply Fin.ext
  match a with
  | ⟨0, _⟩ => show win0_6.index t (0 : Fin 1) * 128 + 1 * (y 0).val = (y 0).val; omega

/-- Window 7's block is the whole 128-vector of the normalisation's shift, at every point. -/
theorem iblk7_eq (c : Dev nD) (t : Fin cfg0.N) :
    (iblk m c 7 t : Vec F S128 .f32) = (V m c main_arg7 : Vec F S128 .f32) := by
  obtain ⟨-, -, e2, e3, e4⟩ := idx_facts_whole t
  funext y
  unfold iblk
  rw [View.read_apply]
  show V m c main_arg7 _ = V m c main_arg7 _
  congr 1
  funext a
  apply Fin.ext
  match a with
  | ⟨0, _⟩ => show win0_7.index t (0 : Fin 1) * 128 + 1 * (y 0).val = (y 0).val; omega

end Cert.KernelIdeal.Hand

end
-- ==== Proof.KI.BlocksOut.lean ====
/-
  From blocks to arrays, the outputs: each of the four output arrays after the run, entry by entry, as the block its grid
  point left. Block row t of an output array is written at point t only, and the 100 block rows of 1000 rows fill the 100000
  rows, so row r ends holding row r mod 1000 of what point r div 1000 left.
-/
import proofs.«416151_j72335839199610_2_alg».proof.Proof.KI.Data
import proofs.«416151_j72335839199610_2_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

variable (m : (ℓ : Loc nD τ sig) → Buf (Elt F) ℓ)

/-! ## The output arrays after the run

The four output windows have the same index map: block row = the grid point, 1000 rows each, so the 100 points' blocks cover
the 100000 rows exactly once, and row r is row r mod 1000 of point r div 1000's block. -/

/-- The array of 100000 rows whose rows 1000 t … 1000 t + 999 are the block f t. -/
def rowsOf {α : Type} (f : Fin cfg0.N → S1000x128.Idx → α) : S100000x128.Idx → α := fun i =>
  f ⟨(i 0).val / 1000, by rw [show cfg0.N = 100 from N_0]; have := idx2_lt0 i; omega⟩ (ix2 ⟨(i 0).val % 1000, Nat.mod_lt _ (by decide)⟩ (i 1))

/-- At the index at row 1000 t + y₀, column y₁, it reads block t at y. -/
theorem rowsOf_at {α : Type} (f : Fin cfg0.N → S1000x128.Idx → α) (t : Fin cfg0.N) (y : S1000x128.Idx) (i : S100000x128.Idx)
    (h0 : (i 0).val = t.val * 1000 + (y 0).val) (h1 : (i 1).val = (y 1).val) : rowsOf f i = f t y := by
  have hy0 : (y 0).val < 1000 := idx2_lt0 y
  have ht : (⟨(i 0).val / 1000, by rw [show cfg0.N = 100 from N_0]; have := idx2_lt0 i; omega⟩ : Fin cfg0.N) = t :=
    Fin.ext (by show (i 0).val / 1000 = t.val; omega)
  unfold rowsOf
  rw [ht]
  congr 1
  funext a
  apply Fin.ext
  match a with
  | ⟨0, _⟩ => show (i 0).val % 1000 = (y 0).val; omega
  | ⟨1, _⟩ => show (i 1).val = (y 1).val; exact h1

/-! ### Window 8: the first output (the normalised dS) -/

/-- At every grid point t, window 8's block is at block row t, block column 0. -/
theorem idx_facts8 : ∀ t : Fin cfg0.N, win0_8.index t (0 : Fin 2) = t.val ∧ win0_8.index t (1 : Fin 2) = 0 :=
  (by decide +kernel : ∀ t : Fin grid0.N, _)

/-- What point t writes back is block t of the array assembled from all the points' blocks: inside block t, row
    1000 t + p divided by 1000 is t, with remainder p. -/
theorem flushed8_eq (c : Dev nD) (t : Fin cfg0.N) :
    (dats m 0 c).flushed 8 t = ((cfg0.win 8).blk t).view.read (Elt F) (rowsOf fun t => (dats m 0 c).after 8 t) := by
  show (cfg0.win 8).cut (grid0.coords t) ((dats m 0 c).after 8 t) = _
  obtain ⟨e0, e1⟩ := idx_facts8 t
  funext y
  rw [View.read_apply]
  show ((dats m 0 c).after 8 t : Vec F S1000x128 .f32) y = rowsOf (fun t => (dats m 0 c).after 8 t) (((cfg0.win 8).blk t).view.emb y)
  refine (rowsOf_at (fun t => (dats m 0 c).after 8 t) t y _ ?_ ?_).symm
  · show win0_8.index t (0 : Fin 2) * 1000 + 1 * (y 0).val = t.val * 1000 + (y 0).val; omega
  · show win0_8.index t (1 : Fin 2) * 128 + 1 * (y 1).val = (y 1).val; omega

/-- An index of the array is in point t's block iff each coordinate is in the block's range on its axis. -/
theorem mem_blk8 (t : Fin cfg0.N) (i : S100000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v22_0).slice (win0_8.rect t)).set ↔ _
  rw [View.set_slice_whole, Rect.mem_set_unit]
  exact Iff.rfl

/-- Every index of the array is in the block of the point numbered by its row divided by 1000. -/
theorem cover8 (i : S100000x128.Idx) : ∃ t : Fin cfg0.N, (cfg0.win 8).flush t = true ∧ i ∈ ((cfg0.win 8).blk t).view.set := by
  have hi0 : (i 0).val < 100000 := idx2_lt0 i
  have hi1 : (i 1).val < 128 := idx2_lt1 i
  have hN : (i 0).val / 1000 < cfg0.N := by rw [show cfg0.N = 100 from N_0]; omega
  obtain ⟨e0, e1⟩ := idx_facts8 ⟨(i 0).val / 1000, hN⟩
  have e0' : win0_8.index ⟨(i 0).val / 1000, hN⟩ (0 : Fin 2) = (i 0).val / 1000 := e0
  refine ⟨⟨(i 0).val / 1000, hN⟩, flush0_8 _, ?_⟩
  rw [mem_blk8]
  intro a
  match a with
  | ⟨0, _⟩ => show win0_8.index ⟨(i 0).val / 1000, hN⟩ (0 : Fin 2) * 1000 ≤ (i 0).val ∧ (i 0).val < win0_8.index ⟨(i 0).val / 1000, hN⟩ (0 : Fin 2) * 1000 + 1000; omega
  | ⟨1, _⟩ => show win0_8.index ⟨(i 0).val / 1000, hN⟩ (1 : Fin 2) * 128 ≤ (i 1).val ∧ (i 1).val < win0_8.index ⟨(i 0).val / 1000, hN⟩ (1 : Fin 2) * 128 + 128; omega

/-- The array after the run is assembled from the blocks the points left. -/
theorem arrAt8_eq (c : Dev nD) : (dats m 0 c).arrAt 8 cfg0.N = rowsOf fun t => (dats m 0 c).after 8 t :=
  (dats m 0 c).arrAt_eq_of_cover 8 (rowsOf fun t => (dats m 0 c).after 8 t) (fun t _ => flushed8_eq m c t) cover8

/-- Row r of the array after the run is row r mod 1000 of what point r div 1000 left. -/
theorem arrAt8_apply (c : Dev nD) (r : Fin 100000) (h : Fin 128) :
    ((dats m 0 c).arrAt 8 cfg0.N : Vec F S100000x128 .f32) (ix2 r h)
      = ((dats m 0 c).after 8 ⟨r.val / 1000, by rw [show cfg0.N = 100 from N_0]; omega⟩ : Vec F S1000x128 .f32) (ix2 ⟨r.val % 1000, Nat.mod_lt _ (by decide)⟩ h) :=
  congrFun (arrAt8_eq m c) (ix2 r h)

/-! ### Window 9: the second output (the normalised dI) -/

/-- At every grid point t, window 9's block is at block row t, block column 0. -/
theorem idx_facts9 : ∀ t : Fin cfg0.N, win0_9.index t (0 : Fin 2) = t.val ∧ win0_9.index t (1 : Fin 2) = 0 :=
  (by decide +kernel : ∀ t : Fin grid0.N, _)

/-- What point t writes back is block t of the array assembled from all the points' blocks: inside block t, row
    1000 t + p divided by 1000 is t, with remainder p. -/
theorem flushed9_eq (c : Dev nD) (t : Fin cfg0.N) :
    (dats m 0 c).flushed 9 t = ((cfg0.win 9).blk t).view.read (Elt F) (rowsOf fun t => (dats m 0 c).after 9 t) := by
  show (cfg0.win 9).cut (grid0.coords t) ((dats m 0 c).after 9 t) = _
  obtain ⟨e0, e1⟩ := idx_facts9 t
  funext y
  rw [View.read_apply]
  show ((dats m 0 c).after 9 t : Vec F S1000x128 .f32) y = rowsOf (fun t => (dats m 0 c).after 9 t) (((cfg0.win 9).blk t).view.emb y)
  refine (rowsOf_at (fun t => (dats m 0 c).after 9 t) t y _ ?_ ?_).symm
  · show win0_9.index t (0 : Fin 2) * 1000 + 1 * (y 0).val = t.val * 1000 + (y 0).val; omega
  · show win0_9.index t (1 : Fin 2) * 128 + 1 * (y 1).val = (y 1).val; omega

/-- An index of the array is in point t's block iff each coordinate is in the block's range on its axis. -/
theorem mem_blk9 (t : Fin cfg0.N) (i : S100000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v22_1).slice (win0_9.rect t)).set ↔ _
  rw [View.set_slice_whole, Rect.mem_set_unit]
  exact Iff.rfl

/-- Every index of the array is in the block of the point numbered by its row divided by 1000. -/
theorem cover9 (i : S100000x128.Idx) : ∃ t : Fin cfg0.N, (cfg0.win 9).flush t = true ∧ i ∈ ((cfg0.win 9).blk t).view.set := by
  have hi0 : (i 0).val < 100000 := idx2_lt0 i
  have hi1 : (i 1).val < 128 := idx2_lt1 i
  have hN : (i 0).val / 1000 < cfg0.N := by rw [show cfg0.N = 100 from N_0]; omega
  obtain ⟨e0, e1⟩ := idx_facts9 ⟨(i 0).val / 1000, hN⟩
  have e0' : win0_9.index ⟨(i 0).val / 1000, hN⟩ (0 : Fin 2) = (i 0).val / 1000 := e0
  refine ⟨⟨(i 0).val / 1000, hN⟩, flush0_9 _, ?_⟩
  rw [mem_blk9]
  intro a
  match a with
  | ⟨0, _⟩ => show win0_9.index ⟨(i 0).val / 1000, hN⟩ (0 : Fin 2) * 1000 ≤ (i 0).val ∧ (i 0).val < win0_9.index ⟨(i 0).val / 1000, hN⟩ (0 : Fin 2) * 1000 + 1000; omega
  | ⟨1, _⟩ => show win0_9.index ⟨(i 0).val / 1000, hN⟩ (1 : Fin 2) * 128 ≤ (i 1).val ∧ (i 1).val < win0_9.index ⟨(i 0).val / 1000, hN⟩ (1 : Fin 2) * 128 + 128; omega

/-- The array after the run is assembled from the blocks the points left. -/
theorem arrAt9_eq (c : Dev nD) : (dats m 0 c).arrAt 9 cfg0.N = rowsOf fun t => (dats m 0 c).after 9 t :=
  (dats m 0 c).arrAt_eq_of_cover 9 (rowsOf fun t => (dats m 0 c).after 9 t) (fun t _ => flushed9_eq m c t) cover9

/-- Row r of the array after the run is row r mod 1000 of what point r div 1000 left. -/
theorem arrAt9_apply (c : Dev nD) (r : Fin 100000) (h : Fin 128) :
    ((dats m 0 c).arrAt 9 cfg0.N : Vec F S100000x128 .f32) (ix2 r h)
      = ((dats m 0 c).after 9 ⟨r.val / 1000, by rw [show cfg0.N = 100 from N_0]; omega⟩ : Vec F S1000x128 .f32) (ix2 ⟨r.val % 1000, Nat.mod_lt _ (by decide)⟩ h) :=
  congrFun (arrAt9_eq m c) (ix2 r h)

/-! ### Window 10: the third output (the normalised dR) -/

/-- At every grid point t, window 10's block is at block row t, block column 0. -/
theorem idx_facts10 : ∀ t : Fin cfg0.N, win0_10.index t (0 : Fin 2) = t.val ∧ win0_10.index t (1 : Fin 2) = 0 :=
  (by decide +kernel : ∀ t : Fin grid0.N, _)

/-- What point t writes back is block t of the array assembled from all the points' blocks: inside block t, row
    1000 t + p divided by 1000 is t, with remainder p. -/
theorem flushed10_eq (c : Dev nD) (t : Fin cfg0.N) :
    (dats m 0 c).flushed 10 t = ((cfg0.win 10).blk t).view.read (Elt F) (rowsOf fun t => (dats m 0 c).after 10 t) := by
  show (cfg0.win 10).cut (grid0.coords t) ((dats m 0 c).after 10 t) = _
  obtain ⟨e0, e1⟩ := idx_facts10 t
  funext y
  rw [View.read_apply]
  show ((dats m 0 c).after 10 t : Vec F S1000x128 .f32) y = rowsOf (fun t => (dats m 0 c).after 10 t) (((cfg0.win 10).blk t).view.emb y)
  refine (rowsOf_at (fun t => (dats m 0 c).after 10 t) t y _ ?_ ?_).symm
  · show win0_10.index t (0 : Fin 2) * 1000 + 1 * (y 0).val = t.val * 1000 + (y 0).val; omega
  · show win0_10.index t (1 : Fin 2) * 128 + 1 * (y 1).val = (y 1).val; omega

/-- An index of the array is in point t's block iff each coordinate is in the block's range on its axis. -/
theorem mem_blk10 (t : Fin cfg0.N) (i : S100000x128.Idx) :
    i ∈ ((cfg0.win 10).blk t).view.set ↔ ∀ a : Fin 2, win0_10.index t a * S1000x128.size a ≤ (i a).val ∧ (i a).val < win0_10.index t a * S1000x128.size a + S1000x128.size a := by
  show i ∈ ((View.whole main_v22_2).slice (win0_10.rect t)).set ↔ _
  rw [View.set_slice_whole, Rect.mem_set_unit]
  exact Iff.rfl

/-- Every index of the array is in the block of the point numbered by its row divided by 1000. -/
theorem cover10 (i : S100000x128.Idx) : ∃ t : Fin cfg0.N, (cfg0.win 10).flush t = true ∧ i ∈ ((cfg0.win 10).blk t).view.set := by
  have hi0 : (i 0).val < 100000 := idx2_lt0 i
  have hi1 : (i 1).val < 128 := idx2_lt1 i
  have hN : (i 0).val / 1000 < cfg0.N := by rw [show cfg0.N = 100 from N_0]; omega
  obtain ⟨e0, e1⟩ := idx_facts10 ⟨(i 0).val / 1000, hN⟩
  have e0' : win0_10.index ⟨(i 0).val / 1000, hN⟩ (0 : Fin 2) = (i 0).val / 1000 := e0
  refine ⟨⟨(i 0).val / 1000, hN⟩, flush0_10 _, ?_⟩
  rw [mem_blk10]
  intro a
  match a with
  | ⟨0, _⟩ => show win0_10.index ⟨(i 0).val / 1000, hN⟩ (0 : Fin 2) * 1000 ≤ (i 0).val ∧ (i 0).val < win0_10.index ⟨(i 0).val / 1000, hN⟩ (0 : Fin 2) * 1000 + 1000; omega
  | ⟨1, _⟩ => show win0_10.index ⟨(i 0).val / 1000, hN⟩ (1 : Fin 2) * 128 ≤ (i 1).val ∧ (i 1).val < win0_10.index ⟨(i 0).val / 1000, hN⟩ (1 : Fin 2) * 128 + 128; omega

/-- The array after the run is assembled from the blocks the points left. -/
theorem arrAt10_eq (c : Dev nD) : (dats m 0 c).arrAt 10 cfg0.N = rowsOf fun t => (dats m 0 c).after 10 t :=
  (dats m 0 c).arrAt_eq_of_cover 10 (rowsOf fun t => (dats m 0 c).after 10 t) (fun t _ => flushed10_eq m c t) cover10

/-- Row r of the array after the run is row r mod 1000 of what point r div 1000 left. -/
theorem arrAt10_apply (c : Dev nD) (r : Fin 100000) (h : Fin 128) :
    ((dats m 0 c).arrAt 10 cfg0.N : Vec F S100000x128 .f32) (ix2 r h)
      = ((dats m 0 c).after 10 ⟨r.val / 1000, by rw [show cfg0.N = 100 from N_0]; omega⟩ : Vec F S1000x128 .f32) (ix2 ⟨r.val % 1000, Nat.mod_lt _ (by decide)⟩ h) :=
  congrFun (arrAt10_eq m c) (ix2 r h)

/-! ### Window 11: the fourth output (the rate rows passed through) -/

/-- At every grid point t, window 11's block is at block row t, block column 0. -/
theorem idx_facts11 : ∀ t : Fin cfg0.N, win0_11.index t (0 : Fin 2) = t.val ∧ win0_11.index t (1 : Fin 2) = 0 :=
  (by decide +kernel : ∀ t : Fin grid0.N, _)

/-- What point t writes back is block t of the array assembled from all the points' blocks: inside block t, row
    1000 t + p divided by 1000 is t, with remainder p. -/
theorem flushed11_eq (c : Dev nD) (t : Fin cfg0.N) :
    (dats m 0 c).flushed 11 t = ((cfg0.win 11).blk t).view.read (Elt F) (rowsOf fun t => (dats m 0 c).after 11 t) := by
  show (cfg0.win 11).cut (grid0.coords t) ((dats m 0 c).after 11 t) = _
  obtain ⟨e0, e1⟩ := idx_facts11 t
  funext y
  rw [View.read_apply]
  show ((dats m 0 c).after 11 t : Vec F S1000x128 .f32) y = rowsOf (fun t => (dats m 0 c).after 11 t) (((cfg0.win 11).blk t).view.emb y)
  refine (rowsOf_at (fun t => (dats m 0 c).after 11 t) t y _ ?_ ?_).symm
  · show win0_11.index t (0 : Fin 2) * 1000 + 1 * (y 0).val = t.val * 1000 + (y 0).val; omega
  · show win0_11.index t (1 : Fin 2) * 128 + 1 * (y 1).val = (y 1).val; omega

/-- An index of the array is in point t's block iff each coordinate is in the block's range on its axis. -/
theorem mem_blk11 (t : Fin cfg0.N) (i : S100000x128.Idx) :
    i ∈ ((cfg0.win 11).blk t).view.set ↔ ∀ a : Fin 2, win0_11.index t a * S1000x128.size a ≤ (i a).val ∧ (i a).val < win0_11.index t a * S1000x128.size a + S1000x128.size a := by
  show i ∈ ((View.whole main_v22_3).slice (win0_11.rect t)).set ↔ _
  rw [View.set_slice_whole, Rect.mem_set_unit]
  exact Iff.rfl

/-- Every index of the array is in the block of the point numbered by its row divided by 1000. -/
theorem cover11 (i : S100000x128.Idx) : ∃ t : Fin cfg0.N, (cfg0.win 11).flush t = true ∧ i ∈ ((cfg0.win 11).blk t).view.set := by
  have hi0 : (i 0).val < 100000 := idx2_lt0 i
  have hi1 : (i 1).val < 128 := idx2_lt1 i
  have hN : (i 0).val / 1000 < cfg0.N := by rw [show cfg0.N = 100 from N_0]; omega
  obtain ⟨e0, e1⟩ := idx_facts11 ⟨(i 0).val / 1000, hN⟩
  have e0' : win0_11.index ⟨(i 0).val / 1000, hN⟩ (0 : Fin 2) = (i 0).val / 1000 := e0
  refine ⟨⟨(i 0).val / 1000, hN⟩, flush0_11 _, ?_⟩
  rw [mem_blk11]
  intro a
  match a with
  | ⟨0, _⟩ => show win0_11.index ⟨(i 0).val / 1000, hN⟩ (0 : Fin 2) * 1000 ≤ (i 0).val ∧ (i 0).val < win0_11.index ⟨(i 0).val / 1000, hN⟩ (0 : Fin 2) * 1000 + 1000; omega
  | ⟨1, _⟩ => show win0_11.index ⟨(i 0).val / 1000, hN⟩ (1 : Fin 2) * 128 ≤ (i 1).val ∧ (i 1).val < win0_11.index ⟨(i 0).val / 1000, hN⟩ (1 : Fin 2) * 128 + 128; omega

/-- The array after the run is assembled from the blocks the points left. -/
theorem arrAt11_eq (c : Dev nD) : (dats m 0 c).arrAt 11 cfg0.N = rowsOf fun t => (dats m 0 c).after 11 t :=
  (dats m 0 c).arrAt_eq_of_cover 11 (rowsOf fun t => (dats m 0 c).after 11 t) (fun t _ => flushed11_eq m c t) cover11

/-- Row r of the array after the run is row r mod 1000 of what point r div 1000 left. -/
theorem arrAt11_apply (c : Dev nD) (r : Fin 100000) (h : Fin 128) :
    ((dats m 0 c).arrAt 11 cfg0.N : Vec F S100000x128 .f32) (ix2 r h)
      = ((dats m 0 c).after 11 ⟨r.val / 1000, by rw [show cfg0.N = 100 from N_0]; omega⟩ : Vec F S1000x128 .f32) (ix2 ⟨r.val % 1000, Nat.mod_lt _ (by decide)⟩ h) :=
  congrFun (arrAt11_eq m c) (ix2 r h)

end Cert.KernelIdeal.Hand

end
-- ==== Proof.KI.PayloadLayout.lean ====
/-
  The non-pointwise operations of the kernel body, each read at one index of its result, on the extended reals:
  a per-row quantity kept as a one-column array and spread again over the 128 features, the two rate columns cut out of
  the rate block, the sum of a row over its features, and the two matrix products (a block of rows times the transposed
  weight; the adjacency block times a block of hidden rows), each as a sum over its one contracted coordinate.
-/
import proofs.«416151_j72335839199610_2_alg».proof.Proof.KI.Outs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## One column: [a] → [a,1] → [a,b] -/

/-- An `[a]` array viewed as the one-column array `[a, 1]` reads, at `(i, u)`, the operand at `i`: both have row-major
    position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column array `[a, 1]` spread over `b` columns reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The rate columns -/

/-- Column 0 of the rate block, as a one-column array: at `(p, u)` the block at `(p, 0)`. -/
theorem rate0_apply (v : Vec Ideal S1000x128 .f32) (p : Fin 1000) (u : Fin 1) :
    extractStridedSlice S1000x1 ![0, 0] v slices_S1000x128_o0_0_S1000x1 (ix2 p u) = v (ix2 p (0 : Fin 128)) :=
  slice2_axis1_apply 0 v slices_S1000x128_o0_0_S1000x1 p u (0 : Fin 128) (by
    have hu : u.val = 0 := by omega
    show 0 = 0 + u.val
    rw [hu])

/-- Column 1 of the rate block, as a one-column array: at `(p, u)` the block at `(p, 1)`. -/
theorem rate1_apply (v : Vec Ideal S1000x128 .f32) (p : Fin 1000) (u : Fin 1) :
    extractStridedSlice S1000x1 ![0, 1] v slices_S1000x128_o0_1_S1000x1 (ix2 p u) = v (ix2 p (1 : Fin 128)) :=
  slice2_axis1_apply 1 v slices_S1000x128_o0_1_S1000x1 p u (1 : Fin 128) (by
    have hu : u.val = 0 := by omega
    show 1 = 1 + u.val
    rw [hu])

/-! ## The sum of a row over its features -/

/-- The row sums of a block (the format is f32 and the reduction's accumulator is the zero word, the neutral element of the
    sum: the two side conditions): at `p`, the sum over the 128 features of the block's row `p`. -/
theorem rowSum_apply (v : FVec Ideal S1000x128 .f32) (hφ : FTy.f32 = FTy.f32 ∨ FTy.f32 = FTy.bf16)
    (hacc : (0x00000000#32 : BitVec 32) = 0x00000000#32) (p : Fin 1000) :
    multiReduction (F := Ideal) .add [1] S1000 v 0x00000000#32 reduces_S1000x128_S1000 hφ hacc (ix1 p)
      = ∑ k : Fin 128, v (ix2 p k) := by
  refine (Ideal.multiReduction_add_single v 0x00000000#32 reduces_S1000x128_S1000 hφ hacc (ix1 p)).trans ?_
  refine Finset.sum_congr rfl fun k _ => congrArg v ?_
  funext a
  match a with
  | ⟨0, _⟩ => rfl
  | ⟨1, _⟩ => rfl

end Cert.KernelIdeal.Hand

end
-- ==== Proof.Spec.lean ====
/-
  The common specification. One block-diagonal graph step over n = 100000 nodes and 128 features, on the extended reals:
  the hidden layer h = max(x·Wt + b, 0) read on the node rows S (rows 0…n-1 of x) and I (rows n…2n-1), the per-node rates
  β, γ (columns 0 and 1 of rows 3n…4n-1), an aggregate AI given from outside, the three derivatives
      dS = (-β)·(AI·S),   dI = -dS - γ·I,   dR = γ·I,
  each normalised along the feature axis (mean, variance, reciprocal square root of variance + ε, scale and shift),
  and the rate rows passed through unchanged. Both programs are shown to compute `out` at their own aggregate.
-/
import Idealize.ShloMosaic.PureOps.Ideal

noncomputable section

namespace Cert.Spec

open Idealize.ShloMosaic

/-- The literal 128 the feature means divide by, and the variance's ε, as both programs print them. -/
abbrev c128 : EReal := Ideal.ofBits .f32 0x43000000#32
abbrev eps : EReal := Ideal.ofBits .f32 0x3727C5AC#32

/-- One affine row of the layer: Σₖ x[r,k]·Wt[k,h] + b[h]. -/
def lin (x : Fin 400000 → Fin 128 → EReal) (Wt : Fin 128 → Fin 128 → EReal) (b : Fin 128 → EReal) (r : Fin 400000) (h : Fin 128) : EReal :=
  (∑ k : Fin 128, x r k * Wt k h) + b h

/-- The layer's output: the affine row clipped at zero. -/
def hid (x : Fin 400000 → Fin 128 → EReal) (Wt : Fin 128 → Fin 128 → EReal) (b : Fin 128 → EReal) (r : Fin 400000) (h : Fin 128) : EReal :=
  max (lin x Wt b r h) 0

/-- Row `r` of the first, second, fourth quarter of a 400000-row array. -/
def rowS (r : Fin 100000) : Fin 400000 := ⟨r.val, by omega⟩
def rowI (r : Fin 100000) : Fin 400000 := ⟨100000 + r.val, by omega⟩
def rowP (r : Fin 100000) : Fin 400000 := ⟨300000 + r.val, by omega⟩

def dS (x : Fin 400000 → Fin 128 → EReal) (Wt : Fin 128 → Fin 128 → EReal) (b : Fin 128 → EReal) (AI : Fin 100000 → Fin 128 → EReal)
    (r : Fin 100000) (h : Fin 128) : EReal :=
  (-(x (rowP r) 0)) * (AI r h * hid x Wt b (rowS r) h)

def dR (x : Fin 400000 → Fin 128 → EReal) (Wt : Fin 128 → Fin 128 → EReal) (b : Fin 128 → EReal)
    (r : Fin 100000) (h : Fin 128) : EReal :=
  x (rowP r) 1 * hid x Wt b (rowI r) h

def dI (x : Fin 400000 → Fin 128 → EReal) (Wt : Fin 128 → Fin 128 → EReal) (b : Fin 128 → EReal) (AI : Fin 100000 → Fin 128 → EReal)
    (r : Fin 100000) (h : Fin 128) : EReal :=
  (-(dS x Wt b AI r h)) - dR x Wt b r h

/-- The feature mean and variance of a row, and the row normalised, scaled and shifted. -/
def mean (v : Fin 128 → EReal) : EReal := Ideal.div (∑ k : Fin 128, v k) c128
def var (v : Fin 128 → EReal) : EReal := Ideal.div (∑ k : Fin 128, (v k - mean v) * (v k - mean v)) c128
def ln (v : Fin 128 → EReal) (lnw lnb : Fin 128 → EReal) (h : Fin 128) : EReal :=
  ((v h - mean v) * Ideal.rsqrt (var v + eps)) * lnw h + lnb h

/-- The whole result, row by row: the three normalised derivatives, then the rate rows of `x`. -/
def out (x : Fin 400000 → Fin 128 → EReal) (Wt : Fin 128 → Fin 128 → EReal) (b lnw lnb : Fin 128 → EReal)
    (AI : Fin 100000 → Fin 128 → EReal) (r : Fin 400000) (h : Fin 128) : EReal :=
  if h0 : r.val < 100000 then ln (dS x Wt b AI ⟨r.val, h0⟩) lnw lnb h
  else if h1 : r.val < 200000 then ln (dI x Wt b AI ⟨r.val - 100000, by omega⟩) lnw lnb h
  else if h2 : r.val < 300000 then ln (dR x Wt b ⟨r.val - 200000, by omega⟩) lnw lnb h
  else x r h

/-- The aggregate over the edge list: for node `r`, the sum over the edges whose target is `r` of the row `Ih` of the edge's source
    (`0 +`: both programs accumulate into a zero array). -/
def AIedges (rowN colN : Fin 800000 → ℕ) (hc : ∀ e, colN e < 100000) (Ih : Fin 100000 → Fin 128 → EReal)
    (r : Fin 100000) (h : Fin 128) : EReal :=
  (0 : EReal) + ∑ e ∈ Finset.univ.filter (fun e : Fin 800000 => rowN e = r.val), Ih ⟨colN e, hc e⟩ h

/-- The hidden layer on the I rows: the rows the aggregate sums. -/
def hidI (x : Fin 400000 → Fin 128 → EReal) (Wt : Fin 128 → Fin 128 → EReal) (b : Fin 128 → EReal) (r : Fin 100000) (h : Fin 128) : EReal :=
  hid x Wt b (rowI r) h

/-! ## The same, one row at a time (what one grid point of the kernel computes for one node) -/

/-- The layer on one row of features. -/
def hidRow (xr : Fin 128 → EReal) (Wt : Fin 128 → Fin 128 → EReal) (b : Fin 128 → EReal) (h : Fin 128) : EReal :=
  max ((∑ k : Fin 128, xr k * Wt k h) + b h) 0
theorem hid_eq_hidRow (x : Fin 400000 → Fin 128 → EReal) (Wt : Fin 128 → Fin 128 → EReal) (b : Fin 128 → EReal) (r : Fin 400000) (h : Fin 128) :
    hid x Wt b r h = hidRow (x r) Wt b h := rfl

/-- The three derivatives of one node from its rates β, γ, its aggregate row `ai` and its hidden rows `s`, `i`. -/
def dSrow (β : EReal) (ai s : Fin 128 → EReal) (h : Fin 128) : EReal := (-β) * (ai h * s h)
def dRrow (γ : EReal) (i : Fin 128 → EReal) (h : Fin 128) : EReal := γ * i h
def dIrow (β γ : EReal) (ai s i : Fin 128 → EReal) (h : Fin 128) : EReal := (-(dSrow β ai s h)) - dRrow γ i h

theorem dS_eq_row (x : Fin 400000 → Fin 128 → EReal) (Wt : Fin 128 → Fin 128 → EReal) (b : Fin 128 → EReal) (AI : Fin 100000 → Fin 128 → EReal)
    (r : Fin 100000) (h : Fin 128) : dS x Wt b AI r h = dSrow (x (rowP r) 0) (AI r) (hidRow (x (rowS r)) Wt b) h := rfl
theorem dR_eq_row (x : Fin 400000 → Fin 128 → EReal) (Wt : Fin 128 → Fin 128 → EReal) (b : Fin 128 → EReal)
    (r : Fin 100000) (h : Fin 128) : dR x Wt b r h = dRrow (x (rowP r) 1) (hidRow (x (rowI r)) Wt b) h := rfl
theorem dI_eq_row (x : Fin 400000 → Fin 128 → EReal) (Wt : Fin 128 → Fin 128 → EReal) (b : Fin 128 → EReal) (AI : Fin 100000 → Fin 128 → EReal)
    (r : Fin 100000) (h : Fin 128) :
    dI x Wt b AI r h = dIrow (x (rowP r) 0) (x (rowP r) 1) (AI r) (hidRow (x (rowS r)) Wt b) (hidRow (x (rowI r)) Wt b) h := rfl

end Cert.Spec

end
-- ==== Proof.KI.PayloadLN.lean ====
/-
  The layer normalisation of the kernel body, read at one index. The body normalises three blocks (the derivatives of S, I
  and R) with the same chain of operations: the row sums divided by 128 give the mean column; the entries minus the mean,
  squared, summed along the row and divided by 128 give the variance column; the entries minus the mean are multiplied by
  the reciprocal square root of the variance plus ε, then by the scale and increased by the shift. One lemma reads that
  chain at (p, h) as the specification's normalisation of row p at feature h; the three printed chains are that one.
-/
import proofs.«416151_j72335839199610_2_alg».proof.Proof.KI.PayloadLayout
import proofs.«416151_j72335839199610_2_alg».proof.Proof.Spec

noncomputable section

namespace Cert.KernelIdeal.Hand

open Cert.KernelIdeal Cert.KernelIdeal.Gen Idealize.ShloMosaic Idealize.ShloMosaic.ValueIdx

/-- The reciprocal square root of a vector, at an index, is that of the element. -/
theorem rsqrt_apply {s : Shape} {φ : FTy} (a : FVec Ideal s φ) (i : s.Idx) : rsqrt a i = Ideal.rsqrt (a i) := rfl

/-- The column of row means of a block `v` (row sums kept as one column, divided by the literal 128): at `(p, u)` the
    mean of row `p`. -/
theorem meanCol_apply (v : FVec Ideal S1000x128 .f32) (hφ : FTy.f32 = FTy.f32 ∨ FTy.f32 = FTy.bf16)
    (hacc : (0x00000000#32 : BitVec 32) = 0x00000000#32) (p : Fin 1000) (u : Fin 1) :
    divf (shapeCast S1000x1 (multiReduction (F := Ideal) .add [1] S1000 v 0x00000000#32 reduces_S1000x128_S1000 hφ hacc)
        shapeCasts_S1000_S1000x1) (broadcast S1000x1 (FloatOps.ofBits (F := Ideal) .f32 0x43000000#32)) (ix2 p u)
      = Cert.Spec.mean (fun k => v (ix2 p k)) :=
  congrArg (fun t => Ideal.div t Cert.Spec.c128)
    ((shapeCast_a_a1_apply _ shapeCasts_S1000_S1000x1 p u).trans (rowSum_apply v hφ hacc p))

/-- The normalisation before scale and shift: the row's deviation from its mean, times the reciprocal square root of the
    row's variance plus ε. The variance column is the mean of the squared deviations, each deviation being the entry
    minus the mean column spread over the features. -/
theorem k0_pay10_apply (v : FVec Ideal S1000x128 .f32) (p : Fin 1000) (h : Fin 128) :
    k0_pay10 (F := Ideal) v (ix2 p h)
      = (v (ix2 p h) - Cert.Spec.mean (fun k => v (ix2 p k)))
          * Ideal.rsqrt (Cert.Spec.var (fun k => v (ix2 p k)) + Cert.Spec.eps) := by
  unfold k0_pay10
  dsimp only
  rw [mulf_apply, subf_apply, broadcastTo_a1_ab_apply, meanCol_apply, broadcastTo_a1_ab_apply, rsqrt_apply, addf_apply,
    divf_apply, shapeCast_a_a1_apply, rowSum_apply, broadcast_apply, broadcast_apply]
  refine congrArg (fun t => (v (ix2 p h) - Cert.Spec.mean fun k => v (ix2 p k))
    * Ideal.rsqrt (Ideal.div t Cert.Spec.c128 + Cert.Spec.eps)) ?_
  refine Finset.sum_congr rfl fun k _ => ?_
  rw [mulf_apply, subf_apply, broadcastTo_a1_ab_apply, meanCol_apply]

/-- A vector of 128 features viewed as one row and repeated over the 1000 rows reads, at `(p, h)`, its entry `h`. -/
theorem rowBc_apply (w : Vec Ideal S128 .f32) (p : Fin 1000) (h : Fin 128) :
    broadcastTo S1000x128 (shapeCast S1x128 w shapeCasts_S128_S1x128) broadcasts_S1x128_S1000x128 (ix2 p h) = w (ix1 h) :=
  (broadcastTo_1b_ab_apply _ broadcasts_S1x128_S1000x128 p h).trans
    (shapeCast_a_1a_apply w shapeCasts_S128_S1x128 (0 : Fin 1) h)

/-- The scale, repeated over the rows. -/
theorem k0_pay11_apply (w : Vec Ideal S128 .f32) (p : Fin 1000) (h : Fin 128) :
    k0_pay11 (F := Ideal) w (ix2 p h) = w (ix1 h) := rowBc_apply w p h

/-- Scale and shift: the product of two blocks plus the shift's entry. -/
theorem k0_pay1_apply (lnb : Vec Ideal S128 .f32) (a b : FVec Ideal S1000x128 .f32) (p : Fin 1000) (h : Fin 128) :
    k0_pay1 (F := Ideal) lnb a b (ix2 p h) = a (ix2 p h) * b (ix2 p h) + lnb (ix1 h) := by
  unfold k0_pay1
  rw [addf_apply, mulf_apply, rowBc_apply]

/-- The three normalisations of the body are one chain of operations: the normalisation before scale and shift, then the
    scale and the shift. -/
theorem k0_pay9_eq (v : FVec Ideal S1000x128 .f32) (lnw lnb : Vec Ideal S128 .f32) :
    k0_pay9 (F := Ideal) v lnw lnb = k0_pay1 lnb (k0_pay10 v) (k0_pay11 lnw) := rfl
theorem k0_pay2_eq (v : FVec Ideal S1000x128 .f32) (lnw lnb : Vec Ideal S128 .f32) :
    k0_pay2 (F := Ideal) v lnw lnb = k0_pay1 lnb (k0_pay10 v) (k0_pay11 lnw) := rfl

/-- THE NORMALISATION OF A BLOCK at `(p, h)`: the specification's layer normalisation of row `p` of the block, with the
    scale and shift vectors, at feature `h`: ((v − mean)·rsqrt(var + ε))·scale + shift, in that order. -/
theorem lnChain_apply (v : FVec Ideal S1000x128 .f32) (lnw lnb : Vec Ideal S128 .f32) (p : Fin 1000) (h : Fin 128) :
    k0_pay1 (F := Ideal) lnb (k0_pay10 v) (k0_pay11 lnw) (ix2 p h)
      = Cert.Spec.ln (fun k => v (ix2 p k)) (fun k => lnw (ix1 k)) (fun k => lnb (ix1 k)) h := by
  rw [k0_pay1_apply, k0_pay10_apply, k0_pay11_apply]
  rfl

end Cert.KernelIdeal.Hand

end
-- ==== Proof.KI.PayloadDot.lean ====
/-
  The two matrix products of the kernel body read at one index of their result, on the extended reals, where a product
  into a zero accumulator is the plain sum over the contracted coordinate of the operands' products: a block of rows
  times the transposed weight (contracting the 128 input features), and the adjacency block times a block of hidden rows
  (contracting the 1000 nodes of the block). In each, the left operand is read at (row, contracted coordinate) and the
  right one at (contracted coordinate, column).
-/
import proofs.«416151_j72335839199610_2_alg».proof.Proof.KI.Outs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## Rows times the transposed weight -/

theorem lhs_dotW_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_dotW_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_dotW_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_dotW_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The product of a block of rows with the transposed weight, at `(p, k)`: the sum over the input feature `j` of the row's
    entry `j` times the weight's entry `(j, k)`. -/
theorem dotW_apply (l : FVec Ideal S1000x128 .bf16) (r : FVec Ideal S128x128 .bf16) (p : Fin 1000) (k : Fin 128) :
    matmul dot_S1000x128_S128x128_S1000x128_1_0_0_1_n_n none l r (constant (F := Ideal) S1000x128 .f32 0x00000000#32) (ix2 p k)
      = ∑ j : Fin 128, l (ix2 p j) * r (ix2 j k) := by
  simp only [matmul]
  rw [Ideal.matmul_constant_zero_apply, ← Equiv.sum_comp (contrEquiv1 dot_S1000x128_S128x128_S1000x128_1_0_0_1_n_n 128 rfl rfl).symm]
  refine Finset.sum_congr rfl fun j _ => ?_
  have hk := contrEquiv1_symm_val dot_S1000x128_S128x128_S1000x128_1_0_0_1_n_n 128 rfl rfl j
  have el : dot_S1000x128_S128x128_S1000x128_1_0_0_1_n_n.lhsIdx (ix2 p k) ((contrEquiv1 dot_S1000x128_S128x128_S1000x128_1_0_0_1_n_n 128 rfl rfl).symm j) = ix2 p j := funext fun a => Fin.ext (by
    match a with
    | ⟨0, _⟩ => exact lhs_dotW_0 _ _
    | ⟨1, _⟩ => exact (lhs_dotW_1 _ _).trans hk)
  have er : dot_S1000x128_S128x128_S1000x128_1_0_0_1_n_n.rhsIdx (ix2 p k) ((contrEquiv1 dot_S1000x128_S128x128_S1000x128_1_0_0_1_n_n 128 rfl rfl).symm j) = ix2 j k := funext fun a => Fin.ext (by
    match a with
    | ⟨0, _⟩ => exact (rhs_dotW_0 _ _).trans hk
    | ⟨1, _⟩ => exact rhs_dotW_1 _ _)
  rw [el, er]

/-! ## The adjacency block times a block of hidden rows -/

theorem lhs_dotA_0 (i : S1000x128.Idx) (q : dot_S1000x1000_S1000x128_S1000x128_1_0_0_1_n_n.contr.Idx) :
    (dot_S1000x1000_S1000x128_S1000x128_1_0_0_1_n_n.lhsIdx i q 0).val = (i 0).val := by
  unfold DotDims.lhsIdx
  rw [dif_neg (show ¬(0 : Fin S1000x1000.rank) ∈ dot_S1000x1000_S1000x128_S1000x128_1_0_0_1_n_n.lhsBatch by decide), dif_pos (show (0 : Fin S1000x1000.rank) ∈ dot_S1000x1000_S1000x128_S1000x128_1_0_0_1_n_n.lhsNonContracting by decide)]
  rfl
theorem lhs_dotA_1 (i : S1000x128.Idx) (q : dot_S1000x1000_S1000x128_S1000x128_1_0_0_1_n_n.contr.Idx) :
    (dot_S1000x1000_S1000x128_S1000x128_1_0_0_1_n_n.lhsIdx i q 1).val = (q ⟨0, by decide⟩).val :=
  dot_S1000x1000_S1000x128_S1000x128_1_0_0_1_n_n.lhsIdx_val_of_single rfl i q
theorem rhs_dotA_0 (i : S1000x128.Idx) (q : dot_S1000x1000_S1000x128_S1000x128_1_0_0_1_n_n.contr.Idx) :
    (dot_S1000x1000_S1000x128_S1000x128_1_0_0_1_n_n.rhsIdx i q 0).val = (q ⟨0, by decide⟩).val :=
  dot_S1000x1000_S1000x128_S1000x128_1_0_0_1_n_n.rhsIdx_val_of_single rfl i q
theorem rhs_dotA_1 (i : S1000x128.Idx) (q : dot_S1000x1000_S1000x128_S1000x128_1_0_0_1_n_n.contr.Idx) :
    (dot_S1000x1000_S1000x128_S1000x128_1_0_0_1_n_n.rhsIdx i q 1).val = (i 1).val := by
  unfold DotDims.rhsIdx
  rw [dif_neg (show ¬(1 : Fin S1000x128.rank) ∈ dot_S1000x1000_S1000x128_S1000x128_1_0_0_1_n_n.rhsBatch by decide), dif_pos (show (1 : Fin S1000x128.rank) ∈ dot_S1000x1000_S1000x128_S1000x128_1_0_0_1_n_n.rhsNonContracting by decide)]
  rfl

/-- The product of the adjacency block with a block of hidden rows, at `(p, k)`: the sum over the block's node `j` of the
    adjacency entry `(p, j)` times feature `k` of the hidden row `j`. -/
theorem dotA_apply (l : FVec Ideal S1000x1000 .bf16) (r : FVec Ideal S1000x128 .bf16) (p : Fin 1000) (k : Fin 128) :
    matmul dot_S1000x1000_S1000x128_S1000x128_1_0_0_1_n_n none l r (constant (F := Ideal) S1000x128 .f32 0x00000000#32) (ix2 p k)
      = ∑ j : Fin 1000, l (ix2 p j) * r (ix2 j k) := by
  simp only [matmul]
  rw [Ideal.matmul_constant_zero_apply, ← Equiv.sum_comp (contrEquiv1 dot_S1000x1000_S1000x128_S1000x128_1_0_0_1_n_n 1000 rfl rfl).symm]
  refine Finset.sum_congr rfl fun j _ => ?_
  have hk := contrEquiv1_symm_val dot_S1000x1000_S1000x128_S1000x128_1_0_0_1_n_n 1000 rfl rfl j
  have el : dot_S1000x1000_S1000x128_S1000x128_1_0_0_1_n_n.lhsIdx (ix2 p k) ((contrEquiv1 dot_S1000x1000_S1000x128_S1000x128_1_0_0_1_n_n 1000 rfl rfl).symm j) = ix2 p j := funext fun a => Fin.ext (by
    match a with
    | ⟨0, _⟩ => exact lhs_dotA_0 _ _
    | ⟨1, _⟩ => exact (lhs_dotA_1 _ _).trans hk)
  have er : dot_S1000x1000_S1000x128_S1000x128_1_0_0_1_n_n.rhsIdx (ix2 p k) ((contrEquiv1 dot_S1000x1000_S1000x128_S1000x128_1_0_0_1_n_n 1000 rfl rfl).symm j) = ix2 j k := funext fun a => Fin.ext (by
    match a with
    | ⟨0, _⟩ => exact (rhs_dotA_0 _ _).trans hk
    | ⟨1, _⟩ => exact rhs_dotA_1 _ _)
  rw [el, er]

end Cert.KernelIdeal.Hand

end
-- ==== Proof.KI.Payload.lean ====
/-
  The kernel body's arithmetic at one index of a block, on the extended reals, as functions of the eight blocks the body
  loads: x0 the S rows, x1 the I rows, x2 the rate rows (column 0 = β, column 1 = γ), x3 the adjacency block, x4 the
  transposed weight, x5 the bias, x6 and x7 the normalisation's scale and shift. The hidden layer of a row is
  max(row·Wt + b, 0); the aggregate of node p is the sum over the block's nodes lc of A[p, lc] times the hidden I row lc;
  the derivatives are dS = (0 − β)·(aggregate·S), dI = (0 − dS) − γ·I, dR = γ·I, where 0 − a = −a; each is normalised along
  the 128 features. The three results are the specification's row-wise formulas at the block's aggregate.
-/
import proofs.«416151_j72335839199610_2_alg».proof.Proof.KI.PayloadLN
import proofs.«416151_j72335839199610_2_alg».proof.Proof.KI.PayloadDot

noncomputable section

namespace Cert.KernelIdeal.Hand

open Cert.KernelIdeal Cert.KernelIdeal.Gen Idealize.ShloMosaic Idealize.ShloMosaic.ValueIdx

/-- The hidden layer of one row of a block: xb the S or I block, x4 the transposed weight, x5 the bias. -/
def Hb (xb : Vec Ideal S1000x128 .f32) (x4 : Vec Ideal S128x128 .f32) (x5 : Vec Ideal S128 .f32) (p : Fin 1000) (k : Fin 128) : EReal :=
  Cert.Spec.hidRow (fun j => xb (ix2 p j)) (fun j k => x4 (ix2 j k)) (fun k => x5 (ix1 k)) k

/-- The block's aggregate: the adjacency block times the hidden I block (the matmul's zero accumulator kept as 0 +). -/
def AIb (x1 : Vec Ideal S1000x128 .f32) (x3 : Vec Ideal S1000x1000 .bf16) (x4 : Vec Ideal S128x128 .f32) (x5 : Vec Ideal S128 .f32) (p : Fin 1000) (k : Fin 128) : EReal :=
  (0 : EReal) + ∑ lc : Fin 1000, x3 (ix2 p lc) * Hb x1 x4 x5 lc k

/-- The zero word of the body's literals is the extended real 0. -/
theorem zeroWord : FloatOps.ofBits (F := Ideal) FTy.f32 0x00000000#32 = (0 : EReal) := Ideal.ofBits_zero_f32

/-- THE HIDDEN LAYER of a block at `(p, k)`: the row's product with the transposed weight (a sum over the 128 input
    features; the changes of float format are the identity on the extended reals), plus the bias, clipped at zero. -/
theorem k0_pay4_apply (xb : Vec Ideal S1000x128 .f32) (x4 : Vec Ideal S128x128 .f32) (x5 : Vec Ideal S128 .f32) (p : Fin 1000) (k : Fin 128) :
    k0_pay4 (F := Ideal) xb x4 x5 (ix2 p k) = Hb xb x4 x5 p k := by
  unfold k0_pay4 k0_pay3
  dsimp only
  rw [maximumf_apply, addf_apply, dotW_apply, rowBc_apply, broadcast_apply, shapeCast_self, zeroWord]
  rfl

/-- The rate column γ (column 1 of the rate block) spread over the features. -/
theorem gammaBc_apply (x2 : Vec Ideal S1000x128 .f32) (p : Fin 1000) (h : Fin 128) :
    broadcastTo S1000x128 (k0_pay5 (F := Ideal) x2) broadcasts_S1000x1_S1000x128 (ix2 p h) = x2 (ix2 p (1 : Fin 128)) :=
  (broadcastTo_a1_ab_apply _ broadcasts_S1000x1_S1000x128 p h).trans (rate1_apply x2 p (0 : Fin 1))

/-- The derivative of S is, as the body computes it: the hidden S block is the layer of the S rows, the aggregate is the
    adjacency block times the hidden I block into a zero accumulator, and the result is (0 − β)·(aggregate·S). -/
theorem k0_pay6_eq (x0 x1 : Vec Ideal S1000x128 .f32) (x4 : Vec Ideal S128x128 .f32) (x5 : Vec Ideal S128 .f32)
    (x3 : Vec Ideal S1000x1000 .bf16) (x2 : Vec Ideal S1000x128 .f32) :
    k0_pay6 (F := Ideal) x0 x1 x4 x5 x3 x2
      = mulf (broadcastTo S1000x128 (subf (broadcast S1000x1 (FloatOps.ofBits (F := Ideal) .f32 0x00000000#32))
              (extractStridedSlice S1000x1 ![0, 0] x2 slices_S1000x128_o0_0_S1000x1)) broadcasts_S1000x1_S1000x128)
          (mulf (matmul (φ₁ := .bf16) dot_S1000x1000_S1000x128_S1000x128_1_0_0_1_n_n none
                  (shapeCast S1000x1000 x3 shapeCasts_S1000x1000_S1000x1000)
                  (truncf .bf16 (k0_pay4 (F := Ideal) x1 x4 x5) bitsLt_bf16_f32) (constant (F := Ideal) S1000x128 .f32 0x00000000#32))
            (k0_pay4 (F := Ideal) x0 x4 x5)) := rfl

/-- The aggregate of the block at `(p, h)`: the sum over the block's nodes of the adjacency entry times the hidden I row. -/
theorem agg_apply (x1 : Vec Ideal S1000x128 .f32) (x3 : Vec Ideal S1000x1000 .bf16) (x4 : Vec Ideal S128x128 .f32)
    (x5 : Vec Ideal S128 .f32) (p : Fin 1000) (h : Fin 128) :
    matmul (φ₁ := .bf16) dot_S1000x1000_S1000x128_S1000x128_1_0_0_1_n_n none (shapeCast S1000x1000 x3 shapeCasts_S1000x1000_S1000x1000)
        (truncf .bf16 (k0_pay4 (F := Ideal) x1 x4 x5) bitsLt_bf16_f32) (constant (F := Ideal) S1000x128 .f32 0x00000000#32) (ix2 p h)
      = AIb x1 x3 x4 x5 p h := by
  rw [dotA_apply, shapeCast_self]
  unfold AIb
  rw [zero_add]
  refine Finset.sum_congr rfl fun j _ => ?_
  rw [truncf_apply, k0_pay4_apply]

/-- THE DERIVATIVE OF S at `(p, h)`. -/
theorem k0_pay6_apply (x0 x1 : Vec Ideal S1000x128 .f32) (x4 : Vec Ideal S128x128 .f32) (x5 : Vec Ideal S128 .f32)
    (x3 : Vec Ideal S1000x1000 .bf16) (x2 : Vec Ideal S1000x128 .f32) (p : Fin 1000) (h : Fin 128) :
    k0_pay6 (F := Ideal) x0 x1 x4 x5 x3 x2 (ix2 p h)
      = Cert.Spec.dSrow (x2 (ix2 p (0 : Fin 128))) (AIb x1 x3 x4 x5 p) (Hb x0 x4 x5 p) h := by
  rw [k0_pay6_eq, mulf_apply, broadcastTo_a1_ab_apply, subf_apply, broadcast_apply, rate0_apply, mulf_apply, agg_apply,
    k0_pay4_apply, zeroWord, zero_sub]
  rfl

/-- THE DERIVATIVE OF R at `(p, h)`: γ times the hidden I row. -/
theorem k0_pay8_apply (x1 : Vec Ideal S1000x128 .f32) (x4 : Vec Ideal S128x128 .f32) (x5 : Vec Ideal S128 .f32)
    (x2 : Vec Ideal S1000x128 .f32) (p : Fin 1000) (h : Fin 128) :
    k0_pay8 (F := Ideal) x1 x4 x5 x2 (ix2 p h) = Cert.Spec.dRrow (x2 (ix2 p (1 : Fin 128))) (Hb x1 x4 x5 p) h := by
  unfold k0_pay8
  rw [mulf_apply, gammaBc_apply, k0_pay4_apply]
  rfl

/-- THE DERIVATIVE OF I at `(p, h)`: (0 − dS) − γ·I. -/
theorem k0_pay7_apply (x0 x1 : Vec Ideal S1000x128 .f32) (x4 : Vec Ideal S128x128 .f32) (x5 : Vec Ideal S128 .f32)
    (x3 : Vec Ideal S1000x1000 .bf16) (x2 : Vec Ideal S1000x128 .f32) (p : Fin 1000) (h : Fin 128) :
    k0_pay7 (F := Ideal) x0 x1 x4 x5 x3 x2 (ix2 p h)
      = Cert.Spec.dIrow (x2 (ix2 p (0 : Fin 128))) (x2 (ix2 p (1 : Fin 128))) (AIb x1 x3 x4 x5 p) (Hb x0 x4 x5 p) (Hb x1 x4 x5 p) h := by
  unfold k0_pay7
  rw [subf_apply, subf_apply, broadcast_apply, k0_pay6_apply, mulf_apply, gammaBc_apply, k0_pay4_apply, zeroWord, zero_sub]
  rfl

/-! ## The three computed output blocks at an index -/

/-- THE NORMALISED DERIVATIVE OF S of the block at `(p, h)`. -/
theorem outS_apply (x0 x1 x2 : Vec Ideal S1000x128 .f32) (x3 : Vec Ideal S1000x1000 .bf16) (x4 : Vec Ideal S128x128 .f32)
    (x5 x6 x7 : Vec Ideal S128 .f32) (p : Fin 1000) (h : Fin 128) :
    outS (F := Ideal) x0 x1 x2 x3 x4 x5 x6 x7 (ix2 p h)
      = Cert.Spec.ln (Cert.Spec.dSrow (x2 (ix2 p 0)) (AIb x1 x3 x4 x5 p) (Hb x0 x4 x5 p))
          (fun k => x6 (ix1 k)) (fun k => x7 (ix1 k)) h := by
  unfold outS
  rw [k0_pay9_eq, lnChain_apply]
  exact congrArg (fun f => Cert.Spec.ln f (fun k => x6 (ix1 k)) (fun k => x7 (ix1 k)) h)
    (funext fun k => k0_pay6_apply x0 x1 x4 x5 x3 x2 p k)

/-- THE NORMALISED DERIVATIVE OF I of the block at `(p, h)`. -/
theorem outI_apply (x0 x1 x2 : Vec Ideal S1000x128 .f32) (x3 : Vec Ideal S1000x1000 .bf16) (x4 : Vec Ideal S128x128 .f32)
    (x5 x6 x7 : Vec Ideal S128 .f32) (p : Fin 1000) (h : Fin 128) :
    outI (F := Ideal) x0 x1 x2 x3 x4 x5 x6 x7 (ix2 p h)
      = Cert.Spec.ln (Cert.Spec.dIrow (x2 (ix2 p 0)) (x2 (ix2 p 1)) (AIb x1 x3 x4 x5 p) (Hb x0 x4 x5 p) (Hb x1 x4 x5 p))
          (fun k => x6 (ix1 k)) (fun k => x7 (ix1 k)) h := by
  unfold outI
  rw [lnChain_apply]
  exact congrArg (fun f => Cert.Spec.ln f (fun k => x6 (ix1 k)) (fun k => x7 (ix1 k)) h)
    (funext fun k => k0_pay7_apply x0 x1 x4 x5 x3 x2 p k)

/-- THE NORMALISED DERIVATIVE OF R of the block at `(p, h)`. -/
theorem outR_apply (x0 x1 x2 : Vec Ideal S1000x128 .f32) (x3 : Vec Ideal S1000x1000 .bf16) (x4 : Vec Ideal S128x128 .f32)
    (x5 x6 x7 : Vec Ideal S128 .f32) (p : Fin 1000) (h : Fin 128) :
    outR (F := Ideal) x0 x1 x2 x3 x4 x5 x6 x7 (ix2 p h)
      = Cert.Spec.ln (Cert.Spec.dRrow (x2 (ix2 p 1)) (Hb x1 x4 x5 p)) (fun k => x6 (ix1 k)) (fun k => x7 (ix1 k)) h := by
  unfold outR
  rw [k0_pay2_eq, lnChain_apply]
  exact congrArg (fun f => Cert.Spec.ln f (fun k => x6 (ix1 k)) (fun k => x7 (ix1 k)) h)
    (funext fun k => k0_pay8_apply x1 x4 x5 x2 p k)

end Cert.KernelIdeal.Hand

end
-- ==== Proof.KI.Wt.lean ====
/-
  The transposed weight the region finds: the last host operation before the region writes the transpose of the weight
  argument, and nothing before it writes the argument, so entry (k, h) of what the region finds is entry (h, k) of the
  weight as launched.
-/
import proofs.«416151_j72335839199610_2_alg».proof.Proof.KI.Data
import Idealize.ShloMosaic.Lib.StableHlo.Run
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable {F : FTy → Type} [FloatOps F]

variable (m : (ℓ : Loc nD τ sig) → Buf (Elt F) ℓ)

/-- The transposed-weight buffer at the region's entry is the transpose of the weight argument as launched. -/
theorem V_main_v21 (c : Dev nD) :
    V m c main_v21 = transpose S128x128 [1, 0] (m ((c : Thread nD τ).loc main_arg4)) transposes_S128x128_S128x128_1_0 := by
  show StableHlo.after (List.flatten (preOps (F := F))) (fun b => m (c, b)) (Proc.devRef .tc main_v21) = _
  simp only [preOps, hostOps0, hostOps0_1, hostOps0_2, hostOps0_3, hostOps0_4, hostOps0_5, hostOps0_6, List.flatten_cons, List.flatten_nil,
    List.append_nil, List.cons_append, List.nil_append]
  after_results

/-- Entry (k, h) of the transposed weight is entry (h, k) of the weight. -/
theorem Wt_apply (c : Dev nD) (k h : Fin 128) :
    V m c main_v21 (ix2 k h) = m ((c : Thread nD τ).loc main_arg4) (ix2 h k) := by
  rw [V_main_v21]
  exact transpose_ix2_apply _ _ k h

end Cert.KernelIdeal.Hand

end
-- ==== Proof.Agg.lean ====
/-
  The aggregate, as pure mathematics on the extended reals. A node r receives, from every edge e that ends at r, the
  feature row of the edge's source. Written densely, the same quantity is the row r of a 0/1-count adjacency matrix
  (restricted to r's own block of 1000 nodes) times that block of the feature matrix. On a block-diagonal graph every
  edge into r starts inside r's block, so the two agree. The extended reals are not a semiring (distributivity fails
  at the infinities), so "count · y = y added count times" is proved directly from distributivity over non-negative
  summands.
-/
import Idealize.ShloMosaic.PureOps.Ideal
import Mathlib.Data.EReal.Operations
import Mathlib.Algebra.BigOperators.Group.Finset.Basic

namespace Cert.Agg

/-- Row (r div 1000)·1000 + lc: node lc of r's own 1000-node block. -/
def blkRow (r : Fin 100000) (lc : Fin 1000) : Fin 100000 :=
  ⟨(r.val / 1000) * 1000 + lc.val, by have := r.isLt; have := lc.isLt; omega⟩

/-- A count of ones times y is y added that many times. Induction on the index set: the count so far and the new 1 are
    both non-negative, and a sum of two non-negative extended reals distributes over any factor. -/
theorem count_mul {ι : Type} (s : Finset ι) (y : EReal) :
    (∑ _e ∈ s, (1 : EReal)) * y = ∑ _e ∈ s, y := by
  classical
  induction s using Finset.induction_on with
  | empty => simp
  | insert a s ha ih =>
    rw [Finset.sum_insert ha, Finset.sum_insert ha,
      EReal.right_distrib_of_nonneg zero_le_one (Finset.sum_nonneg (fun _ _ => zero_le_one)), one_mul, ih]

/-- On a block-diagonal graph an edge into r starts at node (its source mod 1000) of r's block. -/
theorem blkRow_col (rowN colN : Fin 800000 → ℕ) (hc : ∀ e, colN e < 100000)
    (hbd : ∀ e, rowN e / 1000 = colN e / 1000) (r : Fin 100000) (lc : Fin 1000) (e : Fin 800000)
    (hr : rowN e = r.val) (hl : colN e % 1000 = lc.val) : blkRow r lc = ⟨colN e, hc e⟩ := by
  apply Fin.ext
  simp only [blkRow]
  have h1 := hbd e
  have h2 := Nat.div_add_mod (colN e) 1000
  omega

/-- The dense adjacency row of r times r's block of I is the sum, over the edges into r, of I at the edge's source:
    each count becomes a repeated sum, the repeated term is rewritten at the edge's own source, and the double sum over
    (local column, edges into r with that local column) is the sum over the edges into r grouped by local column. -/
theorem aggregate_eq (rowN colN : Fin 800000 → ℕ) (hc : ∀ e, colN e < 100000) (hbd : ∀ e, rowN e / 1000 = colN e / 1000)
    (I : Fin 100000 → Fin 128 → EReal) (r : Fin 100000) (h : Fin 128) :
    (0 : EReal) + ∑ lc : Fin 1000,
        ((0 : EReal) + ∑ e ∈ Finset.univ.filter (fun e : Fin 800000 => rowN e = r.val ∧ colN e % 1000 = lc.val), (1 : EReal)) * I (blkRow r lc) h
      = (0 : EReal) + ∑ e ∈ Finset.univ.filter (fun e : Fin 800000 => rowN e = r.val), I ⟨colN e, hc e⟩ h := by
  classical
  let g : Fin 800000 → Fin 1000 := fun e => ⟨colN e % 1000, Nat.mod_lt _ (by norm_num)⟩
  have key := Finset.sum_fiberwise (Finset.univ.filter (fun e : Fin 800000 => rowN e = r.val)) g
    (fun e => I ⟨colN e, hc e⟩ h)
  refine congrArg (fun t => (0 : EReal) + t) (Eq.trans ?_ key)
  refine Finset.sum_congr rfl (fun lc _ => ?_)
  rw [zero_add, count_mul]
  refine Finset.sum_congr ?_ (fun e he => ?_)
  · ext e
    simp only [Finset.mem_filter, Finset.mem_univ, true_and, g, Fin.ext_iff]
  · rw [Finset.mem_filter, Finset.mem_filter] at he
    have hl : colN e % 1000 = lc.val := congrArg Fin.val he.2
    rw [blkRow_col rowN colN hc hbd r lc e he.1.2 hl]

/-- The same statement without the two leading zeros. -/
theorem aggregate_eq' (rowN colN : Fin 800000 → ℕ) (hc : ∀ e, colN e < 100000) (hbd : ∀ e, rowN e / 1000 = colN e / 1000)
    (I : Fin 100000 → Fin 128 → EReal) (r : Fin 100000) (h : Fin 128) :
    ∑ lc : Fin 1000,
        (∑ e ∈ Finset.univ.filter (fun e : Fin 800000 => rowN e = r.val ∧ colN e % 1000 = lc.val), (1 : EReal)) * I (blkRow r lc) h
      = ∑ e ∈ Finset.univ.filter (fun e : Fin 800000 => rowN e = r.val), I ⟨colN e, hc e⟩ h := by
  have := aggregate_eq rowN colN hc hbd I r h
  simpa only [zero_add] using this

end Cert.Agg
-- ==== Proof.KI.Value.lean ====
/-
  The kernel's result is the specification, index by index. The result buffer is the four output arrays joined along
  the rows; each output array, read at row r, is what the body left at grid point r div 1000 in row r mod 1000 of its
  block; the body's three computed blocks are the normalised derivatives of the node rows it loaded, and the fourth is the
  rate block stored back unchanged.
-/
import proofs.«416151_j72335839199610_2_alg».proof.Proof.KI.Data
import proofs.«416151_j72335839199610_2_alg».proof.Proof.KI.Blocks
import proofs.«416151_j72335839199610_2_alg».proof.Proof.KI.BlocksOut
import proofs.«416151_j72335839199610_2_alg».proof.Proof.KI.Payload
import proofs.«416151_j72335839199610_2_alg».proof.Proof.KI.Args
import proofs.«416151_j72335839199610_2_alg».proof.Proof.KI.Wt
import proofs.«416151_j72335839199610_2_alg».proof.Proof.Spec
import proofs.«416151_j72335839199610_2_alg».proof.Proof.Agg
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window cellOf)

variable (m : (ℓ : Loc nD τ sig) → Buf (Elt Ideal) ℓ)

/-- The input x, the transposed weight, the bias and the normalisation's scale and shift, as the launch finds them. -/
def xK (c : Dev nD) (r : Fin 400000) (k : Fin 128) : EReal := m ((c : Thread nD τ).loc main_arg1) (ix2 r k)
def wtK (c : Dev nD) (k h : Fin 128) : EReal := m ((c : Thread nD τ).loc main_arg4) (ix2 h k)
def bK (c : Dev nD) (h : Fin 128) : EReal := m ((c : Thread nD τ).loc main_arg5) (ix1 h)
def lnwK (c : Dev nD) (h : Fin 128) : EReal := m ((c : Thread nD τ).loc main_arg6) (ix1 h)
def lnbK (c : Dev nD) (h : Fin 128) : EReal := m ((c : Thread nD τ).loc main_arg7) (ix1 h)

/-- The kernel's aggregate: adjacency row times the hidden I rows of the node's own block. -/
def AIk (c : Dev nD) (r : Fin 100000) (h : Fin 128) : EReal :=
  (0 : EReal) + ∑ lc : Fin 1000, @HMul.hMul EReal EReal EReal instHMul (V (F := Ideal) m c main_v20 (ix2 r lc))
    (Cert.Spec.hidI (xK m c) (wtK m c) (bK m c) (Cert.Agg.blkRow r lc) h)

/-- The joined result at a row of the first quarter is the first output array at that row. -/
theorem finalOut_q0 (c : Dev nD) (r : Fin 400000) (h : Fin 128) (h0 : r.val < 100000) :
    finalOut (F := Ideal) m c (ix2 r h) = (dats m 0 c).arrAt 8 cfg0.N (ix2 ⟨r.val, h0⟩ h) := by
  unfold finalOut
  refine concatenate_apply_piece _ _ _ (ix2 r h) 0 (by simp) S100000x128 _ rfl rfl 0 (by simp) (ix2 ⟨r.val, h0⟩ h) ?_ ?_
  · intro b hb
    match b with
    | ⟨0, _⟩ => exact absurd rfl hb
    | ⟨1, _⟩ => rfl
  · show 0 + r.val = r.val
    omega

/-- The joined result at a row of the second quarter is the second output array at that row less 100000: the arrays before it have 100000 rows each. -/
theorem finalOut_q1 (c : Dev nD) (r : Fin 400000) (h : Fin 128) (h0 : 100000 ≤ r.val) (h1 : r.val < 200000) :
    finalOut (F := Ideal) m c (ix2 r h)
      = (dats m 0 c).arrAt 9 cfg0.N (ix2 ⟨r.val - 100000, by have := r.isLt; omega⟩ h) := by
  unfold finalOut
  refine concatenate_apply_piece _ _ _ (ix2 r h) 1 (by simp) S100000x128 _ rfl rfl 100000 (by simp)
    (ix2 ⟨r.val - 100000, by have := r.isLt; omega⟩ h) ?_ ?_
  · intro b hb
    match b with
    | ⟨0, _⟩ => exact absurd rfl hb
    | ⟨1, _⟩ => rfl
  · show 100000 + (r.val - 100000) = r.val
    omega

/-- The joined result at a row of the third quarter is the third output array at that row less 200000: the arrays before it have 100000 rows each. -/
theorem finalOut_q2 (c : Dev nD) (r : Fin 400000) (h : Fin 128) (h1 : 200000 ≤ r.val) (h2 : r.val < 300000) :
    finalOut (F := Ideal) m c (ix2 r h)
      = (dats m 0 c).arrAt 10 cfg0.N (ix2 ⟨r.val - 200000, by have := r.isLt; omega⟩ h) := by
  unfold finalOut
  refine concatenate_apply_piece _ _ _ (ix2 r h) 2 (by simp) S100000x128 _ rfl rfl 200000 (by simp)
    (ix2 ⟨r.val - 200000, by have := r.isLt; omega⟩ h) ?_ ?_
  · intro b hb
    match b with
    | ⟨0, _⟩ => exact absurd rfl hb
    | ⟨1, _⟩ => rfl
  · show 200000 + (r.val - 200000) = r.val
    omega

/-- The joined result at a row of the fourth quarter is the fourth output array at that row less 300000: the arrays before it have 100000 rows each. -/
theorem finalOut_q3 (c : Dev nD) (r : Fin 400000) (h : Fin 128) (h3 : 300000 ≤ r.val) :
    finalOut (F := Ideal) m c (ix2 r h)
      = (dats m 0 c).arrAt 11 cfg0.N (ix2 ⟨r.val - 300000, by have := r.isLt; omega⟩ h) := by
  unfold finalOut
  refine concatenate_apply_piece _ _ _ (ix2 r h) 3 (by simp) S100000x128 _ rfl rfl 300000 (by simp)
    (ix2 ⟨r.val - 300000, by have := r.isLt; omega⟩ h) ?_ ?_
  · intro b hb
    match b with
    | ⟨0, _⟩ => exact absurd rfl hb
    | ⟨1, _⟩ => rfl
  · show 300000 + (r.val - 300000) = r.val
    omega

/-- x read at a row given by its number. -/
theorem xK_of (c : Dev nD) (r r' : Fin 400000) (k : Fin 128) (e : r'.val = r.val) :
    m ((c : Thread nD τ).loc main_arg1) (ix2 r' k) = xK m c r k := by
  cases Fin.ext e; rfl

/-- A node's number from its block and its place in the block. -/
theorem rowEq (r : Fin 100000) : r.val / 1000 * 1000 + r.val % 1000 = r.val := by
  have := Nat.div_add_mod r.val 1000
  omega

/-- The weight and bias blocks are the whole transposed weight and bias at every grid point. -/
theorem wt_eq (c : Dev nD) (t : Fin cfg0.N) : (fun j k => iblk m c 4 t (ix2 j k)) = wtK m c := by
  funext j k; rw [iblk4_eq, Wt_apply]; rfl
theorem b_eq (c : Dev nD) (t : Fin cfg0.N) : (fun k => iblk m c 5 t (ix1 k)) = bK m c := by
  funext k; rw [iblk5_eq, V_main_arg5]; rfl
theorem lnw_eq (c : Dev nD) (t : Fin cfg0.N) : (fun k => iblk m c 6 t (ix1 k)) = lnwK m c := by
  funext k; rw [iblk6_eq, V_main_arg6]; rfl
theorem lnb_eq (c : Dev nD) (t : Fin cfg0.N) : (fun k => iblk m c 7 t (ix1 k)) = lnbK m c := by
  funext k; rw [iblk7_eq, V_main_arg7]; rfl

/-- Row p of the rate block at point t is the rate row of node t·1000 + p. -/
theorem rate_eq (c : Dev nD) (t : Fin cfg0.N) (p : Fin 1000) (j : Fin 128) (r : Fin 100000) (e : t.val * 1000 + p.val = r.val) :
    iblk m c 2 t (ix2 p j) = xK m c (Cert.Spec.rowP r) j := by
  rw [iblk2_apply, V_main_arg1]
  refine xK_of m c _ _ j ?_
  show 300000 + t.val * 1000 + p.val = 300000 + r.val
  omega

/-- The hidden layer on row p of the S block at point t is the specification's hidden S row of node t·1000 + p. -/
theorem Hb0_eq (c : Dev nD) (t : Fin cfg0.N) (p : Fin 1000) (r : Fin 100000) (e : t.val * 1000 + p.val = r.val) :
    Hb (iblk m c 0 t) (iblk m c 4 t) (iblk m c 5 t) p
      = Cert.Spec.hidRow (xK m c (Cert.Spec.rowS r)) (wtK m c) (bK m c) := by
  funext k
  have e0 : (fun j => iblk m c 0 t (ix2 p j)) = xK m c (Cert.Spec.rowS r) := by
    funext j; rw [iblk0_apply, V_main_arg1]; exact xK_of m c _ _ j e
  unfold Hb
  rw [e0, wt_eq, b_eq]

/-- The same on the I block: the specification's hidden I row of node t·1000 + p. -/
theorem Hb1_eq (c : Dev nD) (t : Fin cfg0.N) (p : Fin 1000) (r : Fin 100000) (e : t.val * 1000 + p.val = r.val) :
    Hb (iblk m c 1 t) (iblk m c 4 t) (iblk m c 5 t) p
      = Cert.Spec.hidRow (xK m c (Cert.Spec.rowI r)) (wtK m c) (bK m c) := by
  funext k
  have e0 : (fun j => iblk m c 1 t (ix2 p j)) = xK m c (Cert.Spec.rowI r) := by
    funext j; rw [iblk1_apply, V_main_arg1]
    refine xK_of m c _ _ j ?_
    show 100000 + t.val * 1000 + p.val = 100000 + r.val
    omega
  unfold Hb
  rw [e0, wt_eq, b_eq]

/-- The block's aggregate row p at point t is the kernel's aggregate of node r = t·1000 + p: the adjacency block's row p
    is the adjacency's row r, and row lc of the I block is node lc of r's own block. -/
theorem AIb_eq (c : Dev nD) (t : Fin cfg0.N) (p : Fin 1000) (r : Fin 100000) (et : t.val = r.val / 1000)
    (e : t.val * 1000 + p.val = r.val) :
    AIb (iblk m c 1 t) (iblk m c 3 t) (iblk m c 4 t) (iblk m c 5 t) p = AIk m c r := by
  funext k
  unfold AIb AIk
  refine congrArg (fun s => (0 : EReal) + s) (Finset.sum_congr rfl (fun lc _ => ?_))
  have e3 : ∀ hh, (⟨t.val * 1000 + p.val, hh⟩ : Fin 100000) = r := fun hh => Fin.ext e
  rw [iblk3_apply, e3, Hb1_eq m c t lc (Cert.Agg.blkRow r lc) (by show t.val * 1000 + lc.val = r.val / 1000 * 1000 + lc.val; rw [et])]
  rfl

/-- The grid point of a node and its place in the block are in range. -/
theorem rN (r : Fin 100000) : r.val / 1000 < cfg0.N := by have e : cfg0.N = 100 := N_0; have := r.isLt; omega

/-- Row r of the first output array is the specification's normalised dS row of node r. -/
theorem outS_row (c : Dev nD) (r : Fin 100000) (h : Fin 128) :
    (dats m 0 c).arrAt 8 cfg0.N (ix2 r h)
      = Cert.Spec.ln (Cert.Spec.dS (xK m c) (wtK m c) (bK m c) (AIk m c) r) (lnwK m c) (lnbK m c) h := by
  have ht : r.val / 1000 < cfg0.N := rN r
  have hp : r.val % 1000 < 1000 := Nat.mod_lt _ (by norm_num)
  rw [arrAt8_apply]
  dsimp only [dats]
  rw [outS_apply, lnw_eq, lnb_eq, Hb0_eq m c ⟨r.val / 1000, ht⟩ ⟨r.val % 1000, hp⟩ r (rowEq r),
    AIb_eq m c ⟨r.val / 1000, ht⟩ ⟨r.val % 1000, hp⟩ r rfl (rowEq r),
    rate_eq m c ⟨r.val / 1000, ht⟩ ⟨r.val % 1000, hp⟩ 0 r (rowEq r)]
  rfl

/-- Row r of the second output array is the specification's normalised dI row of node r. -/
theorem outI_row (c : Dev nD) (r : Fin 100000) (h : Fin 128) :
    (dats m 0 c).arrAt 9 cfg0.N (ix2 r h)
      = Cert.Spec.ln (Cert.Spec.dI (xK m c) (wtK m c) (bK m c) (AIk m c) r) (lnwK m c) (lnbK m c) h := by
  have ht : r.val / 1000 < cfg0.N := rN r
  have hp : r.val % 1000 < 1000 := Nat.mod_lt _ (by norm_num)
  rw [arrAt9_apply]
  dsimp only [dats]
  rw [outI_apply, lnw_eq, lnb_eq, Hb0_eq m c ⟨r.val / 1000, ht⟩ ⟨r.val % 1000, hp⟩ r (rowEq r),
    Hb1_eq m c ⟨r.val / 1000, ht⟩ ⟨r.val % 1000, hp⟩ r (rowEq r),
    AIb_eq m c ⟨r.val / 1000, ht⟩ ⟨r.val % 1000, hp⟩ r rfl (rowEq r),
    rate_eq m c ⟨r.val / 1000, ht⟩ ⟨r.val % 1000, hp⟩ 0 r (rowEq r),
    rate_eq m c ⟨r.val / 1000, ht⟩ ⟨r.val % 1000, hp⟩ 1 r (rowEq r)]
  rfl

/-- Row r of the third output array is the specification's normalised dR row of node r. -/
theorem outR_row (c : Dev nD) (r : Fin 100000) (h : Fin 128) :
    (dats m 0 c).arrAt 10 cfg0.N (ix2 r h)
      = Cert.Spec.ln (Cert.Spec.dR (xK m c) (wtK m c) (bK m c) r) (lnwK m c) (lnbK m c) h := by
  have ht : r.val / 1000 < cfg0.N := rN r
  have hp : r.val % 1000 < 1000 := Nat.mod_lt _ (by norm_num)
  rw [arrAt10_apply]
  dsimp only [dats]
  rw [outR_apply, lnw_eq, lnb_eq, Hb1_eq m c ⟨r.val / 1000, ht⟩ ⟨r.val % 1000, hp⟩ r (rowEq r),
    rate_eq m c ⟨r.val / 1000, ht⟩ ⟨r.val % 1000, hp⟩ 1 r (rowEq r)]
  rfl

/-- Row r of the fourth output array is the rate row of node r. -/
theorem outP_row (c : Dev nD) (r : Fin 100000) (h : Fin 128) :
    (dats m 0 c).arrAt 11 cfg0.N (ix2 r h) = xK m c (Cert.Spec.rowP r) h := by
  have ht : r.val / 1000 < cfg0.N := rN r
  have hp : r.val % 1000 < 1000 := Nat.mod_lt _ (by norm_num)
  rw [arrAt11_apply]
  dsimp only [dats]
  exact rate_eq m c ⟨r.val / 1000, ht⟩ ⟨r.val % 1000, hp⟩ h r (rowEq r)

/-- The kernel's result is the specification's, at every index: by quarter of the rows. -/
theorem kernel_value (c : Dev nD) (r : Fin 400000) (h : Fin 128) :
    finalOut (F := Ideal) m c (ix2 r h)
      = Cert.Spec.out (xK m c) (wtK m c) (bK m c) (lnwK m c) (lnbK m c) (AIk m c) r h := by
  unfold Cert.Spec.out
  by_cases h0 : r.val < 100000
  · rw [dif_pos h0, finalOut_q0 m c r h h0, outS_row]
  · rw [dif_neg h0]
    by_cases h1 : r.val < 200000
    · rw [dif_pos h1, finalOut_q1 m c r h (by omega) h1, outI_row]
    · rw [dif_neg h1]
      by_cases h2 : r.val < 300000
      · rw [dif_pos h2, finalOut_q2 m c r h (by omega) h2, outR_row]
      · rw [dif_neg h2, finalOut_q3 m c r h (by omega), outP_row]
        refine congrArg (fun r' => xK m c r' h) (Fin.ext ?_)
        show 300000 + (r.val - 300000) = r.val
        omega

end Cert.KernelIdeal.Hand

end
-- ==== Proof.Words.lean ====
/-
  Thirty-two-bit word arithmetic for the host index computations.

  The host program computes, elementwise on signed 32-bit words, the floor quotient and the
  non-negative remainder of a node index by 1000 (the block size), and two Python-style
  negative-index normalisations.  For a word whose unsigned value is below 100000 every one of
  these is the plain natural-number result: the word is non-negative when read signed, the
  signed division by the literal 1000 meets no corner, truncating and floor division agree on
  non-negative operands, and no addition wraps.
-/
import Idealize.ShloMosaic.Lib.StableHlo.Predicate

namespace Cert.Words

open Idealize.ShloMosaic

/-! ## The scalar chains -/

/-- The sign of a word: 0, -1 or 1 (the element function of the vector sign). -/
def sgn (x : BitVec 32) : BitVec 32 := if x = 0 then 0 else if x.msb then -1 else 1

/-- Floor division by 1000 as the host computes it: the truncating quotient q, lowered by one
    exactly when the signs of dividend and divisor differ and the truncating remainder is not 0. -/
def floorDiv1000 (x : BitVec 32) : BitVec 32 :=
  Scalar.select
    (IntOp.andi (IntOp.cmpi .ne (sgn x) (sgn 1000#32)) (IntOp.cmpi .ne (IntOp.remsi .host x 1000#32) 0#32))
    (IntOp.subi (IntOp.divsi .host x 1000#32) 1#32) (IntOp.divsi .host x 1000#32)

/-- The divisor the remainder chain uses: 1000 guarded against zero (1 if it were 0). -/
def divisor : BitVec 32 := Scalar.select (IntOp.cmpi .eq 1000#32 0#32) 1#32 1000#32

/-- The guard does nothing: the divisor is 1000. -/
theorem divisor_eq : divisor = 1000#32 := by decide

/-- The non-negative remainder by 1000 as the host computes it: the truncating remainder t by the
    guarded divisor d, raised by d exactly when t and d differ in sign and t is not 0. -/
def rem1000 (x : BitVec 32) : BitVec 32 :=
  let d := Scalar.select (IntOp.cmpi .eq 1000#32 0#32) 1#32 1000#32
  let t := IntOp.remsi .host x d
  Scalar.select
    (IntOp.andi (IntOp.cmpi .ne (IntOp.cmpi .slt t 0#32) (IntOp.cmpi .slt d 0#32)) (IntOp.cmpi .ne t 0#32))
    (IntOp.addi t d) t

/-- The remainder chain with its divisor evaluated to the literal 1000. -/
theorem rem1000_unfold (x : BitVec 32) :
    rem1000 x =
      Scalar.select
        (IntOp.andi (IntOp.cmpi .ne (IntOp.cmpi .slt (IntOp.remsi .host x 1000#32) 0#32) (IntOp.cmpi .slt 1000#32 0#32))
          (IntOp.cmpi .ne (IntOp.remsi .host x 1000#32) 0#32))
        (IntOp.addi (IntOp.remsi .host x 1000#32) 1000#32) (IntOp.remsi .host x 1000#32) := by
  have hd : Scalar.select (IntOp.cmpi .eq 1000#32 0#32) 1#32 1000#32 = 1000#32 := divisor_eq
  simp only [rem1000, hd]

/-! ## Small words -/

/-- A word below 100000 has its top bit clear. -/
theorem msb_small (x : BitVec 32) (hx : x.toNat < 100000) : x.msb = false :=
  BitVec.msb_eq_false_iff_two_mul_lt.mpr (by omega)

/-- A word below 100000 reads the same signed and unsigned. -/
theorem toInt_small (x : BitVec 32) (hx : x.toNat < 100000) : x.toInt = (x.toNat : ℤ) :=
  StableHlo.Predicate.toInt_eq_toNat_of_lt (by omega)

theorem toInt_ofNat_small (k : ℕ) (hk : k < 100000) : (BitVec.ofNat 32 k).toInt = (k : ℤ) :=
  StableHlo.Predicate.toInt_ofNat_small k (by omega)

/-- Division by the literal 1000 is never at a corner: 1000 is neither 0 nor -1. -/
theorem not_corner (x : BitVec 32) : ¬ IntOp.SDivCorner x 1000#32 := by
  intro hc
  rcases hc with hc | ⟨_, hc⟩ <;> exact absurd hc (by decide)

theorem msb_1000 : (1000#32 : BitVec 32).msb = false := by decide

/-- The truncating quotient of a small word by 1000 is the natural quotient: both operands are
    non-negative, so signed division is unsigned division. -/
theorem divsi_1000 (x : BitVec 32) (hx : x.toNat < 100000) :
    IntOp.divsi .host x 1000#32 = BitVec.ofNat 32 (x.toNat / 1000) := by
  apply BitVec.eq_of_toNat_eq
  simp only [IntOp.divsi, if_neg (not_corner x), BitVec.sdiv_eq, msb_small x hx, msb_1000, BitVec.udiv_eq,
    BitVec.toNat_udiv, BitVec.toNat_ofNat, Nat.reducePow, Nat.reduceMod]
  omega

/-- The truncating remainder of a small word by 1000 is the natural remainder. -/
theorem remsi_1000 (x : BitVec 32) (hx : x.toNat < 100000) :
    IntOp.remsi .host x 1000#32 = BitVec.ofNat 32 (x.toNat % 1000) := by
  apply BitVec.eq_of_toNat_eq
  simp only [IntOp.remsi, if_neg (not_corner x), BitVec.srem_eq, msb_small x hx, msb_1000,
    BitVec.toNat_umod, BitVec.toNat_ofNat, Nat.reducePow, Nat.reduceMod]
  omega

/-! ## Signs and sign tests of small words -/

theorem sgn_1000 : sgn 1000#32 = 1#32 := by decide

/-- A nonzero word with its top bit clear has sign 1. -/
theorem sgn_pos (x : BitVec 32) (h0 : x ≠ 0) (hm : x.msb = false) : sgn x = 1#32 := by
  unfold sgn
  rw [if_neg h0, hm]
  rfl

/-- A word below 2³¹ is not negative: the signed test against 0 answers 0. -/
theorem cmpi_slt_zero (y : BitVec 32) (hy : y.toNat < 2 ^ 31) : IntOp.cmpi .slt y 0#32 = 0#1 := by
  rcases BitVec.eq_zero_or_eq_one (IntOp.cmpi .slt y 0#32) with h | h
  · exact h
  · have hlt := (StableHlo.Predicate.slt_iff_toNat hy (by decide)).mp h
    simp only [BitVec.toNat_ofNat] at hlt
    omega

/-- A select on a false condition is its second branch. -/
theorem select_zero {α : Type} (a b : α) : Scalar.select 0#1 a b = b := by
  simp [Scalar.select]

/-! ## The floor quotient and the non-negative remainder -/

/-- The floor quotient of a small word: no adjustment is made.  If x = 0 the truncating remainder is 0;
    otherwise x and 1000 both have sign 1.  Either way the adjustment condition is false and the
    result is the truncating quotient, which is the natural quotient. -/
theorem floorDiv1000_eq (x : BitVec 32) (hx : x.toNat < 100000) :
    floorDiv1000 x = BitVec.ofNat 32 (x.toNat / 1000) := by
  have hc : IntOp.andi (IntOp.cmpi .ne (sgn x) (sgn 1000#32)) (IntOp.cmpi .ne (IntOp.remsi .host x 1000#32) 0#32) = 0#1 := by
    by_cases h0 : x = 0
    · subst h0; decide
    · rw [sgn_pos x h0 (msb_small x hx), sgn_1000]
      simp [IntOp.andi, IntOp.cmpi]
  unfold floorDiv1000
  rw [hc, select_zero, divsi_1000 x hx]

/-- The non-negative remainder of a small word: the truncating remainder is below 1000, hence not
    negative, as is the divisor 1000; the sign tests agree, no adjustment is made, and the result
    is the truncating remainder, which is the natural remainder. -/
theorem rem1000_eq (x : BitVec 32) (hx : x.toNat < 100000) :
    rem1000 x = BitVec.ofNat 32 (x.toNat % 1000) := by
  have ht : IntOp.cmpi .slt (BitVec.ofNat 32 (x.toNat % 1000)) 0#32 = 0#1 :=
    cmpi_slt_zero _ (by simp only [BitVec.toNat_ofNat]; omega)
  have hd : IntOp.cmpi .slt 1000#32 0#32 = 0#1 := by decide
  rw [rem1000_unfold, remsi_1000 x hx, ht, hd]
  have hc : ∀ b : BitVec 1, IntOp.andi (IntOp.cmpi .ne 0#1 0#1) b = 0#1 := by
    intro b; simp [IntOp.andi, IntOp.cmpi]
  rw [hc, select_zero]

/-! ## Negative-index normalisation -/

/-- Python-style negative index normalisation leaves a small non-negative word alone. -/
theorem norm_row (x : BitVec 32) (hx : x.toNat < 100000) :
    Scalar.select (IntOp.cmpi .slt x 0#32) (IntOp.addi x 100000#32) x = x := by
  rw [cmpi_slt_zero x (by omega), select_zero]

theorem norm_col (y : BitVec 32) (hy : y.toNat < 1000) :
    Scalar.select (IntOp.cmpi .slt y 0#32) (IntOp.addi y 1000#32) y = y := by
  rw [cmpi_slt_zero y (by omega), select_zero]

/-! ## Blocks -/

/-- Block equality from equal truncating quotients. -/
theorem div_eq_of_divsi_eq (x y : BitVec 32) (hx : x.toNat < 100000) (hy : y.toNat < 100000)
    (h : IntOp.divsi .host x 1000#32 = IntOp.divsi .host y 1000#32) : x.toNat / 1000 = y.toNat / 1000 := by
  rw [divsi_1000 x hx, divsi_1000 y hy] at h
  have ht := congrArg BitVec.toNat h
  simp only [BitVec.toNat_ofNat] at ht
  omega

/-- From the two range tests: 0 ≤ x (signed) and x < 100000 (signed) give the natural bound.
    A word that is non-negative when read signed has its top bit clear, so its signed and unsigned
    readings coincide, and the signed upper bound is the unsigned one. -/
theorem lt_of_range (x : BitVec 32) (h0 : IntOp.cmpi .sge x 0#32 = 1#1) (h1 : IntOp.cmpi .slt x 100000#32 = 1#1) :
    x.toNat < 100000 := by
  simp only [IntOp.cmpi, StableHlo.Predicate.ofBool_eq_one_iff, BitVec.sle, BitVec.slt, decide_eq_true_eq] at h0 h1
  have e0 : (0#32 : BitVec 32).toInt = 0 := by decide
  have e1 : (100000#32 : BitVec 32).toInt = 100000 := by decide
  rw [e0] at h0
  rw [e1] at h1
  have hlt := x.isLt
  rw [BitVec.toInt_eq_msb_cond] at h0 h1
  cases hm : x.msb
  · rw [hm] at h1
    simp only [Bool.false_eq_true, if_false] at h1
    omega
  · rw [hm] at h0
    simp only [if_true] at h0
    omega

/-- The validity test of the kernel is true when the two words lie in one block. -/
theorem valid_eq_one (x y : BitVec 32) (hx : x.toNat < 100000) (hy : y.toNat < 100000)
    (h : x.toNat / 1000 = y.toNat / 1000) : IntOp.cmpi .eq (floorDiv1000 x) (floorDiv1000 y) = 1#1 := by
  rw [floorDiv1000_eq x hx, floorDiv1000_eq y hy, h]
  exact StableHlo.Predicate.cmpi_eq_iff.mpr rfl

end Cert.Words
-- ==== Proof.KI.HostPre.lean ====
/-
  The host operations before the region, first part: the three index computations.  For each edge they compute the
  floor quotient of its row end and of its column end by the block size 1000, and the non-negative remainder of its
  column end by 1000.  Read at an edge, each of the three result buffers is the corresponding scalar word chain applied
  to that edge's end; the edge arrays themselves are left as launched.
-/
import proofs.«416151_j72335839199610_2_alg».proof.Proof.KI.Data
import proofs.«416151_j72335839199610_2_alg».proof.Proof.Words
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- Running a line made of two stretches is running the second from where the first ends. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- Core c's buffer contents after the three index computations, before the adjacency is assembled. -/
def P (c : Dev nD) : Valuation τ sig (Elt Ideal) :=
  StableHlo.after (List.flatten [hostOps0, hostOps0_1, hostOps0_2, hostOps0_3, hostOps0_4, hostOps0_5]) (fun b => m (c, b))

/-- The contents when the region is entered are those the last stretch leaves when run from P. -/
theorem V0_eq (c : Dev nD) : V0 (F := Ideal) m c = StableHlo.after hostOps0_6 (P m c) := by
  unfold P
  rw [← after_append]
  dsimp only [V0]
  simp only [preOps, List.flatten_cons, List.flatten_nil, List.append_nil, List.append_assoc]

set_option maxHeartbeats 1000000 in
/-- The index computations do not write edge_row. -/
theorem P_arg2 (c : Dev nD) : P m c (Proc.devRef .tc main_arg2) = m ((c : Thread nD τ).loc main_arg2) := by
  unfold P
  simp only [hostOps0, hostOps0_1, hostOps0_2, hostOps0_3, hostOps0_4, hostOps0_5, List.flatten_cons, List.flatten_nil, List.append_nil, List.cons_append, List.nil_append]
  open Idealize.ShloMosaic.StableHlo in after_results_simp
  try rfl

set_option maxHeartbeats 1000000 in
/-- The first quotient buffer holds, at every edge, the floor quotient of edge_row by 1000: the vector operations of the quotient computation, read at an edge, are the scalar chain on that edge's word. -/
theorem P_v0 (c : Dev nD) : (P m c (Proc.devRef .tc main_v0) : S800000.Idx → BitVec 32)
    = fun i => Cert.Words.floorDiv1000 (m ((c : Thread nD τ).loc main_arg2) i) := by
  unfold P
  simp only [hostOps0, hostOps0_1, hostOps0_2, hostOps0_3, hostOps0_4, hostOps0_5, List.flatten_cons, List.flatten_nil, List.append_nil, List.cons_append, List.nil_append]
  open Idealize.ShloMosaic.StableHlo in after_results_simp
  simp only [StableHlo.TRef.ofBuf, StableHlo.TRef.toBuf, cast_eq]
  funext i
  rfl

set_option maxHeartbeats 1000000 in
/-- The second quotient buffer holds, at every edge, the floor quotient of edge_col by 1000. -/
theorem P_v1 (c : Dev nD) : (P m c (Proc.devRef .tc main_v1) : S800000.Idx → BitVec 32)
    = fun i => Cert.Words.floorDiv1000 (m ((c : Thread nD τ).loc main_arg3) i) := by
  unfold P
  simp only [hostOps0, hostOps0_1, hostOps0_2, hostOps0_3, hostOps0_4, hostOps0_5, List.flatten_cons, List.flatten_nil, List.append_nil, List.cons_append, List.nil_append]
  open Idealize.ShloMosaic.StableHlo in after_results_simp
  simp only [StableHlo.TRef.ofBuf, StableHlo.TRef.toBuf, cast_eq]
  funext i
  rfl

set_option maxHeartbeats 1000000 in
/-- The remainder buffer holds, at every edge, the non-negative remainder of edge_col by 1000. -/
theorem P_v2 (c : Dev nD) : (P m c (Proc.devRef .tc main_v2) : S800000.Idx → BitVec 32)
    = fun i => Cert.Words.rem1000 (m ((c : Thread nD τ).loc main_arg3) i) := by
  unfold P
  simp only [hostOps0, hostOps0_1, hostOps0_2, hostOps0_3, hostOps0_4, hostOps0_5, List.flatten_cons, List.flatten_nil, List.append_nil, List.cons_append, List.nil_append]
  open Idealize.ShloMosaic.StableHlo in after_results_simp
  simp only [StableHlo.TRef.ofBuf, StableHlo.TRef.toBuf, cast_eq]
  funext i
  rfl

end Cert.KernelIdeal.Hand

end
-- ==== Proof.KI.HostMid.lean ====
/-
  The host operations before the region, second part: what the last stretch's first twenty operations leave in the four
  buffers the adjacency is assembled from (the zero operand, the two index columns, the update vector), for any
  contents they are run from.
-/
import proofs.«416151_j72335839199610_2_alg».proof.Proof.KI.HostPre

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The buffer contents before the last four host operations (the index array, the scatter-add, its narrowing and the
    weight's transpose): the last stretch's first twenty operations run from P. -/
def Q (c : Dev nD) : Valuation τ sig (Elt Ideal) := StableHlo.after (List.take 20 hostOps0_6) (P m c)

/-- The contents when the region is entered are those the last four operations leave when run from Q. -/
theorem V0_eq_Q (c : Dev nD) : V0 (F := Ideal) m c = StableHlo.after (List.drop 20 hostOps0_6) (Q m c) := by
  unfold Q
  rw [V0_eq, ← after_append, List.take_append_drop]

section FromAny
variable (W : Valuation τ sig (Elt Ideal))

set_option maxHeartbeats 1000000 in
/-- The update vector: the validity bit (equal block quotients of the two ends) as a float. -/
theorem mid_v4 : @Eq (FVec Ideal S800000 .f32) (StableHlo.after (List.take 20 hostOps0_6) W (Proc.devRef .tc main_v4))
    (uitofp (F := Ideal) .f32 (cmpi .eq (W (Proc.devRef .tc main_v0) : IVec S800000 32) (W (Proc.devRef .tc main_v1)))) := by
  simp only [hostOps0_6, List.take_succ_cons, List.take_zero, List.drop_succ_cons, List.drop_zero]
  open Idealize.ShloMosaic.StableHlo in after_results_simp

set_option maxHeartbeats 1000000 in
/-- The scatter's operand: the zero constant broadcast to the adjacency's shape. -/
theorem mid_v5 : @Eq (FVec Ideal S100000x1000 .f32) (StableHlo.after (List.take 20 hostOps0_6) W (Proc.devRef .tc main_v5))
    (broadcastInDim S100000x1000 ![] bcast_S_S100000x1000 (constant (F := Ideal) S_ .f32 0x00000000#32)) := by
  simp only [hostOps0_6, List.take_succ_cons, List.take_zero, List.drop_succ_cons, List.drop_zero]
  open Idealize.ShloMosaic.StableHlo in after_results_simp

set_option maxHeartbeats 1000000 in
/-- The row index column: edge_row with negative words raised by the row count, as one column. -/
theorem mid_v16 : @Eq (IVec S800000x1 32) (StableHlo.after (List.take 20 hostOps0_6) W (Proc.devRef .tc main_v16))
    (broadcastInDim S800000x1 ![0] bcast_S800000_S800000x1_0
        (select (cmpi .slt (W (Proc.devRef .tc main_arg2) : IVec S800000 32) (broadcastInDim S800000 ![] bcast_S_S800000 (constantI S_ 32 0#32)))
          (addi (W (Proc.devRef .tc main_arg2) : IVec S800000 32) (broadcastInDim S800000 ![] bcast_S_S800000 (constantI S_ 32 100000#32)))
          (W (Proc.devRef .tc main_arg2) : IVec S800000 32))) := by
  simp only [hostOps0_6, List.take_succ_cons, List.take_zero, List.drop_succ_cons, List.drop_zero]
  open Idealize.ShloMosaic.StableHlo in after_results_simp

set_option maxHeartbeats 1000000 in
/-- The column index column: the remainder buffer with negative words raised by the block size, as one column. -/
theorem mid_v17 : @Eq (IVec S800000x1 32) (StableHlo.after (List.take 20 hostOps0_6) W (Proc.devRef .tc main_v17))
    (broadcastInDim S800000x1 ![0] bcast_S800000_S800000x1_0
        (select (cmpi .slt (W (Proc.devRef .tc main_v2) : IVec S800000 32) (broadcastInDim S800000 ![] bcast_S_S800000 (constantI S_ 32 0#32)))
          (addi (W (Proc.devRef .tc main_v2) : IVec S800000 32) (broadcastInDim S800000 ![] bcast_S_S800000 (constantI S_ 32 1000#32)))
          (W (Proc.devRef .tc main_v2) : IVec S800000 32))) := by
  simp only [hostOps0_6, List.take_succ_cons, List.take_zero, List.drop_succ_cons, List.drop_zero]
  open Idealize.ShloMosaic.StableHlo in after_results_simp

end FromAny

end Cert.KernelIdeal.Hand

end
-- ==== Proof.Scatter.lean ====
import proofs.«416151_j72335839199610_2_alg».proof.KernelIdeal
import proofs.«416151_j72335839199610_2_alg».proof.ReferenceIdeal
import Idealize.ShloMosaic.Lib.ValueIdx
import Idealize.ShloMosaic.Lib.ValueIdxRank1
import Idealize.ShloMosaic.PureOps.Ideal

/-!
  The two host scatter-adds and the host gather of the unit, read at one element.

  * The kernel's scatter-add into the dense adjacency: update `e` (rank 1) lands at operand index
    `(idx[e,0], idx[e,1])` read signed; so element `(r, lc)` receives the updates of the edges whose
    two index words are `r` and `lc`.
  * The reference's scatter-add of feature rows: update `(e, h')` lands at `(idx[e,0], h')`; so element
    `(r, h)` receives `upd (e, h)` over the edges whose index word is `r`.
  * The reference's gather of feature rows: result `(e, h)` reads the operand at `(idx[e,0], h)` when the
    index word is in range (the clamp is then the identity).
-/

open Idealize.ShloMosaic Idealize.ShloMosaic.ValueIdx
open scoped BigOperators

namespace Cert.Scat

variable [Cert.KernelIdeal.Facts] [Cert.ReferenceIdeal.Facts]

/-! ## The kernel's scatter-add: operand [100000 × 1000], indices [800000 × 2], updates [800000] -/

section Kernel

local notation "dK" => Cert.KernelIdeal.scatter_S100000x1000_S800000x2_S800000_n_01_01_1

/-- Both operand axes are inserted window axes, so no operand axis is kept: the window coordinate is 0. -/
theorem k_window (j : Cert.KernelIdeal.S800000.Idx) (a : Fin 2) : ScatterDims.window dK j a = 0 := by
  unfold ScatterDims.window
  rw [dif_neg]
  have : ScatterDims.sKept dK = [] := rfl
  rw [this]; exact List.not_mem_nil

/-- On operand axis 0 the start of update `e` is the index word `idx[e,0]` read signed. -/
theorem k_start0 (idx : IVec Cert.KernelIdeal.S800000x2 32) (e : Fin 800000) :
    ScatterDims.start dK (ix1 e) idx (0 : Fin 2) = (idx (ix2 e (0 : Fin 2))).toInt := by
  unfold ScatterDims.start
  rw [dif_pos (show (0 : Fin 2) ∈ ScatterDims.scatterDimsToOperandDims dK from List.mem_cons_self)]
  congr 2
  funext b; refine Fin.ext ?_
  match b with
  | ⟨0, _⟩ => rfl
  | ⟨1, _⟩ => rfl

/-- On operand axis 1 the start of update `e` is the index word `idx[e,1]` read signed. -/
theorem k_start1 (idx : IVec Cert.KernelIdeal.S800000x2 32) (e : Fin 800000) :
    ScatterDims.start dK (ix1 e) idx (1 : Fin 2) = (idx (ix2 e (1 : Fin 2))).toInt := by
  unfold ScatterDims.start
  rw [dif_pos (show (1 : Fin 2) ∈ ScatterDims.scatterDimsToOperandDims dK from List.mem_cons_of_mem _ List.mem_cons_self)]
  congr 2
  funext b; refine Fin.ext ?_
  match b with
  | ⟨0, _⟩ => rfl
  | ⟨1, _⟩ => rfl

/-- Update `e` of the kernel's scatter lands at `(r, lc)` exactly when its two index words are `r` and `lc`. -/
theorem k_resultIdx_iff (idx : IVec Cert.KernelIdeal.S800000x2 32) (rowN lcN : Fin 800000 → ℕ)
    (hrow : ∀ e : Fin 800000, (idx (ix2 e (0 : Fin 2))).toInt = (rowN e : ℤ))
    (hlc : ∀ e : Fin 800000, (idx (ix2 e (1 : Fin 2))).toInt = (lcN e : ℤ))
    (e : Fin 800000) (r : Fin 100000) (lc : Fin 1000) :
    ScatterDims.resultIdx? dK (ix1 e) idx = some (ix2 r lc) ↔ rowN e = r.val ∧ lcN e = lc.val := by
  have hs0 : ScatterDims.start dK (ix1 e) idx (0 : Fin 2) + (ScatterDims.window dK (ix1 e) (0 : Fin 2) : ℤ) = (rowN e : ℤ) := by
    rw [k_window, k_start0, hrow]; simp
  have hs1 : ScatterDims.start dK (ix1 e) idx (1 : Fin 2) + (ScatterDims.window dK (ix1 e) (1 : Fin 2) : ℤ) = (lcN e : ℤ) := by
    rw [k_window, k_start1, hlc]; simp
  unfold ScatterDims.resultIdx?
  split
  · rename_i h
    rw [Option.some_inj]
    constructor
    · intro hf
      have h0 := congrArg (fun f => (f (0 : Fin 2)).val) hf
      have h1 := congrArg (fun f => (f (1 : Fin 2)).val) hf
      simp only [hs0, hs1, Int.toNat_natCast] at h0 h1
      exact ⟨h0, h1⟩
    · rintro ⟨h0, h1⟩
      funext a; refine Fin.ext ?_
      match a with
      | ⟨0, _⟩ => show (ScatterDims.start dK (ix1 e) idx (0 : Fin 2) + (ScatterDims.window dK (ix1 e) (0 : Fin 2) : ℤ)).toNat = r.val
                  rw [hs0, Int.toNat_natCast, h0]
      | ⟨1, _⟩ => show (ScatterDims.start dK (ix1 e) idx (1 : Fin 2) + (ScatterDims.window dK (ix1 e) (1 : Fin 2) : ℤ)).toNat = lc.val
                  rw [hs1, Int.toNat_natCast, h1]
  · rename_i h
    constructor
    · intro hf; cases hf
    · rintro ⟨h0, h1⟩
      exfalso; apply h
      intro a
      match a with
      | ⟨0, _⟩ => show 0 ≤ ScatterDims.start dK (ix1 e) idx (0 : Fin 2) + (ScatterDims.window dK (ix1 e) (0 : Fin 2) : ℤ) ∧
                    ScatterDims.start dK (ix1 e) idx (0 : Fin 2) + (ScatterDims.window dK (ix1 e) (0 : Fin 2) : ℤ) < ((100000 : ℕ) : ℤ)
                  rw [hs0]; have := r.isLt; omega
      | ⟨1, _⟩ => show 0 ≤ ScatterDims.start dK (ix1 e) idx (1 : Fin 2) + (ScatterDims.window dK (ix1 e) (1 : Fin 2) : ℤ) ∧
                    ScatterDims.start dK (ix1 e) idx (1 : Fin 2) + (ScatterDims.window dK (ix1 e) (1 : Fin 2) : ℤ) < ((1000 : ℕ) : ℤ)
                  rw [hs1]; have := lc.isLt; omega

/-- THE KERNEL'S SCATTER-ADD AT `(r, lc)`: the operand's element plus the updates of the edges whose index words
    are `r` and `lc`. The sum over rank-1 update indices is re-indexed by the edge. -/
theorem kernel_scatter_apply (x : Cert.KernelIdeal.S100000x1000.Idx → EReal) (idx : IVec Cert.KernelIdeal.S800000x2 32)
    (upd : Cert.KernelIdeal.S800000.Idx → EReal) (rowN lcN : Fin 800000 → ℕ)
    (hrow : ∀ e : Fin 800000, (idx (ix2 e (0 : Fin 2))).toInt = (rowN e : ℤ))
    (hlc : ∀ e : Fin 800000, (idx (ix2 e (1 : Fin 2))).toInt = (lcN e : ℤ))
    (r : Fin 100000) (lc : Fin 1000) :
    Ideal.hostScatterAdd Cert.KernelIdeal.scatter_S100000x1000_S800000x2_S800000_n_01_01_1 x idx upd (ix2 r lc)
      = x (ix2 r lc) + ∑ e ∈ Finset.univ.filter (fun e : Fin 800000 => rowN e = r.val ∧ lcN e = lc.val), upd (ix1 e) := by
  unfold Ideal.hostScatterAdd
  refine congrArg (fun z => x (ix2 r lc) + z) ?_
  rw [Finset.sum_filter, Finset.sum_filter, ← Equiv.sum_comp (idxEquiv1 (n := 800000)).symm]
  refine Finset.sum_congr rfl fun e _ => ?_
  show (if ScatterDims.resultIdx? dK (ix1 e) idx = some (ix2 r lc) then upd (ix1 e) else 0) = _
  simp only [k_resultIdx_iff idx rowN lcN hrow hlc e r lc]

end Kernel

/-! ## The reference's scatter-add: operand [100000 × 128], indices [800000 × 1], updates [800000 × 128] -/

section Reference

local notation "dR" => Cert.ReferenceIdeal.scatter_S100000x128_S800000x1_S800000x128_1_0_0_1
local notation "dG" => Cert.ReferenceIdeal.gather_S100000x128_S800000x1_S800000x128_1_0_n_n_0_1_1128

/-- Operand axis 0 is the inserted window axis: its window coordinate is 0. -/
theorem r_window0 (j : Cert.ReferenceIdeal.S800000x128.Idx) : ScatterDims.window dR j (0 : Fin 2) = 0 := by
  unfold ScatterDims.window
  rw [dif_neg]
  have : ScatterDims.sKept dR = [1] := rfl
  rw [this]; decide

/-- Operand axis 1 is the kept axis: its window coordinate is the update's feature coordinate. -/
theorem r_window1 (j : Cert.ReferenceIdeal.S800000x128.Idx) : ScatterDims.window dR j (1 : Fin 2) = (j 1).val := by
  unfold ScatterDims.window
  rw [dif_pos (show (1 : Fin 2) ∈ ScatterDims.sKept dR from List.mem_singleton.mpr rfl)]
  rfl

/-- On operand axis 0 the start of update `(e, h')` is the index word `idx[e,0]` read signed. -/
theorem r_start0 (idx : IVec Cert.ReferenceIdeal.S800000x1 32) (e : Fin 800000) (h' : Fin 128) :
    ScatterDims.start dR (ix2 e h') idx (0 : Fin 2) = (idx (ix2 e (0 : Fin 1))).toInt := by
  unfold ScatterDims.start
  rw [dif_pos (show (0 : Fin 2) ∈ ScatterDims.scatterDimsToOperandDims dR from List.mem_cons_self)]
  congr 2
  funext b; refine Fin.ext ?_
  match b with
  | ⟨0, _⟩ => rfl
  | ⟨1, _⟩ => rfl

/-- Operand axis 1 is not named by the index map: its start is 0. -/
theorem r_start1 (idx : IVec Cert.ReferenceIdeal.S800000x1 32) (j : Cert.ReferenceIdeal.S800000x128.Idx) :
    ScatterDims.start dR j idx (1 : Fin 2) = 0 := by
  unfold ScatterDims.start
  rw [dif_neg]
  have : ScatterDims.scatterDimsToOperandDims dR = [0] := rfl
  rw [this]; decide

/-- Update `(e, h')` of the reference's scatter lands at `(r, h)` exactly when its index word is `r` and `h' = h`. -/
theorem r_resultIdx_iff (idx : IVec Cert.ReferenceIdeal.S800000x1 32) (rowN : Fin 800000 → ℕ)
    (hrow : ∀ e : Fin 800000, (idx (ix2 e (0 : Fin 1))).toInt = (rowN e : ℤ))
    (e : Fin 800000) (h' : Fin 128) (r : Fin 100000) (h : Fin 128) :
    ScatterDims.resultIdx? dR (ix2 e h') idx = some (ix2 r h) ↔ rowN e = r.val ∧ h' = h := by
  have hs0 : ScatterDims.start dR (ix2 e h') idx (0 : Fin 2) + (ScatterDims.window dR (ix2 e h') (0 : Fin 2) : ℤ) = (rowN e : ℤ) := by
    rw [r_window0, r_start0, hrow]; simp
  have hs1 : ScatterDims.start dR (ix2 e h') idx (1 : Fin 2) + (ScatterDims.window dR (ix2 e h') (1 : Fin 2) : ℤ) = (h'.val : ℤ) := by
    rw [r_window1, r_start1]; simp
  unfold ScatterDims.resultIdx?
  split
  · rename_i hin
    rw [Option.some_inj]
    constructor
    · intro hf
      have h0 := congrArg (fun f => (f (0 : Fin 2)).val) hf
      have h1 := congrArg (fun f => (f (1 : Fin 2)).val) hf
      simp only [hs0, hs1, Int.toNat_natCast] at h0 h1
      exact ⟨h0, Fin.ext h1⟩
    · rintro ⟨h0, h1⟩
      funext a; refine Fin.ext ?_
      match a with
      | ⟨0, _⟩ => show (ScatterDims.start dR (ix2 e h') idx (0 : Fin 2) + (ScatterDims.window dR (ix2 e h') (0 : Fin 2) : ℤ)).toNat = r.val
                  rw [hs0, Int.toNat_natCast, h0]
      | ⟨1, _⟩ => show (ScatterDims.start dR (ix2 e h') idx (1 : Fin 2) + (ScatterDims.window dR (ix2 e h') (1 : Fin 2) : ℤ)).toNat = h.val
                  rw [hs1, Int.toNat_natCast, h1]
  · rename_i hin
    constructor
    · intro hf; cases hf
    · rintro ⟨h0, h1⟩
      exfalso; apply hin
      intro a
      match a with
      | ⟨0, _⟩ => show 0 ≤ ScatterDims.start dR (ix2 e h') idx (0 : Fin 2) + (ScatterDims.window dR (ix2 e h') (0 : Fin 2) : ℤ) ∧
                    ScatterDims.start dR (ix2 e h') idx (0 : Fin 2) + (ScatterDims.window dR (ix2 e h') (0 : Fin 2) : ℤ) < ((100000 : ℕ) : ℤ)
                  rw [hs0]; have := r.isLt; omega
      | ⟨1, _⟩ => show 0 ≤ ScatterDims.start dR (ix2 e h') idx (1 : Fin 2) + (ScatterDims.window dR (ix2 e h') (1 : Fin 2) : ℤ) ∧
                    ScatterDims.start dR (ix2 e h') idx (1 : Fin 2) + (ScatterDims.window dR (ix2 e h') (1 : Fin 2) : ℤ) < ((128 : ℕ) : ℤ)
                  rw [hs1]; have := h'.isLt; omega

/-- THE REFERENCE'S SCATTER-ADD AT `(r, h)`: the operand's element plus `upd (e, h)` over the edges whose index word
    is `r`. The sum over rank-2 update indices is split by coordinates; the feature coordinate is forced to `h`. -/
theorem ref_scatter_apply (x : Cert.ReferenceIdeal.S100000x128.Idx → EReal) (idx : IVec Cert.ReferenceIdeal.S800000x1 32)
    (upd : Cert.ReferenceIdeal.S800000x128.Idx → EReal) (rowN : Fin 800000 → ℕ)
    (hrow : ∀ e : Fin 800000, (idx (ix2 e (0 : Fin 1))).toInt = (rowN e : ℤ)) (r : Fin 100000) (h : Fin 128) :
    Ideal.hostScatterAdd Cert.ReferenceIdeal.scatter_S100000x128_S800000x1_S800000x128_1_0_0_1 x idx upd (ix2 r h)
      = x (ix2 r h) + ∑ e ∈ Finset.univ.filter (fun e : Fin 800000 => rowN e = r.val), upd (ix2 e h) := by
  unfold Ideal.hostScatterAdd
  refine congrArg (fun z => x (ix2 r h) + z) ?_
  rw [Finset.sum_filter, Finset.sum_filter, sum_idx2]
  refine Finset.sum_congr rfl fun e _ => ?_
  simp only [r_resultIdx_iff idx rowN hrow e _ r h]
  by_cases hr : rowN e = r.val
  · simp only [hr, true_and, if_true]
    rw [Finset.sum_ite_eq']
    simp
  · simp only [hr, false_and, if_false]
    exact Finset.sum_const_zero

/-! ## The reference's gather: operand [100000 × 128], start indices [800000 × 1], result [800000 × 128] -/

/-- THE REFERENCE'S GATHER AT `(e, h)`: the operand at `(idx[e,0], h)`; an index word in range is not moved by the clamp. -/
theorem ref_gather_apply {α : Type} (x : Cert.ReferenceIdeal.S100000x128.Idx → α) (idx : IVec Cert.ReferenceIdeal.S800000x1 32)
    (colN : Fin 800000 → ℕ) (hcol : ∀ e : Fin 800000, (idx (ix2 e (0 : Fin 1))).toInt = (colN e : ℤ))
    (hlt : ∀ e, colN e < 100000) (e : Fin 800000) (h : Fin 128) :
    Host.gather Cert.ReferenceIdeal.gather_S100000x128_S800000x1_S800000x128_1_0_n_n_0_1_1128 x idx (ix2 e h)
      = x (ix2 ⟨colN e, hlt e⟩ h) := by
  unfold Host.gather
  refine congrArg x ?_
  funext a; refine Fin.ext ?_
  match a with
  | ⟨0, _⟩ =>
    show GatherDims.start dG (ix2 e h) idx (0 : Fin 2) + GatherDims.batchCoord dG (ix2 e h) (0 : Fin 2)
      + GatherDims.offCoord dG (ix2 e h) (0 : Fin 2) = colN e
    rw [GatherDims.batchCoord_eq_zero _ _ _ List.not_mem_nil,
      GatherDims.offCoord_eq_zero _ _ _ (fun hk => ((GatherDims.mem_sKept _ _).mp hk).1 (List.mem_singleton.mpr rfl))]
    unfold GatherDims.start
    rw [dif_pos (show (0 : Fin 2) ∈ GatherDims.startIndexMap dG from List.mem_singleton.mpr rfl)]
    have hsi : GatherDims.siIdx dG (ix2 e h) ⟨List.idxOf (0 : Fin 2) (GatherDims.startIndexMap dG),
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hcol, Int.toNat_natCast]
    show min (colN e) (100000 - 1) + 0 + 0 = colN e
    have := hlt e; omega
  | ⟨1, _⟩ =>
    show GatherDims.start dG (ix2 e h) idx (1 : Fin 2) + GatherDims.batchCoord dG (ix2 e h) (1 : Fin 2)
      + GatherDims.offCoord dG (ix2 e h) (1 : Fin 2) = h.val
    rw [GatherDims.batchCoord_eq_zero _ _ _ List.not_mem_nil]
    unfold GatherDims.start GatherDims.offCoord
    rw [dif_neg (show (1 : Fin 2) ∉ GatherDims.startIndexMap dG from by
          rw [show GatherDims.startIndexMap dG = [0] from rfl]; decide),
      dif_pos (show (1 : Fin 2) ∈ GatherDims.sKept dG from List.mem_singleton.mpr rfl)]
    show 0 + 0 + h.val = h.val
    omega

end Reference

end Cert.Scat
-- ==== Proof.KI.Host.lean ====
/-
  What the host operations before the region leave in the adjacency the kernel stages, read at an index.
-/
import proofs.«416151_j72335839199610_2_alg».proof.Proof.KI.HostMid
import proofs.«416151_j72335839199610_2_alg».proof.Proof.Scatter
import proofs.«416151_j72335839199610_2_alg».proof.Proof.Gen.ReferenceIdeal
import Idealize.ShloMosaic.Lib.ValueIdx
import Idealize.ShloMosaic.Lib.IdealHost
import Idealize.ShloMosaic.Lib.Pipeline.Value

noncomputable section

namespace Cert.KernelIdeal.Hand

open Cert.KernelIdeal Cert.KernelIdeal.Gen
open Idealize.ShloMosaic Idealize.ShloMosaic.TcCoe
open Idealize.ShloMosaic.ValueIdx

variable (m : (ℓ : Loc nD τ sig) → Buf (Elt Ideal) ℓ)

/-- The index array's first column: the two columns are joined along axis 1, each a vector laid out as one column, so
    entry (e, 0) is the first vector at e. -/
theorem idx_col0 (a b : IVec S800000 32) (e : Fin 800000) :
    concatenate S800000x2 1 [⟨S800000x1, broadcastInDim S800000x1 ![0] bcast_S800000_S800000x1_0 a⟩,
      ⟨S800000x1, broadcastInDim S800000x1 ![0] bcast_S800000_S800000x1_0 b⟩]
      concatenates_S800000x1_S800000x1_S800000x2_d1 (ix2 e (0 : Fin 2)) = a (ix1 e) := by
  refine (concatenate_pair_apply_left (t := S800000x2) (s₁ := S800000x1) (s₂ := S800000x1) 1 _ _ _ (ix2 e (0 : Fin 2)) rfl
    (ix2 e (0 : Fin 1)) (fun b => ?_)).trans ?_
  · match b with
    | ⟨0, _⟩ => rfl
    | ⟨1, _⟩ => rfl
  · exact broadcastInDim_apply _ _ a _ (ix1 e) (fun a => match a with | ⟨0, _⟩ => rfl)

/-- The index array's second column: entry (e, 1) is the second vector at e. -/
theorem idx_col1 (a b : IVec S800000 32) (e : Fin 800000) :
    concatenate S800000x2 1 [⟨S800000x1, broadcastInDim S800000x1 ![0] bcast_S800000_S800000x1_0 a⟩,
      ⟨S800000x1, broadcastInDim S800000x1 ![0] bcast_S800000_S800000x1_0 b⟩]
      concatenates_S800000x1_S800000x1_S800000x2_d1 (ix2 e (1 : Fin 2)) = b (ix1 e) := by
  refine (concatenate_pair_apply_right (t := S800000x2) (s₁ := S800000x1) (s₂ := S800000x1) 1 _ _ _ (ix2 e (1 : Fin 2)) rfl rfl
    (ix2 e (0 : Fin 1)) (fun b hb => ?_) rfl).trans ?_
  · match b, hb with
    | ⟨0, _⟩, _ => rfl
    | ⟨1, _⟩, hb => exact absurd rfl hb
  · exact broadcastInDim_apply _ _ b _ (ix1 e) (fun a => match a with | ⟨0, _⟩ => rfl)

/-- The narrowing of the host's scatter-add, read at an index, is the exact accumulation: narrowing is the identity on
    the ideal values and the ideal scatter-add is the exact sum. -/
theorem truncf_scatterAdd_apply (x : FVec Ideal S100000x1000 .f32) (idx : IVec S800000x2 32) (upd : FVec Ideal S800000 .f32)
    (j : S100000x1000.Idx) :
    (truncf .bf16 (Host.scatterAdd scatter_S100000x1000_S800000x2_S800000_n_01_01_1 x idx upd) bitsLt_bf16_f32 : FVec Ideal S100000x1000 .bf16) j
      = Ideal.hostScatterAdd scatter_S100000x1000_S800000x2_S800000_n_01_01_1 x idx upd j := rfl

set_option maxHeartbeats 1000000 in
/-- THE ADJACENCY THE KERNEL STAGES.  Under the precondition (both ends of every edge below 100000 and in one block of
    1000) entry (r, lc) is the number of edges whose row end is r and whose column end is lc modulo 1000.  The host builds
    it as a scatter-add into zeros of the validity bit (equal block quotients), which is 1 for every edge under the
    precondition, at the index pair (row end, column end modulo 1000), the negative-index normalisations doing nothing
    on these small non-negative words; the narrowing to bf16 is the identity on the ideal values. -/
theorem adj_apply (c : Dev nD)
    (hr : ∀ e : Fin 800000, (m ((c : Thread nD τ).loc main_arg2) (ix1 e)).toNat < 100000)
    (hc : ∀ e : Fin 800000, (m ((c : Thread nD τ).loc main_arg3) (ix1 e)).toNat < 100000)
    (hbd : ∀ e : Fin 800000, (m ((c : Thread nD τ).loc main_arg2) (ix1 e)).toNat / 1000
      = (m ((c : Thread nD τ).loc main_arg3) (ix1 e)).toNat / 1000)
    (r : Fin 100000) (lc : Fin 1000) :
    V (F := Ideal) m c main_v20 (ix2 r lc) = (0 : EReal) + ∑ e ∈ Finset.univ.filter (fun e : Fin 800000 =>
      (m ((c : Thread nD τ).loc main_arg2) (ix1 e)).toNat = r.val
        ∧ (m ((c : Thread nD τ).loc main_arg3) (ix1 e)).toNat % 1000 = lc.val), (1 : EReal) := by
  show V0 (F := Ideal) m c (Proc.devRef .tc main_v20) (ix2 r lc) = _
  rw [V0_eq_Q]
  simp only [hostOps0_6, List.take_succ_cons, List.take_zero, List.drop_succ_cons, List.drop_zero]
  open Idealize.ShloMosaic.StableHlo in after_results
  unfold Q
  rw [mid_v4, mid_v5, mid_v16, mid_v17, P_arg2 m c, P_v0 m c, P_v1 m c, P_v2 m c]
  rw [truncf_scatterAdd_apply]
  refine (Cert.Scat.kernel_scatter_apply _ _ _
    (fun e => (m ((c : Thread nD τ).loc main_arg2) (ix1 e)).toNat)
    (fun e => (m ((c : Thread nD τ).loc main_arg3) (ix1 e)).toNat % 1000) (fun e => ?_) (fun e => ?_) r lc).trans ?_
  · rw [idx_col0]
    show (Scalar.select (IntOp.cmpi .slt (m ((c : Thread nD τ).loc main_arg2) (ix1 e)) 0#32)
      (IntOp.addi (m ((c : Thread nD τ).loc main_arg2) (ix1 e)) 100000#32) (m ((c : Thread nD τ).loc main_arg2) (ix1 e))).toInt = _
    rw [Cert.Words.norm_row _ (hr e), Cert.Words.toInt_small _ (hr e)]
  · rw [idx_col1]
    show (Scalar.select (IntOp.cmpi .slt (Cert.Words.rem1000 (m ((c : Thread nD τ).loc main_arg3) (ix1 e))) 0#32)
      (IntOp.addi (Cert.Words.rem1000 (m ((c : Thread nD τ).loc main_arg3) (ix1 e))) 1000#32)
      (Cert.Words.rem1000 (m ((c : Thread nD τ).loc main_arg3) (ix1 e)))).toInt = _
    have hlt : (m ((c : Thread nD τ).loc main_arg3) (ix1 e)).toNat % 1000 < 1000 := Nat.mod_lt _ (by decide)
    rw [Cert.Words.rem1000_eq _ (hc e), Cert.Words.norm_col _ (by rw [BitVec.toNat_ofNat]; omega),
      Cert.Words.toInt_ofNat_small _ (by omega)]
  · beta_reduce
    refine congrArg₂ (· + ·) ?_ (Finset.sum_congr rfl fun e _ => ?_)
    · exact (broadcastInDim_scalar_apply _ _ _).trans ((constant_apply _ _).trans Ideal.ofBits_zero_f32)
    · show (((IntOp.cmpi .eq (Cert.Words.floorDiv1000 (m ((c : Thread nD τ).loc main_arg2) (ix1 e)))
        (Cert.Words.floorDiv1000 (m ((c : Thread nD τ).loc main_arg3) (ix1 e)))).toNat : ℝ) : EReal) = 1
      rw [Cert.Words.valid_eq_one _ _ (hr e) (hc e) (hbd e)]
      simp

end Cert.KernelIdeal.Hand

end
-- ==== Proof.RefValueA.lean ====
/-
  The reference program read index by index, first part: the argument arrays as functions of
  coordinates, the hidden layer max(x·Wᵀ + b, 0) on the first 300000 rows, its three row ranges,
  and the two rate columns β (negated) and γ broadcast along the features.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec

noncomputable section

namespace Cert.ReferenceIdeal.RefValue

open Idealize.ShloMosaic Idealize.ShloMosaic.ValueIdx
open Cert.ReferenceIdeal Cert.ReferenceIdeal.Read

/-- The argument arrays as functions of coordinates (x4 is W: the layer uses its transpose). -/
def xF (x1 : (⟨S400000x128, .f32⟩ : BufTy).Contents (Elt Ideal)) (r : Fin 400000) (k : Fin 128) : EReal := x1 (ix2 r k)
def wtF (x4 : (⟨S128x128, .f32⟩ : BufTy).Contents (Elt Ideal)) (k h : Fin 128) : EReal := x4 (ix2 h k)
def vF (x5 : (⟨S128, .f32⟩ : BufTy).Contents (Elt Ideal)) (h : Fin 128) : EReal := x5 (ix1 h)

/-- The affine layer clipped at zero, at row r < 300000 and feature h: the contraction reads row r of x
    against column h of the transposed weight, the bias is broadcast along rows, the clip is against the zero word. -/
theorem hid_apply (x1 : (⟨S400000x128, .f32⟩ : BufTy).Contents (Elt Ideal)) (x4 : (⟨S128x128, .f32⟩ : BufTy).Contents (Elt Ideal))
    (x5 : (⟨S128, .f32⟩ : BufTy).Contents (Elt Ideal)) (r : Fin 300000) (h : Fin 128) :
    val_main_v10 (F := Ideal) x1 x4 x5 (ix2 r h)
      = Cert.Spec.hid (xF x1) (wtF x4) (vF x5) ⟨r.val, by omega⟩ h := by
  have e0 : ∀ k : Fin 128, idx_main_v0 (lidx_main_v6 (ix2 r h) k) = ix2 (⟨r.val, by omega⟩ : Fin 400000) k := fun k =>
    funext fun a => Fin.ext (by match a with | ⟨0, _⟩ => rfl | ⟨1, _⟩ => rfl)
  have e5 : ∀ k : Fin 128, idx_main_v5 (ridx_main_v6 (ix2 r h) k) = ix2 h k := fun k =>
    funext fun a => Fin.ext (by match a with | ⟨0, _⟩ => rfl | ⟨1, _⟩ => rfl)
  have e7 : idx_main_v7 (idx_main_v8 (ix2 r h)) = ix1 h :=
    funext fun a => Fin.ext (by match a with | ⟨0, _⟩ => rfl)
  rw [val_main_v10_apply, val_main_v9_apply, val_main_v6_apply, val_main_v8_apply, val_main_v7_apply,
    val_main_call0_v0_apply, val_main_call0_cst_apply]
  simp only [val_main_v0_apply, val_main_v5_apply, e0, e5, e7]
  show max ((∑ k : Fin 128, x1 (ix2 (⟨r.val, _⟩ : Fin 400000) k) * x4 (ix2 h k)) + x5 (ix1 h)) (Ideal.ofBits .f32 0x00000000#32) = _
  rw [Ideal.ofBits_zero_f32]
  rfl

/-- The S rows of the hidden layer: rows 0 … 99999. -/
theorem v11_apply (x1 : (⟨S400000x128, .f32⟩ : BufTy).Contents (Elt Ideal)) (x4 : (⟨S128x128, .f32⟩ : BufTy).Contents (Elt Ideal))
    (x5 : (⟨S128, .f32⟩ : BufTy).Contents (Elt Ideal)) (r : Fin 100000) (h : Fin 128) :
    val_main_v11 (F := Ideal) x1 x4 x5 (ix2 r h)
      = Cert.Spec.hid (xF x1) (wtF x4) (vF x5) (Cert.Spec.rowS r) h := by
  have e : idx_main_v11 (ix2 r h) = ix2 (⟨r.val, by omega⟩ : Fin 300000) h :=
    funext fun a => Fin.ext (by match a with | ⟨0, _⟩ => rfl | ⟨1, _⟩ => rfl)
  rw [val_main_v11_apply, e, hid_apply]
  rfl

/-- The I rows of the hidden layer: rows 100000 … 199999. -/
theorem v12_apply (x1 : (⟨S400000x128, .f32⟩ : BufTy).Contents (Elt Ideal)) (x4 : (⟨S128x128, .f32⟩ : BufTy).Contents (Elt Ideal))
    (x5 : (⟨S128, .f32⟩ : BufTy).Contents (Elt Ideal)) (r : Fin 100000) (h : Fin 128) :
    val_main_v12 (F := Ideal) x1 x4 x5 (ix2 r h)
      = Cert.Spec.hid (xF x1) (wtF x4) (vF x5) (Cert.Spec.rowI r) h := by
  have e : idx_main_v12 (ix2 r h) = ix2 (⟨100000 + r.val, by omega⟩ : Fin 300000) h :=
    funext fun a => Fin.ext (by match a with | ⟨0, _⟩ => rfl | ⟨1, _⟩ => rfl)
  rw [val_main_v12_apply, e, hid_apply]
  rfl

/-- The negated β column broadcast along the features: −x[300000 + r, 0]. -/
theorem v27_apply (x1 : (⟨S400000x128, .f32⟩ : BufTy).Contents (Elt Ideal)) (r : Fin 100000) (h : Fin 128) :
    val_main_v27 (F := Ideal) x1 (ix2 r h) = -(xF x1 (Cert.Spec.rowP r) 0) := by
  have e : idx_main_v1 (idx_main_v2 (idx_main_v24 (idx_main_v27 (ix2 r h)))) = ix2 (Cert.Spec.rowP r) (0 : Fin 128) :=
    funext fun a => Fin.ext (by
      match a with
      | ⟨0, _⟩ => show 300000 + r.val / 1 = 300000 + r.val; omega
      | ⟨1, _⟩ => rfl)
  rw [val_main_v27_apply, val_main_v25_apply, val_main_v24_apply, val_main_v2_apply, val_main_v1_apply, e]
  rfl

/-- The γ column broadcast along the features (its first copy): x[300000 + r, 1]. -/
theorem v31_apply (x1 : (⟨S400000x128, .f32⟩ : BufTy).Contents (Elt Ideal)) (r : Fin 100000) (h : Fin 128) :
    val_main_v31 (F := Ideal) x1 (ix2 r h) = xF x1 (Cert.Spec.rowP r) 1 := by
  have e : idx_main_v3 (idx_main_v4 (idx_main_v30 (idx_main_v31 (ix2 r h)))) = ix2 (Cert.Spec.rowP r) (1 : Fin 128) :=
    funext fun a => Fin.ext (by
      match a with
      | ⟨0, _⟩ => show 300000 + r.val / 1 = 300000 + r.val; omega
      | ⟨1, _⟩ => rfl)
  rw [val_main_v31_apply, val_main_v30_apply, val_main_v4_apply, val_main_v3_apply, e]
  rfl

/-- The γ column broadcast along the features (its second copy): x[300000 + r, 1]. -/
theorem v35_apply (x1 : (⟨S400000x128, .f32⟩ : BufTy).Contents (Elt Ideal)) (r : Fin 100000) (h : Fin 128) :
    val_main_v35 (F := Ideal) x1 (ix2 r h) = xF x1 (Cert.Spec.rowP r) 1 := by
  have e : idx_main_v3 (idx_main_v4 (idx_main_v34 (idx_main_v35 (ix2 r h)))) = ix2 (Cert.Spec.rowP r) (1 : Fin 128) :=
    funext fun a => Fin.ext (by
      match a with
      | ⟨0, _⟩ => show 300000 + r.val / 1 = 300000 + r.val; omega
      | ⟨1, _⟩ => rfl)
  rw [val_main_v35_apply, val_main_v34_apply, val_main_v4_apply, val_main_v3_apply, e]
  rfl

end Cert.ReferenceIdeal.RefValue

end
-- ==== Proof.RefValueB.lean ====
/-
  The reference program read index by index, second part: the aggregate. The gather reads row
  edge_col[e] of the I rows of the hidden layer (the negative-index normalisation of the start
  index does nothing to a word below 100000), and the scatter-add into a zero array sums these
  rows over the edges whose edge_row word is r.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA
import proofs.«416151_j72335839199610_2_alg».proof.Proof.Scatter
import proofs.«416151_j72335839199610_2_alg».proof.Proof.Words
import proofs.«416151_j72335839199610_2_alg».proof.Proof.Gen.KernelIdeal

noncomputable section

namespace Cert.ReferenceIdeal.RefValue

open Idealize.ShloMosaic Idealize.ShloMosaic.ValueIdx
open Cert.ReferenceIdeal Cert.ReferenceIdeal.Read

/-- The gather's start index of edge e: the normalised edge_col word is the word itself. -/
theorem v19_apply (x3 : (⟨S800000, .i32⟩ : BufTy).Contents (Elt Ideal))
    (hc : ∀ e : Fin 800000, (x3 (ix1 e)).toNat < 100000) (e : Fin 800000) :
    val_main_v19 (F := Ideal) x3 (ix2 e (0 : Fin 1)) = x3 (ix1 e) := by
  have e19 : idx_main_v19 (ix2 e (0 : Fin 1)) = ix1 e :=
    funext fun a => Fin.ext (by match a with | ⟨0, _⟩ => rfl)
  rw [val_main_v19_apply, val_main_v18_apply, val_main_v15_apply, val_main_v17_apply, val_main_v14_apply,
    val_main_v16_apply, val_main_c_apply, val_main_c_0_apply, e19]
  exact Cert.Words.norm_row _ (hc e)

/-- The scatter's index of edge e is the edge_row word. -/
theorem v22_apply (x2 : (⟨S800000, .i32⟩ : BufTy).Contents (Elt Ideal)) (e : Fin 800000) :
    val_main_v22 (F := Ideal) x2 (ix2 e (0 : Fin 1)) = x2 (ix1 e) := by
  have e22 : idx_main_v22 (ix2 e (0 : Fin 1)) = ix1 e :=
    funext fun a => Fin.ext (by match a with | ⟨0, _⟩ => rfl)
  rw [val_main_v22_apply, e22]

/-- The gathered rows: edge e carries row edge_col[e] of the I rows of the hidden layer. -/
theorem v20_apply (x1 : (⟨S400000x128, .f32⟩ : BufTy).Contents (Elt Ideal)) (x3 : (⟨S800000, .i32⟩ : BufTy).Contents (Elt Ideal)) (x4 : (⟨S128x128, .f32⟩ : BufTy).Contents (Elt Ideal)) (x5 : (⟨S128, .f32⟩ : BufTy).Contents (Elt Ideal))
    (hc : ∀ e : Fin 800000, (x3 (ix1 e)).toNat < 100000) (e : Fin 800000) (h : Fin 128) :
    val_main_v20 (F := Ideal) x1 x3 x4 x5 (ix2 e h)
      = Cert.Spec.hidI (xF x1) (wtF x4) (vF x5) ⟨(x3 (ix1 e)).toNat, hc e⟩ h := by
  have hcol : ∀ e : Fin 800000, (val_main_v19 (F := Ideal) x3 (ix2 e (0 : Fin 1))).toInt = (((x3 (ix1 e)).toNat : ℕ) : ℤ) := fun e => by
    rw [v19_apply x3 hc e]; exact Cert.Words.toInt_small _ (hc e)
  unfold val_main_v20
  rw [Cert.Scat.ref_gather_apply _ _ (fun e => (x3 (ix1 e)).toNat) hcol hc e h, v12_apply]
  rfl

/-- The scatter-add at the ideal instance is the exact accumulation. -/
theorem v23_eq (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) :
    val_main_v23 (F := Ideal) x1 x2 x3 x4 x5
      = Ideal.hostScatterAdd scatter_S100000x128_S800000x1_S800000x128_1_0_0_1 (val_main_v21 (F := Ideal))
          (val_main_v22 (F := Ideal) x2) (val_main_v20 (F := Ideal) x1 x3 x4 x5) := rfl

/-- THE AGGREGATE: element (r, h) of the scatter-add is zero plus the sum, over the edges whose edge_row word is r,
    of the I row of the hidden layer at the edge's edge_col word. -/
theorem v23_apply (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal))
    (hr : ∀ e : Fin 800000, (x2 (ix1 e)).toNat < 100000) (hc : ∀ e : Fin 800000, (x3 (ix1 e)).toNat < 100000)
    (r : Fin 100000) (h : Fin 128) :
    val_main_v23 (F := Ideal) x1 x2 x3 x4 x5 (ix2 r h)
      = Cert.Spec.AIedges (fun e => (x2 (ix1 e)).toNat) (fun e => (x3 (ix1 e)).toNat) hc
          (Cert.Spec.hidI (xF x1) (wtF x4) (vF x5)) r h := by
  have hrow : ∀ e : Fin 800000, (val_main_v22 (F := Ideal) x2 (ix2 e (0 : Fin 1))).toInt = (((x2 (ix1 e)).toNat : ℕ) : ℤ) := fun e => by
    rw [v22_apply]; exact Cert.Words.toInt_small _ (hr e)
  rw [v23_eq, Cert.Scat.ref_scatter_apply _ _ _ (fun e => (x2 (ix1 e)).toNat) hrow r h, val_main_v21_apply, val_main_cst_apply]
  show Ideal.ofBits .f32 0x00000000#32 + _ = _
  rw [Ideal.ofBits_zero_f32]
  unfold Cert.Spec.AIedges
  refine congrArg (fun z => (0 : EReal) + z) (Finset.sum_congr rfl fun e _ => ?_)
  exact v20_apply x1 x3 x4 x5 hc e h

end Cert.ReferenceIdeal.RefValue

end
-- ==== Proof.RefValueC.lean ====
/-
  The reference program read index by index, third part: the three derivative arrays
      dS = (−β)·(AI·S),   dI = −dS − γ·I,   dR = γ·I
  at row r and feature h, over the aggregate of the edge list.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA
import proofs.«416151_j72335839199610_2_alg».proof.Proof.RefValueB

noncomputable section

namespace Cert.ReferenceIdeal.RefValue

open Idealize.ShloMosaic Idealize.ShloMosaic.ValueIdx
open Cert.ReferenceIdeal Cert.ReferenceIdeal.Read

/-- The reference's aggregate: the edge-list sum of the I rows of the hidden layer. -/
abbrev AIr (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal))
    (hc : ∀ e : Fin 800000, (x3 (ix1 e)).toNat < 100000) : Fin 100000 → Fin 128 → EReal :=
  Cert.Spec.AIedges (fun e => (x2 (ix1 e)).toNat) (fun e => (x3 (ix1 e)).toNat) hc
    (Cert.Spec.hidI (xF x1) (wtF x4) (vF x5))

/-- dS: the negated β of the row times (the aggregate times the S row of the hidden layer). -/
theorem v28_apply (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal))
    (hr : ∀ e : Fin 800000, (x2 (ix1 e)).toNat < 100000) (hc : ∀ e : Fin 800000, (x3 (ix1 e)).toNat < 100000)
    (r : Fin 100000) (h : Fin 128) :
    val_main_v28 (F := Ideal) x1 x2 x3 x4 x5 (ix2 r h)
      = Cert.Spec.dS (xF x1) (wtF x4) (vF x5) (AIr x1 x2 x3 x4 x5 hc) r h := by
  rw [val_main_v28_apply, val_main_v26_apply, v27_apply, v23_apply x1 x2 x3 x4 x5 hr hc, v11_apply]
  rfl

/-- dR: γ of the row times the I row of the hidden layer. -/
theorem v36_apply (x1 : (⟨S400000x128, .f32⟩ : BufTy).Contents (Elt Ideal)) (x4 : (⟨S128x128, .f32⟩ : BufTy).Contents (Elt Ideal)) (x5 : (⟨S128, .f32⟩ : BufTy).Contents (Elt Ideal)) (r : Fin 100000) (h : Fin 128) :
    val_main_v36 (F := Ideal) x1 x4 x5 (ix2 r h) = Cert.Spec.dR (xF x1) (wtF x4) (vF x5) r h := by
  rw [val_main_v36_apply, v35_apply, v12_apply]
  rfl

/-- dI: minus dS, minus γ of the row times the I row of the hidden layer. -/
theorem v33_apply (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal))
    (hr : ∀ e : Fin 800000, (x2 (ix1 e)).toNat < 100000) (hc : ∀ e : Fin 800000, (x3 (ix1 e)).toNat < 100000)
    (r : Fin 100000) (h : Fin 128) :
    val_main_v33 (F := Ideal) x1 x2 x3 x4 x5 (ix2 r h)
      = Cert.Spec.dI (xF x1) (wtF x4) (vF x5) (AIr x1 x2 x3 x4 x5 hc) r h := by
  rw [val_main_v33_apply, val_main_v29_apply, v28_apply x1 x2 x3 x4 x5 hr hc, val_main_v32_apply, v31_apply, v12_apply]
  rfl

end Cert.ReferenceIdeal.RefValue

end
-- ==== Proof.RefValueD.lean ====
/-
  Four arrays of 100000 rows joined along the rows, read at row r and feature h: the piece whose
  span of rows holds r, at the row counted from the start of that span.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec

noncomputable section

namespace Cert.ReferenceIdeal.RefValue

open Idealize.ShloMosaic Idealize.ShloMosaic.ValueIdx
open Cert.ReferenceIdeal Cert.ReferenceIdeal.Read Cert.ReferenceIdeal.Gen

variable {α : Type}

/-- Rows 0 … 99999 come from the first piece. -/
theorem concat4_apply0 (y0 y1 y2 y3 : S100000x128.Idx → α) (r : Fin 400000) (h : Fin 128) (h0 : r.val < 100000) :
    concatenate S400000x128 0 [⟨S100000x128, y0⟩, ⟨S100000x128, y1⟩, ⟨S100000x128, y2⟩, ⟨S100000x128, y3⟩]
        concatenates_S100000x128_S100000x128_S100000x128_S100000x128_S400000x128_d0 (ix2 r h)
      = y0 (ix2 ⟨r.val, h0⟩ h) := by
  refine concatenate_apply_piece (0 : Fin S400000x128.rank) [⟨S100000x128, y0⟩, ⟨S100000x128, y1⟩, ⟨S100000x128, y2⟩, ⟨S100000x128, y3⟩]
    concatenates_S100000x128_S100000x128_S100000x128_S100000x128_S400000x128_d0 (ix2 r h) 0 (by simp) S100000x128 y0 rfl rfl 0 (by simp)
    (ix2 ⟨r.val, h0⟩ h) ?_ ?_
  · intro b hb
    match b with
    | ⟨0, _⟩ => exact absurd rfl hb
    | ⟨1, _⟩ => rfl
  · show 0 + r.val = r.val; omega

/-- Rows 100000 … 199999 come from the second piece, 100000 rows down. -/
theorem concat4_apply1 (y0 y1 y2 y3 : S100000x128.Idx → α) (r : Fin 400000) (h : Fin 128) (h0 : ¬ r.val < 100000) (h1 : r.val < 200000) :
    concatenate S400000x128 0 [⟨S100000x128, y0⟩, ⟨S100000x128, y1⟩, ⟨S100000x128, y2⟩, ⟨S100000x128, y3⟩]
        concatenates_S100000x128_S100000x128_S100000x128_S100000x128_S400000x128_d0 (ix2 r h)
      = y1 (ix2 ⟨r.val - 100000, by omega⟩ h) := by
  refine concatenate_apply_piece (0 : Fin S400000x128.rank) [⟨S100000x128, y0⟩, ⟨S100000x128, y1⟩, ⟨S100000x128, y2⟩, ⟨S100000x128, y3⟩]
    concatenates_S100000x128_S100000x128_S100000x128_S100000x128_S400000x128_d0 (ix2 r h) 1 (by simp) S100000x128 y1 rfl rfl 100000 (by simp)
    (ix2 ⟨r.val - 100000, by omega⟩ h) ?_ ?_
  · intro b hb
    match b with
    | ⟨0, _⟩ => exact absurd rfl hb
    | ⟨1, _⟩ => rfl
  · show 100000 + (r.val - 100000) = r.val; omega

/-- Rows 200000 … 299999 come from the third piece, 200000 rows down. -/
theorem concat4_apply2 (y0 y1 y2 y3 : S100000x128.Idx → α) (r : Fin 400000) (h : Fin 128) (h1 : ¬ r.val < 200000) (h2 : r.val < 300000) :
    concatenate S400000x128 0 [⟨S100000x128, y0⟩, ⟨S100000x128, y1⟩, ⟨S100000x128, y2⟩, ⟨S100000x128, y3⟩]
        concatenates_S100000x128_S100000x128_S100000x128_S100000x128_S400000x128_d0 (ix2 r h)
      = y2 (ix2 ⟨r.val - 200000, by omega⟩ h) := by
  refine concatenate_apply_piece (0 : Fin S400000x128.rank) [⟨S100000x128, y0⟩, ⟨S100000x128, y1⟩, ⟨S100000x128, y2⟩, ⟨S100000x128, y3⟩]
    concatenates_S100000x128_S100000x128_S100000x128_S100000x128_S400000x128_d0 (ix2 r h) 2 (by simp) S100000x128 y2 rfl rfl 200000 (by simp)
    (ix2 ⟨r.val - 200000, by omega⟩ h) ?_ ?_
  · intro b hb
    match b with
    | ⟨0, _⟩ => exact absurd rfl hb
    | ⟨1, _⟩ => rfl
  · show 200000 + (r.val - 200000) = r.val; omega

/-- Rows 300000 … 399999 come from the fourth piece, 300000 rows down. -/
theorem concat4_apply3 (y0 y1 y2 y3 : S100000x128.Idx → α) (r : Fin 400000) (h : Fin 128) (h2 : ¬ r.val < 300000) :
    concatenate S400000x128 0 [⟨S100000x128, y0⟩, ⟨S100000x128, y1⟩, ⟨S100000x128, y2⟩, ⟨S100000x128, y3⟩]
        concatenates_S100000x128_S100000x128_S100000x128_S100000x128_S400000x128_d0 (ix2 r h)
      = y3 (ix2 ⟨r.val - 300000, by have := r.isLt; omega⟩ h) := by
  refine concatenate_apply_piece (0 : Fin S400000x128.rank) [⟨S100000x128, y0⟩, ⟨S100000x128, y1⟩, ⟨S100000x128, y2⟩, ⟨S100000x128, y3⟩]
    concatenates_S100000x128_S100000x128_S100000x128_S100000x128_S400000x128_d0 (ix2 r h) 3 (by simp) S100000x128 y3 rfl rfl 300000 (by simp)
    (ix2 ⟨r.val - 300000, by have := r.isLt; omega⟩ h) ?_ ?_
  · intro b hb
    match b with
    | ⟨0, _⟩ => exact absurd rfl hb
    | ⟨1, _⟩ => rfl
  · show 300000 + (r.val - 300000) = r.val; omega

end Cert.ReferenceIdeal.RefValue

end
-- ==== Proof.RefValueLnS.lean ====
/-
  The reference program read index by index: the layer normalisation of the first derivative array (%28 of the program), as the
  specification's mean, variance and normalised row of the array's row r.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA

noncomputable section

namespace Cert.ReferenceIdeal.RefValue

open Idealize.ShloMosaic Idealize.ShloMosaic.ValueIdx
open Cert.ReferenceIdeal Cert.ReferenceIdeal.Read

/-! ## The normalisation of the first derivative array (%28 of the program) -/

/-- The feature mean of row r of the first derivative array (%28 of the program): the row sum (zero plus the sum over the 128 features) divided by the literal 128. -/
theorem lnS_mean (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (r : Fin 100000) :
    val_main_v40 (F := Ideal) x1 x2 x3 x4 x5 (ix2 r (0 : Fin 1)) = Cert.Spec.mean (fun k : Fin 128 => val_main_v28 (F := Ideal) x1 x2 x3 x4 x5 (ix2 r k)) := by
  have eb : idx_main_v38 (ix2 r (0 : Fin 1)) = ix1 r := funext fun a => Fin.ext (by match a with | ⟨0, _⟩ => rfl)
  have es : ∀ k : Fin 128, idx_main_v37 (ix1 r) k = ix2 r k := fun k => funext fun a => Fin.ext (by match a with | ⟨0, _⟩ => rfl | ⟨1, _⟩ => rfl)
  rw [val_main_v40_apply, val_main_v38_apply, val_main_v39_apply, val_main_cst_2_apply, eb, val_main_v37_apply, val_main_cst_1_apply]
  simp only [es]
  show Ideal.div (Ideal.ofBits .f32 0x00000000#32 + ∑ k : Fin 128, val_main_v28 (F := Ideal) x1 x2 x3 x4 x5 (ix2 r k)) (Ideal.ofBits .f32 0x43000000#32) = _
  rw [Ideal.ofBits_zero_f32, zero_add]
  rfl

/-- The feature variance of row r of the first derivative array (%28 of the program): the sum of the squared deviations from the mean, divided by the literal 128. -/
theorem lnS_var (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (r : Fin 100000) :
    val_main_v47 (F := Ideal) x1 x2 x3 x4 x5 (ix2 r (0 : Fin 1)) = Cert.Spec.var (fun k : Fin 128 => val_main_v28 (F := Ideal) x1 x2 x3 x4 x5 (ix2 r k)) := by
  have eb : idx_main_v45 (ix2 r (0 : Fin 1)) = ix1 r := funext fun a => Fin.ext (by match a with | ⟨0, _⟩ => rfl)
  have es : ∀ k : Fin 128, idx_main_v44 (ix1 r) k = ix2 r k := fun k => funext fun a => Fin.ext (by match a with | ⟨0, _⟩ => rfl | ⟨1, _⟩ => rfl)
  have em : ∀ k : Fin 128, idx_main_v41 (ix2 r k) = ix2 r (0 : Fin 1) := fun k => funext fun a => Fin.ext (by match a with | ⟨0, _⟩ => rfl | ⟨1, _⟩ => rfl)
  rw [val_main_v47_apply, val_main_v45_apply, val_main_v46_apply, val_main_cst_4_apply, eb, val_main_v44_apply, val_main_cst_3_apply]
  simp only [es, val_main_v43_apply, val_main_v42_apply, val_main_v41_apply, em, lnS_mean]
  show Ideal.div (Ideal.ofBits .f32 0x00000000#32 + ∑ k : Fin 128,
      (val_main_v28 (F := Ideal) x1 x2 x3 x4 x5 (ix2 r k) - Cert.Spec.mean (fun k : Fin 128 => val_main_v28 (F := Ideal) x1 x2 x3 x4 x5 (ix2 r k))) * (val_main_v28 (F := Ideal) x1 x2 x3 x4 x5 (ix2 r k) - Cert.Spec.mean (fun k : Fin 128 => val_main_v28 (F := Ideal) x1 x2 x3 x4 x5 (ix2 r k))))
    (Ideal.ofBits .f32 0x43000000#32) = _
  rw [Ideal.ofBits_zero_f32, zero_add]
  rfl

/-- Row r of the first derivative array (%28 of the program) normalised: the deviation from the mean times the reciprocal square root of variance plus ε,
    scaled by ln_w and shifted by ln_b (both broadcast along rows). -/
theorem lnS_out (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (x6 x7 : (⟨S128, .f32⟩ : BufTy).Contents (Elt Ideal)) (r : Fin 100000) (h : Fin 128) :
    val_main_v60 (F := Ideal) x1 x2 x3 x4 x5 x6 x7 (ix2 r h) = Cert.Spec.ln (fun k : Fin 128 => val_main_v28 (F := Ideal) x1 x2 x3 x4 x5 (ix2 r k)) (vF x6) (vF x7) h := by
  have em : idx_main_v48 (ix2 r h) = ix2 r (0 : Fin 1) := funext fun a => Fin.ext (by match a with | ⟨0, _⟩ => rfl | ⟨1, _⟩ => rfl)
  have er : idx_main_v53 (ix2 r h) = ix2 r (0 : Fin 1) := funext fun a => Fin.ext (by match a with | ⟨0, _⟩ => rfl | ⟨1, _⟩ => rfl)
  have ew : idx_main_v55 (idx_main_v56 (ix2 r h)) = ix1 h := funext fun a => Fin.ext (by match a with | ⟨0, _⟩ => rfl)
  have eb : idx_main_v58 (idx_main_v59 (ix2 r h)) = ix1 h := funext fun a => Fin.ext (by match a with | ⟨0, _⟩ => rfl)
  rw [val_main_v60_apply, val_main_v57_apply, val_main_v54_apply, val_main_v49_apply, val_main_v48_apply, em, lnS_mean,
    val_main_v53_apply, er, val_main_v52_apply, val_main_v51_apply, lnS_var, val_main_v50_apply, val_main_cst_5_apply,
    val_main_v56_apply, val_main_v55_apply, ew, val_main_v59_apply, val_main_v58_apply, eb]
  rfl

end Cert.ReferenceIdeal.RefValue

end
-- ==== Proof.RefValueLnI.lean ====
/-
  The reference program read index by index: the layer normalisation of the second derivative array (%33 of the program), as the
  specification's mean, variance and normalised row of the array's row r.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA

noncomputable section

namespace Cert.ReferenceIdeal.RefValue

open Idealize.ShloMosaic Idealize.ShloMosaic.ValueIdx
open Cert.ReferenceIdeal Cert.ReferenceIdeal.Read

/-! ## The normalisation of the second derivative array (%33 of the program) -/

/-- The feature mean of row r of the second derivative array (%33 of the program): the row sum (zero plus the sum over the 128 features) divided by the literal 128. -/
theorem lnI_mean (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (r : Fin 100000) :
    val_main_v64 (F := Ideal) x1 x2 x3 x4 x5 (ix2 r (0 : Fin 1)) = Cert.Spec.mean (fun k : Fin 128 => val_main_v33 (F := Ideal) x1 x2 x3 x4 x5 (ix2 r k)) := by
  have eb : idx_main_v62 (ix2 r (0 : Fin 1)) = ix1 r := funext fun a => Fin.ext (by match a with | ⟨0, _⟩ => rfl)
  have es : ∀ k : Fin 128, idx_main_v61 (ix1 r) k = ix2 r k := fun k => funext fun a => Fin.ext (by match a with | ⟨0, _⟩ => rfl | ⟨1, _⟩ => rfl)
  rw [val_main_v64_apply, val_main_v62_apply, val_main_v63_apply, val_main_cst_7_apply, eb, val_main_v61_apply, val_main_cst_6_apply]
  simp only [es]
  show Ideal.div (Ideal.ofBits .f32 0x00000000#32 + ∑ k : Fin 128, val_main_v33 (F := Ideal) x1 x2 x3 x4 x5 (ix2 r k)) (Ideal.ofBits .f32 0x43000000#32) = _
  rw [Ideal.ofBits_zero_f32, zero_add]
  rfl

/-- The feature variance of row r of the second derivative array (%33 of the program): the sum of the squared deviations from the mean, divided by the literal 128. -/
theorem lnI_var (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (r : Fin 100000) :
    val_main_v71 (F := Ideal) x1 x2 x3 x4 x5 (ix2 r (0 : Fin 1)) = Cert.Spec.var (fun k : Fin 128 => val_main_v33 (F := Ideal) x1 x2 x3 x4 x5 (ix2 r k)) := by
  have eb : idx_main_v69 (ix2 r (0 : Fin 1)) = ix1 r := funext fun a => Fin.ext (by match a with | ⟨0, _⟩ => rfl)
  have es : ∀ k : Fin 128, idx_main_v68 (ix1 r) k = ix2 r k := fun k => funext fun a => Fin.ext (by match a with | ⟨0, _⟩ => rfl | ⟨1, _⟩ => rfl)
  have em : ∀ k : Fin 128, idx_main_v65 (ix2 r k) = ix2 r (0 : Fin 1) := fun k => funext fun a => Fin.ext (by match a with | ⟨0, _⟩ => rfl | ⟨1, _⟩ => rfl)
  rw [val_main_v71_apply, val_main_v69_apply, val_main_v70_apply, val_main_cst_9_apply, eb, val_main_v68_apply, val_main_cst_8_apply]
  simp only [es, val_main_v67_apply, val_main_v66_apply, val_main_v65_apply, em, lnI_mean]
  show Ideal.div (Ideal.ofBits .f32 0x00000000#32 + ∑ k : Fin 128,
      (val_main_v33 (F := Ideal) x1 x2 x3 x4 x5 (ix2 r k) - Cert.Spec.mean (fun k : Fin 128 => val_main_v33 (F := Ideal) x1 x2 x3 x4 x5 (ix2 r k))) * (val_main_v33 (F := Ideal) x1 x2 x3 x4 x5 (ix2 r k) - Cert.Spec.mean (fun k : Fin 128 => val_main_v33 (F := Ideal) x1 x2 x3 x4 x5 (ix2 r k))))
    (Ideal.ofBits .f32 0x43000000#32) = _
  rw [Ideal.ofBits_zero_f32, zero_add]
  rfl

/-- Row r of the second derivative array (%33 of the program) normalised: the deviation from the mean times the reciprocal square root of variance plus ε,
    scaled by ln_w and shifted by ln_b (both broadcast along rows). -/
theorem lnI_out (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 : (⟨S128, .f32⟩ : BufTy).Contents (Elt Ideal)) (x6 x7 : (⟨S128, .f32⟩ : BufTy).Contents (Elt Ideal)) (r : Fin 100000) (h : Fin 128) :
    val_main_v84 (F := Ideal) x1 x2 x3 x4 x5 x6 x7 (ix2 r h) = Cert.Spec.ln (fun k : Fin 128 => val_main_v33 (F := Ideal) x1 x2 x3 x4 x5 (ix2 r k)) (vF x6) (vF x7) h := by
  have em : idx_main_v72 (ix2 r h) = ix2 r (0 : Fin 1) := funext fun a => Fin.ext (by match a with | ⟨0, _⟩ => rfl | ⟨1, _⟩ => rfl)
  have er : idx_main_v77 (ix2 r h) = ix2 r (0 : Fin 1) := funext fun a => Fin.ext (by match a with | ⟨0, _⟩ => rfl | ⟨1, _⟩ => rfl)
  have ew : idx_main_v79 (idx_main_v80 (ix2 r h)) = ix1 h := funext fun a => Fin.ext (by match a with | ⟨0, _⟩ => rfl)
  have eb : idx_main_v82 (idx_main_v83 (ix2 r h)) = ix1 h := funext fun a => Fin.ext (by match a with | ⟨0, _⟩ => rfl)
  rw [val_main_v84_apply, val_main_v81_apply, val_main_v78_apply, val_main_v73_apply, val_main_v72_apply, em, lnI_mean,
    val_main_v77_apply, er, val_main_v76_apply, val_main_v75_apply, lnI_var, val_main_v74_apply, val_main_cst_10_apply,
    val_main_v80_apply, val_main_v79_apply, ew, val_main_v83_apply, val_main_v82_apply, eb]
  rfl

end Cert.ReferenceIdeal.RefValue

end
-- ==== Proof.RefValueLnR.lean ====
/-
  The reference program read index by index: the layer normalisation of the third derivative array (%36 of the program), as the
  specification's mean, variance and normalised row of the array's row r.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA

noncomputable section

namespace Cert.ReferenceIdeal.RefValue

open Idealize.ShloMosaic Idealize.ShloMosaic.ValueIdx
open Cert.ReferenceIdeal Cert.ReferenceIdeal.Read

/-! ## The normalisation of the third derivative array (%36 of the program) -/

/-- The feature mean of row r of the third derivative array (%36 of the program): the row sum (zero plus the sum over the 128 features) divided by the literal 128. -/
theorem lnR_mean (x1 : (⟨S400000x128, .f32⟩ : BufTy).Contents (Elt Ideal)) (x4 : (⟨S128x128, .f32⟩ : BufTy).Contents (Elt Ideal)) (x5 : (⟨S128, .f32⟩ : BufTy).Contents (Elt Ideal)) (r : Fin 100000) :
    val_main_v88 (F := Ideal) x1 x4 x5 (ix2 r (0 : Fin 1)) = Cert.Spec.mean (fun k : Fin 128 => val_main_v36 (F := Ideal) x1 x4 x5 (ix2 r k)) := by
  have eb : idx_main_v86 (ix2 r (0 : Fin 1)) = ix1 r := funext fun a => Fin.ext (by match a with | ⟨0, _⟩ => rfl)
  have es : ∀ k : Fin 128, idx_main_v85 (ix1 r) k = ix2 r k := fun k => funext fun a => Fin.ext (by match a with | ⟨0, _⟩ => rfl | ⟨1, _⟩ => rfl)
  rw [val_main_v88_apply, val_main_v86_apply, val_main_v87_apply, val_main_cst_12_apply, eb, val_main_v85_apply, val_main_cst_11_apply]
  simp only [es]
  show Ideal.div (Ideal.ofBits .f32 0x00000000#32 + ∑ k : Fin 128, val_main_v36 (F := Ideal) x1 x4 x5 (ix2 r k)) (Ideal.ofBits .f32 0x43000000#32) = _
  rw [Ideal.ofBits_zero_f32, zero_add]
  rfl

/-- The feature variance of row r of the third derivative array (%36 of the program): the sum of the squared deviations from the mean, divided by the literal 128. -/
theorem lnR_var (x1 : (⟨S400000x128, .f32⟩ : BufTy).Contents (Elt Ideal)) (x4 : (⟨S128x128, .f32⟩ : BufTy).Contents (Elt Ideal)) (x5 : (⟨S128, .f32⟩ : BufTy).Contents (Elt Ideal)) (r : Fin 100000) :
    val_main_v95 (F := Ideal) x1 x4 x5 (ix2 r (0 : Fin 1)) = Cert.Spec.var (fun k : Fin 128 => val_main_v36 (F := Ideal) x1 x4 x5 (ix2 r k)) := by
  have eb : idx_main_v93 (ix2 r (0 : Fin 1)) = ix1 r := funext fun a => Fin.ext (by match a with | ⟨0, _⟩ => rfl)
  have es : ∀ k : Fin 128, idx_main_v92 (ix1 r) k = ix2 r k := fun k => funext fun a => Fin.ext (by match a with | ⟨0, _⟩ => rfl | ⟨1, _⟩ => rfl)
  have em : ∀ k : Fin 128, idx_main_v89 (ix2 r k) = ix2 r (0 : Fin 1) := fun k => funext fun a => Fin.ext (by match a with | ⟨0, _⟩ => rfl | ⟨1, _⟩ => rfl)
  rw [val_main_v95_apply, val_main_v93_apply, val_main_v94_apply, val_main_cst_14_apply, eb, val_main_v92_apply, val_main_cst_13_apply]
  simp only [es, val_main_v91_apply, val_main_v90_apply, val_main_v89_apply, em, lnR_mean]
  show Ideal.div (Ideal.ofBits .f32 0x00000000#32 + ∑ k : Fin 128,
      (val_main_v36 (F := Ideal) x1 x4 x5 (ix2 r k) - Cert.Spec.mean (fun k : Fin 128 => val_main_v36 (F := Ideal) x1 x4 x5 (ix2 r k))) * (val_main_v36 (F := Ideal) x1 x4 x5 (ix2 r k) - Cert.Spec.mean (fun k : Fin 128 => val_main_v36 (F := Ideal) x1 x4 x5 (ix2 r k))))
    (Ideal.ofBits .f32 0x43000000#32) = _
  rw [Ideal.ofBits_zero_f32, zero_add]
  rfl

/-- Row r of the third derivative array (%36 of the program) normalised: the deviation from the mean times the reciprocal square root of variance plus ε,
    scaled by ln_w and shifted by ln_b (both broadcast along rows). -/
theorem lnR_out (x1 : (⟨S400000x128, .f32⟩ : BufTy).Contents (Elt Ideal)) (x4 : (⟨S128x128, .f32⟩ : BufTy).Contents (Elt Ideal)) (x5 : (⟨S128, .f32⟩ : BufTy).Contents (Elt Ideal)) (x6 x7 : (⟨S128, .f32⟩ : BufTy).Contents (Elt Ideal)) (r : Fin 100000) (h : Fin 128) :
    val_main_v108 (F := Ideal) x1 x4 x5 x6 x7 (ix2 r h) = Cert.Spec.ln (fun k : Fin 128 => val_main_v36 (F := Ideal) x1 x4 x5 (ix2 r k)) (vF x6) (vF x7) h := by
  have em : idx_main_v96 (ix2 r h) = ix2 r (0 : Fin 1) := funext fun a => Fin.ext (by match a with | ⟨0, _⟩ => rfl | ⟨1, _⟩ => rfl)
  have er : idx_main_v101 (ix2 r h) = ix2 r (0 : Fin 1) := funext fun a => Fin.ext (by match a with | ⟨0, _⟩ => rfl | ⟨1, _⟩ => rfl)
  have ew : idx_main_v103 (idx_main_v104 (ix2 r h)) = ix1 h := funext fun a => Fin.ext (by match a with | ⟨0, _⟩ => rfl)
  have eb : idx_main_v106 (idx_main_v107 (ix2 r h)) = ix1 h := funext fun a => Fin.ext (by match a with | ⟨0, _⟩ => rfl)
  rw [val_main_v108_apply, val_main_v105_apply, val_main_v102_apply, val_main_v97_apply, val_main_v96_apply, em, lnR_mean,
    val_main_v101_apply, er, val_main_v100_apply, val_main_v99_apply, lnR_var, val_main_v98_apply, val_main_cst_15_apply,
    val_main_v104_apply, val_main_v103_apply, ew, val_main_v107_apply, val_main_v106_apply, eb]
  rfl

end Cert.ReferenceIdeal.RefValue

end
-- ==== Proof.RefValue.lean ====
/-
  THE REFERENCE IS THE SPECIFICATION, index by index. The result is four arrays of 100000 rows joined along
  the rows: the three derivative arrays dS, dI, dR, each normalised along the features, and the rate rows of x.
  At row r the joined array reads the piece whose span holds r; each normalised piece is the specification's
  normalised row of the corresponding derivative, whose entries are the specification's dS, dI, dR over the
  aggregate of the edge list.
-/
import proofs.«416151_j72335839199610_2_alg».proof.Proof.Gen.ReferenceIdeal.Read
import Idealize.ShloMosaic.Lib.ValueIdx
import Idealize.ShloMosaic.Lib.Pipeline.Value
import Idealize.ShloMosaic.PureOps.Ideal.Laws
import proofs.«416151_j72335839199610_2_alg».proof.Proof.Spec
import proofs.«416151_j72335839199610_2_alg».proof.Proof.RefValueA
import proofs.«416151_j72335839199610_2_alg».proof.Proof.RefValueB
import proofs.«416151_j72335839199610_2_alg».proof.Proof.RefValueC
import proofs.«416151_j72335839199610_2_alg».proof.Proof.RefValueD
import proofs.«416151_j72335839199610_2_alg».proof.Proof.RefValueLnS
import proofs.«416151_j72335839199610_2_alg».proof.Proof.RefValueLnI
import proofs.«416151_j72335839199610_2_alg».proof.Proof.RefValueLnR

noncomputable section

namespace Cert.ReferenceIdeal.RefValue

open Idealize.ShloMosaic Idealize.ShloMosaic.ValueIdx
open Cert.ReferenceIdeal Cert.ReferenceIdeal.Read Cert.ReferenceIdeal.Gen

/-- The result as the join of its four pieces. -/
theorem v110_eq (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 x6 x7 : (⟨S128, .f32⟩ : BufTy).Contents (Elt Ideal)) :
    val_main_v110 (F := Ideal) x1 x2 x3 x4 x5 x6 x7
      = concatenate S400000x128 0 [⟨S100000x128, val_main_v60 (F := Ideal) x1 x2 x3 x4 x5 x6 x7⟩,
          ⟨S100000x128, val_main_v84 (F := Ideal) x1 x2 x3 x4 x5 x6 x7⟩,
          ⟨S100000x128, val_main_v108 (F := Ideal) x1 x4 x5 x6 x7⟩,
          ⟨S100000x128, val_main_v109 (F := Ideal) x1⟩]
          concatenates_S100000x128_S100000x128_S100000x128_S100000x128_S400000x128_d0 := rfl

/-- The rate rows passed through: row r of the last piece is row 300000 + r of x. -/
theorem v109_apply (x1 : (⟨S400000x128, .f32⟩ : BufTy).Contents (Elt Ideal)) (r : Fin 100000) (h : Fin 128) :
    val_main_v109 (F := Ideal) x1 (ix2 r h) = xF x1 (Cert.Spec.rowP r) h := by
  have e : idx_main_v109 (ix2 r h) = ix2 (Cert.Spec.rowP r) h :=
    funext fun a => Fin.ext (by match a with | ⟨0, _⟩ => rfl | ⟨1, _⟩ => rfl)
  rw [val_main_v109_apply, e]
  rfl

/-- THE REFERENCE'S RESULT AT (r, h) IS THE SPECIFICATION'S, at the aggregate of the edge list. -/
theorem result_eq (x1 : (⟨S400000x128, .f32⟩ : BufTy).Contents (Elt Ideal)) (x2 x3 : (⟨S800000, .i32⟩ : BufTy).Contents (Elt Ideal)) (x4 : (⟨S128x128, .f32⟩ : BufTy).Contents (Elt Ideal)) (x5 x6 x7 : (⟨S128, .f32⟩ : BufTy).Contents (Elt Ideal))
    (hr : ∀ e : Fin 800000, (x2 (ix1 e)).toNat < 100000) (hc : ∀ e : Fin 800000, (x3 (ix1 e)).toNat < 100000)
    (r : Fin 400000) (h : Fin 128) :
    Cert.ReferenceIdeal.Read.val_main_v110 (F := Ideal) x1 x2 x3 x4 x5 x6 x7 (ix2 r h)
      = Cert.Spec.out (xF x1) (wtF x4) (vF x5) (vF x6) (vF x7)
          (Cert.Spec.AIedges (fun e => (x2 (ix1 e)).toNat) (fun e => (x3 (ix1 e)).toNat) hc
            (Cert.Spec.hidI (xF x1) (wtF x4) (vF x5))) r h := by
  rw [v110_eq]
  unfold Cert.Spec.out
  by_cases h0 : r.val < 100000
  · have hv : (fun k : Fin 128 => val_main_v28 (F := Ideal) x1 x2 x3 x4 x5 (ix2 (⟨r.val, h0⟩ : Fin 100000) k))
        = Cert.Spec.dS (xF x1) (wtF x4) (vF x5) (AIr x1 x2 x3 x4 x5 hc) ⟨r.val, h0⟩ :=
      funext fun k => v28_apply x1 x2 x3 x4 x5 hr hc ⟨r.val, h0⟩ k
    rw [dif_pos h0, concat4_apply0 _ _ _ _ r h h0, lnS_out, hv]
  · by_cases h1 : r.val < 200000
    · have hv : (fun k : Fin 128 => val_main_v33 (F := Ideal) x1 x2 x3 x4 x5 (ix2 (⟨r.val - 100000, by omega⟩ : Fin 100000) k))
          = Cert.Spec.dI (xF x1) (wtF x4) (vF x5) (AIr x1 x2 x3 x4 x5 hc) ⟨r.val - 100000, by omega⟩ :=
        funext fun k => v33_apply x1 x2 x3 x4 x5 hr hc ⟨r.val - 100000, by omega⟩ k
      rw [dif_neg h0, dif_pos h1, concat4_apply1 _ _ _ _ r h h0 h1, lnI_out, hv]
    · by_cases h2 : r.val < 300000
      · have hv : (fun k : Fin 128 => val_main_v36 (F := Ideal) x1 x4 x5 (ix2 (⟨r.val - 200000, by omega⟩ : Fin 100000) k))
            = Cert.Spec.dR (xF x1) (wtF x4) (vF x5) ⟨r.val - 200000, by omega⟩ :=
          funext fun k => v36_apply x1 x4 x5 ⟨r.val - 200000, by omega⟩ k
        rw [dif_neg h0, dif_neg h1, dif_pos h2, concat4_apply2 _ _ _ _ r h h1 h2, lnR_out, hv]
      · rw [dif_neg h0, dif_neg h1, dif_neg h2, concat4_apply3 _ _ _ _ r h h2, v109_apply]
        have e : Cert.Spec.rowP (⟨r.val - 300000, by have := r.isLt; omega⟩ : Fin 100000) = r :=
          Fin.ext (by show 300000 + (r.val - 300000) = r.val; omega)
        rw [e]

end Cert.ReferenceIdeal.RefValue

end
-- ==== Proof.PreFacts.lean ====
/-
  The precondition, decoded at one edge. The predicate is a conjunction of "every entry" statements, each a
  reduction by `and` of an elementwise comparison, the conjunction a chain of `and` on single bits. A chain of `and`
  on bits that is 1 has every link 1; a reduction by `and` over all axes that is 1 had a 1 at every index. Read at
  edge e this gives the five integer statements: the row word and the column word of the edge are at least 0 and below
  100000 (signed), and their quotients by 1000 agree. The float conjuncts that come first in the chain are passed over.
-/
import proofs.«416151_j72335839199610_2_alg».proof.Pre_finite_inputs
import proofs.«416151_j72335839199610_2_alg».proof.Proof.Gen.Pre_finite_inputs
import Idealize.ShloMosaic.Lib.ReduceAll
import Idealize.ShloMosaic.Lib.StableHlo.Predicate
import Idealize.ShloMosaic.Lib.ValueIdx

noncomputable section

namespace Cert.PreFacts

open Idealize.ShloMosaic
open Cert.Pre_finite_inputs

variable {F : FTy → Type} [FloatOps F] [Cert.Pre_finite_inputs.Facts]

/-- The scalar shape has one index. -/
instance subsingleton_S_ : Subsingleton S_.Idx := ⟨fun a b => funext fun d => d.elim0⟩

/-- The last link of the chain: the conjunction so far, and the last "every entry" statement. -/
theorem part3 (v44 : IVec S_ 1) (v49 : IVec S800000 1)
    (h : fn_part3 (F := F) v44 v49 ValueIdx.ix0 = 1#1) :
    v44 ValueIdx.ix0 = 1#1 ∧ ∀ i, v49 i = 1#1 := by
  unfold fn_part3 at h
  dsimp only at h
  obtain ⟨h1, h2⟩ := IntOp.andi_eq_one.1 h
  exact ⟨h1, fun i => Host.reduce_andi_all _ _ _ _ _ h2 i⟩

/-- The middle of the chain: the conjunction before it, then row word below the bound passed in, column word at least
    0, column word below 100000, and equal quotients by 1000, each at every edge. -/
theorem part2 (a2 a3 : IVec S800000 32) (v32 : IVec S_ 1) (c12 : IVec S_ 32)
    (h : fn_part2 (F := F) a2 a3 v32 c12 ValueIdx.ix0 = 1#1) :
    v32 ValueIdx.ix0 = 1#1
    ∧ (∀ i, IntOp.cmpi .slt (a2 i) (broadcastInDim S800000 ![] Facts.bcast_S_S800000 c12 i) = 1#1)
    ∧ (∀ i, IntOp.cmpi .sge (a3 i) 0#32 = 1#1)
    ∧ (∀ i, IntOp.cmpi .slt (a3 i) 100000#32 = 1#1)
    ∧ (∀ i, IntOp.cmpi .eq (IntOp.divsi .host (a2 i) 1000#32) (IntOp.divsi .host (a3 i) 1000#32) = 1#1) := by
  unfold fn_part2 at h
  dsimp only at h
  obtain ⟨h44, h49⟩ := part3 (F := F) _ _ h
  obtain ⟨h40, h43⟩ := IntOp.andi_eq_one.1 h44
  obtain ⟨h36, h39⟩ := IntOp.andi_eq_one.1 h40
  obtain ⟨h32, h35⟩ := IntOp.andi_eq_one.1 h36
  exact ⟨h32, fun i => Host.reduce_andi_all _ _ _ _ _ h35 i, fun i => Host.reduce_andi_all _ _ _ _ _ h39 i,
    fun i => Host.reduce_andi_all _ _ _ _ _ h43 i, h49⟩

/-- The head of the integer part: row word at least 0 at every edge, then the middle of the chain with the bound 100000. -/
theorem part1 (a2 a3 : IVec S800000 32) (a6 a7 : FVec F S128 .f32) (v13 : IVec S_ 1) (v16 : IVec S128 1)
    (h : fn_part1 (F := F) a2 a3 a6 a7 v13 v16 ValueIdx.ix0 = 1#1) :
    (∀ i, IntOp.cmpi .sge (a2 i) 0#32 = 1#1)
    ∧ (∀ i, IntOp.cmpi .slt (a2 i) 100000#32 = 1#1)
    ∧ (∀ i, IntOp.cmpi .sge (a3 i) 0#32 = 1#1)
    ∧ (∀ i, IntOp.cmpi .slt (a3 i) 100000#32 = 1#1)
    ∧ (∀ i, IntOp.cmpi .eq (IntOp.divsi .host (a2 i) 1000#32) (IntOp.divsi .host (a3 i) 1000#32) = 1#1) := by
  unfold fn_part1 at h
  dsimp only at h
  obtain ⟨h32, hlt, r⟩ := part2 (F := F) _ _ _ _ h
  obtain ⟨-, h31⟩ := IntOp.andi_eq_one.1 h32
  exact ⟨fun i => Host.reduce_andi_all _ _ _ _ _ h31 i, hlt, r⟩

/-- THE PRECONDITION AT EDGE e: both words in [0, 100000) signed, and in the same block of 1000. -/
theorem edge_facts (a0 : FVec F Cert.Pre_finite_inputs.S1 .f32) (a1 : FVec F Cert.Pre_finite_inputs.S400000x128 .f32)
    (a2 a3 : IVec Cert.Pre_finite_inputs.S800000 32)
    (a4 : FVec F Cert.Pre_finite_inputs.S128x128 .f32) (a5 a6 a7 : FVec F Cert.Pre_finite_inputs.S128 .f32)
    (h : Cert.Pre_finite_inputs.fn (F := F) a0 a1 a2 a3 a4 a5 a6 a7 = fun _ => 1#1) (e : Fin 800000) :
    IntOp.cmpi .sge (a2 (ValueIdx.ix1 e)) 0#32 = 1#1 ∧ IntOp.cmpi .slt (a2 (ValueIdx.ix1 e)) 100000#32 = 1#1
    ∧ IntOp.cmpi .sge (a3 (ValueIdx.ix1 e)) 0#32 = 1#1 ∧ IntOp.cmpi .slt (a3 (ValueIdx.ix1 e)) 100000#32 = 1#1
    ∧ IntOp.divsi .host (a2 (ValueIdx.ix1 e)) 1000#32 = IntOp.divsi .host (a3 (ValueIdx.ix1 e)) 1000#32 := by
  have h0 := congrFun h ValueIdx.ix0
  unfold Cert.Pre_finite_inputs.fn at h0
  dsimp only at h0
  obtain ⟨p0, p1, p2, p3, p4⟩ := part1 (F := F) _ _ _ _ _ _ h0
  exact ⟨p0 _, p1 _, p2 _, p3 _, StableHlo.Predicate.cmpi_eq_iff.1 (p4 _)⟩

end Cert.PreFacts

end
-- ==== Proof.lean ====
/-
  The certificate's five claims.

  Both programs compute, at the ideal instance, the specification `Cert.Spec.out`: the hidden layer h = max(x·Wᵀ + b, 0) on the S and I
  rows, the derivatives dS = (−β)·(AI·S), dI = −dS − γ·I, dR = γ·I normalised along the features, and the rate rows passed through.
  They differ only in the aggregate AI. The reference gathers the I row of each edge's source and adds it into the edge's target
  (`Cert.Spec.AIedges`). The kernel first counts, per target node r and per position lc inside r's block of 1000 nodes, the edges from
  that position, and multiplies this dense row with the block of I rows. Under the precondition — node numbers below 100000 and both
  ends of an edge in one block — every edge into r is counted at exactly one position of r's own block, and a count times a row is
  the row added that many times: the two aggregates agree (`AIk_eq_edges`, from `Cert.Agg.aggregate_eq`).
  The three frames: each kernel program's run (`run_main`) ends with its arguments as launched; the reference's is its run read back.
  The idealization changed no operation, so `preserves` has nothing to state.
-/
import proofs.«416151_j72335839199610_2_alg».proof.Defs
import proofs.«416151_j72335839199610_2_alg».proof.Proof.Gen.Kernel
import proofs.«416151_j72335839199610_2_alg».proof.Proof.Gen.KernelIdeal
import proofs.«416151_j72335839199610_2_alg».proof.Proof.Gen.ReferenceIdeal
import proofs.«416151_j72335839199610_2_alg».proof.Proof.Gen.Pre_finite_inputs
import proofs.«416151_j72335839199610_2_alg».proof.Proof.K.Launch
import proofs.«416151_j72335839199610_2_alg».proof.Proof.KI.Launch
import proofs.«416151_j72335839199610_2_alg».proof.Proof.KI.Value
import proofs.«416151_j72335839199610_2_alg».proof.Proof.KI.Host
import proofs.«416151_j72335839199610_2_alg».proof.Proof.RefValue
import proofs.«416151_j72335839199610_2_alg».proof.Proof.Agg
import proofs.«416151_j72335839199610_2_alg».proof.Proof.PreFacts
import proofs.«416151_j72335839199610_2_alg».proof.Proof.Words
import proofs.«416151_j72335839199610_2_alg».proof.Proof.Spec

noncomputable section

open Idealize.ShloMosaic Idealize.ShloMosaic.TcCoe Idealize.SL.Sem Idealize.ShloMosaic.ValueIdx

namespace Cert.Proof

open Cert.KernelIdeal.Hand

/-- The edge words of a memory admitted by the precondition are node numbers below 100000, and each edge's two ends lie in one
    block of 1000 nodes. -/
theorem edges_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (e : Fin 800000) :
    (m ((c.tc : Thread Cert.KernelIdeal.nD Cert.KernelIdeal.τ).loc Cert.KernelIdeal.main_arg2) (ix1 e)).toNat < 100000
    ∧ (m ((c.tc : Thread Cert.KernelIdeal.nD Cert.KernelIdeal.τ).loc Cert.KernelIdeal.main_arg3) (ix1 e)).toNat < 100000
    ∧ (m ((c.tc : Thread Cert.KernelIdeal.nD Cert.KernelIdeal.τ).loc Cert.KernelIdeal.main_arg2) (ix1 e)).toNat / 1000
        = (m ((c.tc : Thread Cert.KernelIdeal.nD Cert.KernelIdeal.τ).loc Cert.KernelIdeal.main_arg3) (ix1 e)).toNat / 1000 := by
  have hf := @Cert.PreFacts.edge_facts Ideal _ Cert.Pre_finite_inputs.Gen.facts _ _ _ _ _ _ _ _ (hpre c) e
  obtain ⟨h0, h1, h2, h3, h4⟩ := hf
  have hr := Cert.Words.lt_of_range _ h0 h1
  have hc := Cert.Words.lt_of_range _ h2 h3
  exact ⟨hr, hc, Cert.Words.div_eq_of_divsi_eq _ _ hr hc h4⟩

/-- The kernel's aggregate (adjacency row times the hidden rows of the node's block) is the sum over the edges into the node. -/
theorem AIk_eq_edges (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (r : Fin 100000) (h : Fin 128) :
    AIk m c r h = Cert.Spec.AIedges
      (fun e => (m ((c.tc : Thread Cert.KernelIdeal.nD Cert.KernelIdeal.τ).loc Cert.KernelIdeal.main_arg2) (ix1 e)).toNat)
      (fun e => (m ((c.tc : Thread Cert.KernelIdeal.nD Cert.KernelIdeal.τ).loc Cert.KernelIdeal.main_arg3) (ix1 e)).toNat)
      (fun e => (edges_of_pre m hpre c e).2.1) (Cert.Spec.hidI (xK m c) (wtK m c) (bK m c)) r h := by
  have hr := fun e => (edges_of_pre m hpre c e).1
  have hc := fun e => (edges_of_pre m hpre c e).2.1
  have hbd := fun e => (edges_of_pre m hpre c e).2.2
  unfold AIk Cert.Spec.AIedges
  refine (congrArg (fun s => (0 : EReal) + s) (Finset.sum_congr rfl fun lc _ => ?_)).trans
    (Cert.Agg.aggregate_eq _ _ hc hbd (Cert.Spec.hidI (xK m c) (wtK m c) (bK m c)) r h)
  exact congrArg (fun a : EReal => a * Cert.Spec.hidI (xK m c) (wtK m c) (bK m c) (Cert.Agg.blkRow r lc) h) (adj_apply m c hr hc hbd r lc)

/-- The word-level kernel program runs and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- The reference is host operations only: its run read back, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the specification's array: the kernel's joined result read
    index by index (`kernel_value`), the reference's run read index by index (`result_eq`), and the two aggregates equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => finalOut (F := Ideal) m c, run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq]
  obtain ⟨-, e1, e2, e3, e4, e5, e6, e7⟩ := hagree c
  rw [e1, e2, e3, e4, e5, e6, e7]
  funext i
  obtain ⟨r, h, rfl⟩ : ∃ (r : Fin 400000) (h : Fin 128), i = ix2 r h := ⟨i 0, i 1, eq_ix2 i⟩
  refine (Cert.ReferenceIdeal.RefValue.result_eq _ _ _ _ _ _ _ (fun e => (edges_of_pre m hpre c e).1) (fun e => (edges_of_pre m hpre c e).2.1) r h).trans ?_
  refine Eq.trans ?_ (kernel_value m c r h).symm
  refine congrArg (fun AI => Cert.Spec.out (xK m c) (wtK m c) (bK m c) (lnwK m c) (lnbK m c) AI r h) ?_
  funext r' h'
  exact (AIk_eq_edges m hpre c r' h').symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
